-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S8192x128 : Shape := ⟨2, ![8192, 128]⟩
abbrev S8192x1 : Shape := ⟨2, ![8192, 1]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S8192x64 : Shape := ⟨2, ![8192, 64]⟩
abbrev S1x64 : Shape := ⟨2, ![1, 64]⟩

abbrev nBuf : Space → Nat
  | .hbm => 99
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000, .f32⟩
  | .hbm, ⟨54, _⟩ => ⟨S100000x128, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x128, .f32⟩
  | .hbm, ⟨64, _⟩ => ⟨S1700000x1, .f32⟩
  | .hbm, ⟨65, _⟩ => ⟨S1700000x1, .f32⟩
  | .hbm, ⟨66, _⟩ => ⟨S1700000x1, .f32⟩
  | .hbm, ⟨67, _⟩ => ⟨S1700000x128, .f32⟩
  | .hbm, ⟨68, _⟩ => ⟨S_, .f32⟩
  | .hbm, ⟨69, _⟩ => ⟨S100000x128, .f32⟩
  | .hbm, ⟨70, _⟩ => ⟨S1700000x1, .i32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S100000x128, .f32⟩
  | .hbm, ⟨77, _⟩ => ⟨S100000x128, .f32⟩
  | .hbm, ⟨78, _⟩ => ⟨S100000x64, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000x64, .f32⟩
  | .hbm, ⟨88, _⟩ => ⟨S1700000x1, .f32⟩
  | .hbm, ⟨89, _⟩ => ⟨S1700000x1, .f32⟩
  | .hbm, ⟨90, _⟩ => ⟨S1700000x1, .f32⟩
  | .hbm, ⟨91, _⟩ => ⟨S1700000x64, .f32⟩
  | .hbm, ⟨92, _⟩ => ⟨S_, .f32⟩
  | .hbm, ⟨93, _⟩ => ⟨S100000x64, .f32⟩
  | .hbm, ⟨94, _⟩ => ⟨S1700000x1, .i32⟩
  | .hbm, ⟨95, _⟩ => ⟨S100000x64, .f32⟩
  | .hbm, ⟨96, _⟩ => ⟨S1x64, .f32⟩
  | .hbm, ⟨97, _⟩ => ⟨S100000x64, .f32⟩
  | .hbm, ⟨98, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S8192x128, .f32⟩
  | .local _ .vmem, ⟨6, _⟩ => ⟨S8192x128, .f32⟩
  | .local _ .vmem, ⟨7, _⟩ => ⟨S8192x1, .f32⟩
  | .local _ .vmem, ⟨8, _⟩ => ⟨S8192x1, .f32⟩
  | .local _ .vmem, ⟨9, _⟩ => ⟨S8192x1, .f32⟩
  | .local _ .vmem, ⟨10, _⟩ => ⟨S8192x1, .f32⟩
  | .local _ .vmem, ⟨11, _⟩ => ⟨S8192x1, .f32⟩
  | .local _ .vmem, ⟨12, _⟩ => ⟨S8192x1, .f32⟩
  | .local _ .vmem, ⟨13, _⟩ => ⟨S8192x128, .f32⟩
  | .local _ .vmem, ⟨14, _⟩ => ⟨S8192x128, .f32⟩
  | .local _ .vmem, ⟨15, _⟩ => ⟨S5000x128, .f32⟩
  | .local _ .vmem, ⟨16, _⟩ => ⟨S5000x128, .f32⟩
  | .local _ .vmem, ⟨17, _⟩ => ⟨S128x64, .f32⟩
  | .local _ .vmem, ⟨18, _⟩ => ⟨S5000x64, .f32⟩
  | .local _ .vmem, ⟨19, _⟩ => ⟨S5000x64, .f32⟩
  | .local _ .vmem, ⟨20, _⟩ => ⟨S8192x64, .f32⟩
  | .local _ .vmem, ⟨21, _⟩ => ⟨S8192x64, .f32⟩
  | .local _ .vmem, ⟨22, _⟩ => ⟨S8192x1, .f32⟩
  | .local _ .vmem, ⟨23, _⟩ => ⟨S8192x1, .f32⟩
  | .local _ .vmem, ⟨24, _⟩ => ⟨S8192x1, .f32⟩
  | .local _ .vmem, ⟨25, _⟩ => ⟨S8192x1, .f32⟩
  | .local _ .vmem, ⟨26, _⟩ => ⟨S8192x1, .f32⟩
  | .local _ .vmem, ⟨27, _⟩ => ⟨S8192x1, .f32⟩
  | .local _ .vmem, ⟨28, _⟩ => ⟨S8192x64, .f32⟩
  | .local _ .vmem, ⟨29, _⟩ => ⟨S8192x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_c_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call2_cst : Ref sig .tc := ⟨.hbm, 75, rfl⟩
abbrev main_call2_v0 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_c_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![208], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8192x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8192x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![208], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8192x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S8192x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S8192x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1700000_S1700000x1 : S1700000.ShapeCasts S1700000x1
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x128 : S8192x1.Broadcasts S8192x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  broadcasts_S8192x1_S8192x64 : S8192x1.Broadcasts S8192x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S8192x128.size a < S1700000x128.size a
  hwx1_0 : ∀ i : grid1.Coords, EltTy.bits .f32 = 32 ∨ (Rect.unit (s := S1700000x128) (fun a => cc1_transform_0 i a * S8192x128.size a) (fun a => (Pipeline.Clip.of (cc1_transform_0 i a) (S8192x128.size a) (S1700000x128.size a)).extent (S8192x128.size a)) fun a => Pipeline.Clip.inb (Pipeline.Clip.ok_of (hstart1_0 i a))).WholeWords (EltTy.packing .f32)
  hwxs1_0 : ∀ i : grid1.Coords, EltTy.bits .f32 = 32 ∨ (Rect.unit (s := S8192x128) (fun _ => 0) (fun a => (Pipeline.Clip.of (cc1_transform_0 i a) (S8192x128.size a) (S1700000x128.size a)).extent (S8192x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S8192x1.size a < S1700000x1.size a
  hwx1_1 : ∀ i : grid1.Coords, EltTy.bits .f32 = 32 ∨ (Rect.unit (s := S1700000x1) (fun a => cc1_transform_1 i a * S8192x1.size a) (fun a => (Pipeline.Clip.of (cc1_transform_1 i a) (S8192x1.size a) (S1700000x1.size a)).extent (S8192x1.size a)) fun a => Pipeline.Clip.inb (Pipeline.Clip.ok_of (hstart1_1 i a))).WholeWords (EltTy.packing .f32)
  hwxs1_1 : ∀ i : grid1.Coords, EltTy.bits .f32 = 32 ∨ (Rect.unit (s := S8192x1) (fun _ => 0) (fun a => (Pipeline.Clip.of (cc1_transform_1 i a) (S8192x1.size a) (S1700000x1.size a)).extent (S8192x1.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S8192x1.size a < S1700000x1.size a
  hwx1_2 : ∀ i : grid1.Coords, EltTy.bits .f32 = 32 ∨ (Rect.unit (s := S1700000x1) (fun a => cc1_transform_2 i a * S8192x1.size a) (fun a => (Pipeline.Clip.of (cc1_transform_2 i a) (S8192x1.size a) (S1700000x1.size a)).extent (S8192x1.size a)) fun a => Pipeline.Clip.inb (Pipeline.Clip.ok_of (hstart1_2 i a))).WholeWords (EltTy.packing .f32)
  hwxs1_2 : ∀ i : grid1.Coords, EltTy.bits .f32 = 32 ∨ (Rect.unit (s := S8192x1) (fun _ => 0) (fun a => (Pipeline.Clip.of (cc1_transform_2 i a) (S8192x1.size a) (S1700000x1.size a)).extent (S8192x1.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S8192x1.size a < S1700000x1.size a
  hwx1_3 : ∀ i : grid1.Coords, EltTy.bits .f32 = 32 ∨ (Rect.unit (s := S1700000x1) (fun a => cc1_transform_3 i a * S8192x1.size a) (fun a => (Pipeline.Clip.of (cc1_transform_3 i a) (S8192x1.size a) (S1700000x1.size a)).extent (S8192x1.size a)) fun a => Pipeline.Clip.inb (Pipeline.Clip.ok_of (hstart1_3 i a))).WholeWords (EltTy.packing .f32)
  hwxs1_3 : ∀ i : grid1.Coords, EltTy.bits .f32 = 32 ∨ (Rect.unit (s := S8192x1) (fun _ => 0) (fun a => (Pipeline.Clip.of (cc1_transform_3 i a) (S8192x1.size a) (S1700000x1.size a)).extent (S8192x1.size a)) fun a => (Nat.zero_add _).trans_le (Pipeline.Clip.extent_le (Pipeline.Clip.ok_of (hstart1_3 i a)))).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S8192x128.size a < S1700000x128.size a
  hwx1_4 : ∀ i : grid1.Coords, EltTy.bits .f32 = 32 ∨ (Rect.unit (s := S1700000x128) (fun a => cc1_transform_4 i a * S8192x128.size a) (fun a => (Pipeline.Clip.of (cc1_transform_4 i a) (S8192x128.size a) (S1700000x128.size a)).extent (S8192x128.size a)) fun a => Pipeline.Clip.inb (Pipeline.Clip.ok_of (hstart1_4 i a))).WholeWords (EltTy.packing .f32)
  hwxs1_4 : ∀ i : grid1.Coords, EltTy.bits .f32 = 32 ∨ (Rect.unit (s := S8192x128) (fun _ => 0) (fun a => (Pipeline.Clip.of (cc1_transform_4 i a) (S8192x128.size a) (S1700000x128.size a)).extent (S8192x128.size a)) fun a => (Nat.zero_add _).trans_le (Pipeline.Clip.extent_le (Pipeline.Clip.ok_of (hstart1_4 i a)))).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S8192x64.size a < S1700000x64.size a
  hwx3_0 : ∀ i : grid3.Coords, EltTy.bits .f32 = 32 ∨ (Rect.unit (s := S1700000x64) (fun a => cc3_transform_0 i a * S8192x64.size a) (fun a => (Pipeline.Clip.of (cc3_transform_0 i a) (S8192x64.size a) (S1700000x64.size a)).extent (S8192x64.size a)) fun a => Pipeline.Clip.inb (Pipeline.Clip.ok_of (hstart3_0 i a))).WholeWords (EltTy.packing .f32)
  hwxs3_0 : ∀ i : grid3.Coords, EltTy.bits .f32 = 32 ∨ (Rect.unit (s := S8192x64) (fun _ => 0) (fun a => (Pipeline.Clip.of (cc3_transform_0 i a) (S8192x64.size a) (S1700000x64.size a)).extent (S8192x64.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S8192x1.size a < S1700000x1.size a
  hwx3_1 : ∀ i : grid3.Coords, EltTy.bits .f32 = 32 ∨ (Rect.unit (s := S1700000x1) (fun a => cc3_transform_1 i a * S8192x1.size a) (fun a => (Pipeline.Clip.of (cc3_transform_1 i a) (S8192x1.size a) (S1700000x1.size a)).extent (S8192x1.size a)) fun a => Pipeline.Clip.inb (Pipeline.Clip.ok_of (hstart3_1 i a))).WholeWords (EltTy.packing .f32)
  hwxs3_1 : ∀ i : grid3.Coords, EltTy.bits .f32 = 32 ∨ (Rect.unit (s := S8192x1) (fun _ => 0) (fun a => (Pipeline.Clip.of (cc3_transform_1 i a) (S8192x1.size a) (S1700000x1.size a)).extent (S8192x1.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S8192x1.size a < S1700000x1.size a
  hwx3_2 : ∀ i : grid3.Coords, EltTy.bits .f32 = 32 ∨ (Rect.unit (s := S1700000x1) (fun a => cc3_transform_2 i a * S8192x1.size a) (fun a => (Pipeline.Clip.of (cc3_transform_2 i a) (S8192x1.size a) (S1700000x1.size a)).extent (S8192x1.size a)) fun a => Pipeline.Clip.inb (Pipeline.Clip.ok_of (hstart3_2 i a))).WholeWords (EltTy.packing .f32)
  hwxs3_2 : ∀ i : grid3.Coords, EltTy.bits .f32 = 32 ∨ (Rect.unit (s := S8192x1) (fun _ => 0) (fun a => (Pipeline.Clip.of (cc3_transform_2 i a) (S8192x1.size a) (S1700000x1.size a)).extent (S8192x1.size a)) fun a => (Nat.zero_add _).trans_le (Pipeline.Clip.extent_le (Pipeline.Clip.ok_of (hstart3_2 i a)))).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hstart3_3 : ∀ (i : grid3.Coords) a, cc3_transform_3 i a * S8192x1.size a < S1700000x1.size a
  hwx3_3 : ∀ i : grid3.Coords, EltTy.bits .f32 = 32 ∨ (Rect.unit (s := S1700000x1) (fun a => cc3_transform_3 i a * S8192x1.size a) (fun a => (Pipeline.Clip.of (cc3_transform_3 i a) (S8192x1.size a) (S1700000x1.size a)).extent (S8192x1.size a)) fun a => Pipeline.Clip.inb (Pipeline.Clip.ok_of (hstart3_3 i a))).WholeWords (EltTy.packing .f32)
  hwxs3_3 : ∀ i : grid3.Coords, EltTy.bits .f32 = 32 ∨ (Rect.unit (s := S8192x1) (fun _ => 0) (fun a => (Pipeline.Clip.of (cc3_transform_3 i a) (S8192x1.size a) (S1700000x1.size a)).extent (S8192x1.size a)) fun a => (Nat.zero_add _).trans_le (Pipeline.Clip.extent_le (Pipeline.Clip.ok_of (hstart3_3 i a)))).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hstart3_4 : ∀ (i : grid3.Coords) a, cc3_transform_4 i a * S8192x64.size a < S1700000x64.size a
  hwx3_4 : ∀ i : grid3.Coords, EltTy.bits .f32 = 32 ∨ (Rect.unit (s := S1700000x64) (fun a => cc3_transform_4 i a * S8192x64.size a) (fun a => (Pipeline.Clip.of (cc3_transform_4 i a) (S8192x64.size a) (S1700000x64.size a)).extent (S8192x64.size a)) fun a => Pipeline.Clip.inb (Pipeline.Clip.ok_of (hstart3_4 i a))).WholeWords (EltTy.packing .f32)
  hwxs3_4 : ∀ i : grid3.Coords, EltTy.bits .f32 = 32 ∨ (Rect.unit (s := S8192x64) (fun _ => 0) (fun a => (Pipeline.Clip.of (cc3_transform_4 i a) (S8192x64.size a) (S1700000x64.size a)).extent (S8192x64.size a)) fun a => (Nat.zero_add _).trans_le (Pipeline.Clip.extent_le (Pipeline.Clip.ok_of (hstart3_4 i a)))).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_v40) S8192x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v41) S8192x1.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v42) S8192x1.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v43) S8192x1.size cc1_transform_3 reads1_3 false false 2 stage1_3 sem1_3
    hrank1 hreads1_3 hstart1_3 nbuf1_3 (Memref.isWhole_whole _) hwx1_3 hwxs1_3 hstage1_3

abbrev win1_4 : Pipeline.Window sig grid1 :=
  Pipeline.Window.ofSpecClip (Memref.whole main_v44) S8192x128.size cc1_transform_4 reads1_4 true false 2 stage1_4 sem1_4
    hrank1 hreads1_4 hstart1_4 nbuf1_4 (Memref.isWhole_whole _) hwx1_4 hwxs1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpecClip (Memref.whole main_v59) S8192x64.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpecClip (Memref.whole main_v60) S8192x1.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_v61) S8192x1.size cc3_transform_2 reads3_2 false false 2 stage3_2 sem3_2
    hrank3 hreads3_2 hstart3_2 nbuf3_2 (Memref.isWhole_whole _) hwx3_2 hwxs3_2 hstage3_2

abbrev win3_3 : Pipeline.Window sig grid3 :=
  Pipeline.Window.ofSpecClip (Memref.whole main_v62) S8192x1.size cc3_transform_3 reads3_3 false false 2 stage3_3 sem3_3
    hrank3 hreads3_3 hstart3_3 nbuf3_3 (Memref.isWhole_whole _) hwx3_3 hwxs3_3 hstage3_3

abbrev win3_4 : Pipeline.Window sig grid3 :=
  Pipeline.Window.ofSpecClip (Memref.whole main_v63) S8192x64.size cc3_transform_4 reads3_4 true false 2 stage3_4 sem3_4
    hrank3 hreads3_4 hstart3_4 nbuf3_4 (Memref.isWhole_whole _) hwx3_4 hwxs3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 138
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x64, .f32⟩
  | 6 => ⟨S64, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S100000, .f32⟩
  | 16 => ⟨S1700000, .f32⟩
  | 17 => ⟨S100000x128, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .i1⟩
  | 28 => ⟨S_, .f32⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x1, .f32⟩
  | 67 => ⟨S1700000x128, .f32⟩
  | 68 => ⟨S1700000x128, .f32⟩
  | 69 => ⟨S_, .f32⟩
  | 70 => ⟨S100000x128, .f32⟩
  | 71 => ⟨S1700000x1, .i32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x64, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .i1⟩
  | 87 => ⟨S_, .f32⟩
  | 88 => ⟨S100000, .f32⟩
  | 89 => ⟨S100000, .i1⟩
  | 90 => ⟨S_, .f32⟩
  | 91 => ⟨S_, .f32⟩
  | 92 => ⟨S100000, .f32⟩
  | 93 => ⟨S100000, .f32⟩
  | 94 => ⟨S100000, .f32⟩
  | 95 => ⟨S_, .f32⟩
  | 96 => ⟨S_, .f32⟩
  | 97 => ⟨S100000, .f32⟩
  | 98 => ⟨S100000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000, .f32⟩
  | 118 => ⟨S1700000, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000x64, .f32⟩
  | _ => ⟨S100000x128, .f32⟩

abbrev hbmTy0_1 (i : Nat) : BufTy := match i % 128 with
  | 0 => ⟨S1700000x1, .f32⟩
  | 1 => ⟨S1700000x64, .f32⟩
  | 2 => ⟨S1700000x64, .f32⟩
  | 3 => ⟨S_, .f32⟩
  | 4 => ⟨S100000x64, .f32⟩
  | 5 => ⟨S1700000x1, .i32⟩
  | 6 => ⟨S100000x64, .f32⟩
  | 7 => ⟨S1x64, .f32⟩
  | 8 => ⟨S100000x64, .f32⟩
  | 9 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_cst : Ref sig .tc := ⟨.hbm, 76, rfl⟩
abbrev main_call2_v0 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_cst_13 : Ref sig .tc := ⟨.hbm, 87, rfl⟩
abbrev main_v59 : Ref sig .tc := ⟨.hbm, 88, rfl⟩
abbrev main_v60 : Ref sig .tc := ⟨.hbm, 89, rfl⟩
abbrev main_cst_14 : Ref sig .tc := ⟨.hbm, 90, rfl⟩
abbrev main_call3_v0 : Ref sig .tc := ⟨.hbm, 91, rfl⟩
abbrev main_call3_v1 : Ref sig .tc := ⟨.hbm, 92, rfl⟩
abbrev main_v61 : Ref sig .tc := ⟨.hbm, 93, rfl⟩
abbrev main_v62 : Ref sig .tc := ⟨.hbm, 94, rfl⟩
abbrev main_cst_15 : Ref sig .tc := ⟨.hbm, 95, rfl⟩
abbrev main_call4_v0 : Ref sig .tc := ⟨.hbm, 96, rfl⟩
abbrev main_call4_v1 : Ref sig .tc := ⟨.hbm, 97, rfl⟩
abbrev main_v63 : Ref sig .tc := ⟨.hbm, 98, rfl⟩
abbrev main_c_16 : Ref sig .tc := ⟨.hbm, 99, rfl⟩
abbrev main_v64 : Ref sig .tc := ⟨.hbm, 100, rfl⟩
abbrev main_v65 : Ref sig .tc := ⟨.hbm, 101, rfl⟩
abbrev main_c_17 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_18 : Ref sig .tc := ⟨.hbm, 109, rfl⟩
abbrev main_v72 : Ref sig .tc := ⟨.hbm, 110, rfl⟩
abbrev main_v73 : Ref sig .tc := ⟨.hbm, 111, rfl⟩
abbrev main_c_19 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_20 : Ref sig .tc := ⟨.hbm, 119, rfl⟩
abbrev main_v80 : Ref sig .tc := ⟨.hbm, 120, rfl⟩
abbrev main_v81 : Ref sig .tc := ⟨.hbm, 121, rfl⟩
abbrev main_c_21 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_22 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Dats.lean ====
/-
  The proof data of the four kernel regions, each stated at the contents `V` its region is entered from.

  Regions 0 and 2 are the dense products: at grid point `t` the body loads a 5000-row block of the left operand
  and the whole right operand, and stores their matrix product into the result's 5000-row block. Their blocks
  tile the arrays, so after the body each input buffer holds its block and the result buffer the product.

  Regions 1 and 3 form the messages: at grid point `t` the body loads an 8192-row block of the gathered
  features and of the three per-edge coefficient columns and stores the features scaled, row by row, by the
  product of the three coefficients. The 1 700 000 edge rows are not a multiple of 8192, so the last of the
  208 blocks reaches past the arrays' end: a fetch fills only the rows inside the array and a write-back
  writes only those. The data names each buffer after the body on all 8192 rows by filling the rows past the
  array with the zero word; the body obligation states the buffers on the rows inside the array only.
-/
import proofs.«136756_j77644418777510_1_alg».proof.Proof.Gen.KernelIdeal.Launch
import proofs.«136756_j77644418777510_1_alg».proof.Proof.Gen.KernelIdeal.Skeleton
import proofs.«136756_j77644418777510_1_alg».proof.Proof.Gen.KernelIdeal.Points
import Idealize.ShloMosaic.Lib.Pipeline.FrameBody
import Idealize.ShloMosaic.Lib.Pipeline.Kit
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

-- the contents a region is entered from: every TensorCore buffer of core `c`
variable (V : (c : Dev nD) → (b : Ref sig .tc) → Buf (Elt F) ((c : Thread nD τ).loc b))

/-! ## Region 0: the first dense product -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0

/-- The result buffer after the body: the one whole store of the product of the two loaded blocks. -/
def out0_2 (x0 : Vec F S5000x128 .f32) (x1 : Vec F S128x128 .f32) : Vec F S5000x128 .f32 :=
  View.canon [⟨r0_x, k0_pay1 (View.ld x0 r0_x) (View.ld x1 r0_w)⟩]

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-! ## Region 2: the second dense product -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S5000x128 := Rect.unit (s := S5000x128) ![0, 0] S5000x128.size inb_S5000x128_S5000x128_0_0
abbrev r2_w : Rect S128x64 := Rect.unit (s := S128x64) ![0, 0] S128x64.size inb_S128x64_S128x64_0_0
abbrev r2_o : Rect S5000x64 := Rect.unit (s := S5000x64) ![0, 0] S5000x64.size inb_S5000x64_S5000x64_0_0

def out2_2 (x0 : Vec F S5000x128 .f32) (x1 : Vec F S128x64 .f32) : Vec F S5000x64 .f32 :=
  View.canon [⟨r2_o, k2_pay1 (View.ld x0 r2_x) (View.ld x1 r2_w)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-! ## Region 1: the first layer's messages -/

/-- Window `w`'s block at point `t` as the fetch reads it: its rows inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The same block on all 8192 rows: the rows past the array's end hold the zero word. -/
def fblk1_0 (c : Dev nD) (t : Fin cfg1.N) : Vec F S8192x128 .f32 :=
  win1_0.fill (grid1.coords t) (fun _ => Scalar.ofBits .f32 0#32) (iblk1 V c 0 t)
def fblk1_1 (c : Dev nD) (t : Fin cfg1.N) : Vec F S8192x1 .f32 :=
  win1_1.fill (grid1.coords t) (fun _ => Scalar.ofBits .f32 0#32) (iblk1 V c 1 t)
def fblk1_2 (c : Dev nD) (t : Fin cfg1.N) : Vec F S8192x1 .f32 :=
  win1_2.fill (grid1.coords t) (fun _ => Scalar.ofBits .f32 0#32) (iblk1 V c 2 t)
def fblk1_3 (c : Dev nD) (t : Fin cfg1.N) : Vec F S8192x1 .f32 :=
  win1_3.fill (grid1.coords t) (fun _ => Scalar.ofBits .f32 0#32) (iblk1 V c 3 t)

abbrev r1_h : Rect S8192x128 := Rect.unit (s := S8192x128) ![0, 0] S8192x128.size inb_S8192x128_S8192x128_0_0
abbrev r1_c : Rect S8192x1 := Rect.unit (s := S8192x1) ![0, 0] S8192x1.size inb_S8192x1_S8192x1_0_0

/-- The message buffer after the body, from the feature block `h` and the three coefficient columns. -/
def out1_4 (h : Vec F S8192x128 .f32) (a b d : Vec F S8192x1 .f32) : Vec F S8192x128 .f32 :=
  View.canon [⟨r1_h, k1_pay1 (View.ld a r1_c) (View.ld b r1_c) (View.ld d r1_c) (View.ld h r1_h)⟩]

def dat1 (c : Dev nD) : Dat τ (Elt F) Unit ℕ (UR sig nD τ) ℕ cfg1 c where
  A w := V c (Pipeline.arrRef spec1 w)
  after w t := match w with
    | ⟨0, _⟩ => fblk1_0 V c t
    | ⟨1, _⟩ => fblk1_1 V c t
    | ⟨2, _⟩ => fblk1_2 V c t
    | ⟨3, _⟩ => fblk1_3 V c t
    | ⟨4, _⟩ => out1_4 (fblk1_0 V c t) (fblk1_1 V c t) (fblk1_2 V c t) (fblk1_3 V c t)
  Φ _ := Pipeline.ΦA spec1 c
  q _ := fullShare
  owed _ := 0

/-! ## Region 3: the second layer's messages -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def fblk3_0 (c : Dev nD) (t : Fin cfg3.N) : Vec F S8192x64 .f32 :=
  win3_0.fill (grid3.coords t) (fun _ => Scalar.ofBits .f32 0#32) (iblk3 V c 0 t)
def fblk3_1 (c : Dev nD) (t : Fin cfg3.N) : Vec F S8192x1 .f32 :=
  win3_1.fill (grid3.coords t) (fun _ => Scalar.ofBits .f32 0#32) (iblk3 V c 1 t)
def fblk3_2 (c : Dev nD) (t : Fin cfg3.N) : Vec F S8192x1 .f32 :=
  win3_2.fill (grid3.coords t) (fun _ => Scalar.ofBits .f32 0#32) (iblk3 V c 2 t)
def fblk3_3 (c : Dev nD) (t : Fin cfg3.N) : Vec F S8192x1 .f32 :=
  win3_3.fill (grid3.coords t) (fun _ => Scalar.ofBits .f32 0#32) (iblk3 V c 3 t)

abbrev r3_h : Rect S8192x64 := Rect.unit (s := S8192x64) ![0, 0] S8192x64.size inb_S8192x64_S8192x64_0_0
abbrev r3_c : Rect S8192x1 := Rect.unit (s := S8192x1) ![0, 0] S8192x1.size inb_S8192x1_S8192x1_0_0

def out3_4 (h : Vec F S8192x64 .f32) (a b d : Vec F S8192x1 .f32) : Vec F S8192x64 .f32 :=
  View.canon [⟨r3_h, k3_pay1 (View.ld a r3_c) (View.ld b r3_c) (View.ld d r3_c) (View.ld h r3_h)⟩]

def dat3 (c : Dev nD) : Dat τ (Elt F) Unit ℕ (UR sig nD τ) ℕ cfg3 c where
  A w := V c (Pipeline.arrRef spec3 w)
  after w t := match w with
    | ⟨0, _⟩ => fblk3_0 V c t
    | ⟨1, _⟩ => fblk3_1 V c t
    | ⟨2, _⟩ => fblk3_2 V c t
    | ⟨3, _⟩ => fblk3_3 V c t
    | ⟨4, _⟩ => out3_4 (fblk3_0 V c t) (fblk3_1 V c t) (fblk3_2 V c t) (fblk3_3 V c t)
  Φ _ := Pipeline.ΦA spec3 c
  q _ := fullShare
  owed _ := 0

end Cert.KernelIdeal.Hand

end
-- ==== Proof.Data.lean ====
/-
  What the four kernel regions leave in the buffers they write, pinned down.

  Between two items of the program core `c` holds every buffer at a valuation: the launch contents pushed through
  each stretch of host operations, and at each kernel region updated at the one buffer the region writes. Each
  region's result is what its pipeline's write-backs leave (the proof data's array after the last grid point),
  computed from the valuation the region is entered from, which itself holds the earlier regions' results. `OutsOk`
  states this chain of four equations for a family `outs` of such results, and `exists_outs` constructs one by
  walking the program once. Everything downstream takes `outs` with `OutsOk` and never looks inside.
-/
import proofs.«136756_j77644418777510_1_alg».proof.Proof.Dats
import proofs.«136756_j77644418777510_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ)

/-- A family of valuations read at the TensorCore's references: what a region's proof data takes. -/
abbrev atTc (W : Dev nD → Valuation τ sig (Elt F)) : (c : Dev nD) → (b : Ref sig .tc) → Buf (Elt F) ((c : Thread nD τ).loc b) :=
  fun c b => W c b

/-- The four results are what the four pipelines compute, each from the valuation its region is entered from. -/
structure OutsOk (outs : Outs (F := F)) : Prop where
  o6 : ∀ c : Dev nD, outs 6 main_v33 c = (dat0 (atTc (V5 m)) c).arrAt 2 cfg0.N
  o8 : ∀ c : Dev nD, outs 8 main_v44 c = (dat1 (atTc (V7 m outs)) c).arrAt 4 cfg1.N
  o11 : ∀ c : Dev nD, outs 11 main_v52 c = (dat2 (atTc (V10 m outs)) c).arrAt 2 cfg2.N
  o13 : ∀ c : Dev nD, outs 13 main_v63 c = (dat3 (atTc (V12 m outs)) c).arrAt 4 cfg3.N

/-- Every pipeline's proof data, each at its region's entry valuation. -/
def pdats (outs : Outs (F := F)) : (p : Fin 4) → (c : Dev nD) → Dat τ (Elt F) Unit ℕ (UR sig nD τ) ℕ (cfgs p) c
  | ⟨0, _⟩ => fun c => dat0 (atTc (V5 m)) c
  | ⟨1, _⟩ => fun c => dat1 (atTc (V7 m outs)) c
  | ⟨2, _⟩ => fun c => dat2 (atTc (V10 m outs)) c
  | ⟨3, _⟩ => fun c => dat3 (atTc (V12 m outs)) c

/-! ## A family that satisfies the equations -/

/-- The valuations of one walk through the program, each region's result computed on the way. -/
def Y6 (c : Dev nD) : Valuation τ sig (Elt F) := Function.update (V5 m c) main_v33 ((dat0 (atTc (V5 m)) c).arrAt 2 cfg0.N)
def Y7 (c : Dev nD) : Valuation τ sig (Elt F) := StableHlo.after hostOps1 (Y6 m c)
def Y8 (c : Dev nD) : Valuation τ sig (Elt F) := Function.update (Y7 m c) main_v44 ((dat1 (atTc (Y7 m)) c).arrAt 4 cfg1.N)
def Y9 (c : Dev nD) : Valuation τ sig (Elt F) := StableHlo.after hostOps2 (Y8 m c)
def Y10 (c : Dev nD) : Valuation τ sig (Elt F) := StableHlo.after hostOps2_1 (Y9 m c)
def Y11 (c : Dev nD) : Valuation τ sig (Elt F) := Function.update (Y10 m c) main_v52 ((dat2 (atTc (Y10 m)) c).arrAt 2 cfg2.N)
def Y12 (c : Dev nD) : Valuation τ sig (Elt F) := StableHlo.after hostOps3 (Y11 m c)
def Y13 (c : Dev nD) : Valuation τ sig (Elt F) := Function.update (Y12 m c) main_v63 ((dat3 (atTc (Y12 m)) c).arrAt 4 cfg3.N)

/-- The results read off that walk. -/
def theOuts : Outs (F := F) := fun j r c =>
  if j = 6 then Y6 m c r else if j = 8 then Y8 m c r else if j = 11 then Y11 m c r else Y13 m c r

theorem theOuts_6 (r : Ref sig .tc) (c : Dev nD) : theOuts m 6 r c = Y6 m c r := by unfold theOuts; rw [if_pos rfl]
theorem theOuts_8 (r : Ref sig .tc) (c : Dev nD) : theOuts m 8 r c = Y8 m c r := by
  unfold theOuts; rw [if_neg (by decide), if_pos rfl]
theorem theOuts_11 (r : Ref sig .tc) (c : Dev nD) : theOuts m 11 r c = Y11 m c r := by
  unfold theOuts; rw [if_neg (by decide), if_neg (by decide), if_pos rfl]
theorem theOuts_13 (r : Ref sig .tc) (c : Dev nD) : theOuts m 13 r c = Y13 m c r := by
  unfold theOuts; rw [if_neg (by decide), if_neg (by decide), if_neg (by decide)]

theorem V6_theOuts (c : Dev nD) : V6 m (theOuts m) c = Y6 m c := by
  show Function.update (V5 m c) main_v33 (theOuts m 6 main_v33 c) = _
  rw [theOuts_6]; unfold Y6; rw [Function.update_self]
theorem V7_theOuts : V7 m (theOuts m) = Y7 m := by
  funext c; show StableHlo.after hostOps1 (V6 m (theOuts m) c) = _; rw [V6_theOuts]; rfl
theorem V8_theOuts (c : Dev nD) : V8 m (theOuts m) c = Y8 m c := by
  show Function.update (V7 m (theOuts m) c) main_v44 (theOuts m 8 main_v44 c) = _
  rw [V7_theOuts, theOuts_8]; unfold Y8; rw [Function.update_self]
theorem V10_theOuts : V10 m (theOuts m) = Y10 m := by
  funext c; show StableHlo.after hostOps2_1 (StableHlo.after hostOps2 (V8 m (theOuts m) c)) = _; rw [V8_theOuts]; rfl
theorem V11_theOuts (c : Dev nD) : V11 m (theOuts m) c = Y11 m c := by
  show Function.update (V10 m (theOuts m) c) main_v52 (theOuts m 11 main_v52 c) = _
  rw [V10_theOuts, theOuts_11]; unfold Y11; rw [Function.update_self]
theorem V12_theOuts : V12 m (theOuts m) = Y12 m := by
  funext c; show StableHlo.after hostOps3 (V11 m (theOuts m) c) = _; rw [V11_theOuts]; rfl

theorem theOuts_ok : OutsOk m (theOuts m) where
  o6 c := by rw [theOuts_6]; unfold Y6; rw [Function.update_self]
  o8 c := by rw [V7_theOuts, theOuts_8]; unfold Y8; rw [Function.update_self]
  o11 c := by rw [V10_theOuts, theOuts_11]; unfold Y11; rw [Function.update_self]
  o13 c := by rw [V12_theOuts, theOuts_13]; unfold Y13; rw [Function.update_self]

theorem exists_outs : ∃ outs : Outs (F := F), OutsOk m outs := ⟨theOuts m, theOuts_ok m⟩

end Cert.KernelIdeal.Hand

end
-- ==== Proof.R0.lean ====
import proofs.«136756_j77644418777510_1_alg».proof.Proof.Dats
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

local notation "𝕄" => MT nD τ sig Unit (Elt F) ℕ (UR sig nD τ) ℕ

/-! ## The first dense product at one grid point

At point `t` the left operand's buffer holds rows `5000 t … 5000 t + 4999` of the left matrix and the right
operand's buffer the whole 128 × 128 right matrix. The body reads both, reads (and drops) the result buffer,
and writes the 5000 × 128 product over the whole result buffer. -/

/-- The data's arrays are the contents the region is entered from. -/
theorem arr0 (c : Dev nD) (w : Fin cfg0.W) : (dat0 V c).A w = V c (Pipeline.arrRef spec0 w) := by
  dsimp only [dat0]

/-- After the body the left operand's buffer still holds its row block, -/
theorem left0_x (c : Dev nD) (t : Fin cfg0.N) : (dat0 V c).after 0 t = iblk0 V c 0 t := by dsimp only [dat0]
/-- the right operand's buffer still holds the right matrix, -/
theorem left0_w (c : Dev nD) (t : Fin cfg0.N) : (dat0 V c).after 1 t = iblk0 V c 1 t := by dsimp only [dat0]
/-- and the result buffer holds the product of the two. -/
theorem left0_o (c : Dev nD) (t : Fin cfg0.N) :
    (dat0 V c).after 2 t = out0_2 (iblk0 V c 0 t) (iblk0 V c 1 t) := by dsimp only [dat0]

/-- The left operand's row block is in its buffer when the body starts: the block index moves at every
    point, the body does not write the buffer, and the 20 blocks of 5000 rows tile the 100000 rows, so a
    fetch brings in exactly the block. -/
theorem found0_x (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := by
    intro s; rw [left0_x]; unfold Dat.blockOf iblk0; rw [arr0]
  rw [(dat0 V c).before_in_eq_fetched 0 rfl (fun _ => rfl) (fun _ _ _ => rfl) hkeep t d]
  unfold Dat.fetched Dat.blockOf iblk0; rw [arr0]; rfl

/-- The right matrix is in its buffer when the body starts, at the first point because it is fetched
    there, at every later point because its block index is the same at all points and the body leaves the
    buffer as it found it. -/
theorem found0_w (c : Dev nD) (t : Fin cfg0.N) (d) : (dat0 V c).before 1 t d = iblk0 V c 1 t := by
  have hkeep : ∀ s, (cfg0.win 1).cut (cfg0.grid.coords s) ((dat0 V c).after 1 s) = (dat0 V c).blockOf 1 s := by
    intro s; rw [left0_w]; unfold Dat.blockOf iblk0; rw [arr0]
  rw [(dat0 V c).before_in_eq_fetched 1 rfl (fun _ => rfl) (fun _ _ _ => rfl) hkeep t d]
  unfold Dat.fetched Dat.blockOf iblk0; rw [arr0]; rfl

/-- The one store writes the rectangle of all 5000 × 128 positions, so every position of the result
    buffer lies in it. -/
theorem whole0 (p : Vec F S5000x128 .f32) (y : S5000x128.Idx) :
    ∃ pc ∈ ([⟨r0_x, p⟩] : List (View.Piece (Elt F) S5000x128 .f32)), y ∈ pc.1.set :=
  View.cover_of_tiled [⟨r0_x, p⟩] S5000x128.size (by rfl) y

set_option maxHeartbeats 1000000 in
/-- The body on any three whole buffers. Given the left buffer reading `x0`, the right buffer reading
    `x1` and the result buffer at anything, it runs to a state where the two operand buffers read what
    they did and the result buffer reads `out0_2 x0 x1`: the two loads return `x0` and `x1` through the
    full rectangles, the third load's value is unused, and the store of the product overwrites every
    position of the result buffer (`whole0`), so nothing of its earlier contents is left. -/
theorem product0_triple (c : Dev nD) (E : Set ℕ) (i : grid0.Coords)
    (bx : Memref sig .tc .vmem S5000x128 .f32) (hbx : bx.IsWhole)
    (bw : Memref sig .tc .vmem S128x128 .f32) (hbw : bw.IsWhole)
    (bo : Memref sig .tc .vmem S5000x128 .f32) (hbo : bo.IsWhole)
    (x0 : Vec F S5000x128 .f32) (x1 : Vec F S128x128 .f32) (K : PUnit → sProp 𝕄) :
    iprop(owns (c : Thread nD τ) bx fullShare x0 ∗ owns (c : Thread nD τ) bw fullShare x1
        ∗ (∃ d, owns (c : Thread nD τ) bo fullShare d)
        ∗ (iprop(owns (c : Thread nD τ) bx fullShare x0 ∗ owns (c : Thread nD τ) bw fullShare x1
            ∗ owns (c : Thread nD τ) bo fullShare (out0_2 x0 x1)) -∗ K ⟨⟩))
      ⊢ wp frame (wpE (defs₀ (F := F)) Variants.none c none) E (cc0__matmul_kernel i bx hbx bw hbw bo hbo) K := by
  simp only [cc0__matmul_kernel_eq_skeleton]; unfold cc0__matmul_kernel_skel
  unfold owns
  iintro ⟨⟨%fx, %hfx, Hx⟩, ⟨%fw, %hfw, Hw⟩, ⟨%d, %fo, -, Ho⟩, Hk⟩
  subst hfx; subst hfw
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Ho
  ipureintro
  exact View.read_writes_eq_canon _ _ _ (whole0 _)

/-- At every grid point the three current buffers are whole, the operand buffers hold their blocks
    (`found0_x`, `found0_w`), and the invariant and the core's debt are the same before and after the
    point, so `product0_triple` at the two blocks gives what the data says the body leaves. -/
theorem body_obligation0 (c : Dev nD) : BodyObligation (dat0 (F := F) V c) (defs₀ (F := F)) Variants.none () Set.univ := by
  intro t
  rw [bigSep_W0, bigSep_W0]
  simp only [found0_x, found0_w]
  rw [show (dat0 V c).Φ t.succ = (dat0 V c).Φ t.castSucc from rfl,
    show (dat0 V c).owesAt () t.succ = (dat0 V c).owesAt () t.castSucc from rfl,
    left0_x, left0_w, left0_o]
  show _ ⊢ wp frame _ Set.univ (bodyAt0 t) _
  unfold bodyAt0
  iintro ⟨HΦ, Hd, ⟨%d0, Hx⟩, ⟨%d1, Hw⟩, ⟨%d2, Ho⟩⟩
  iapply (product0_triple c Set.univ _ _ _ _ _ _ _ (iblk0 V c 0 t) (iblk0 V c 1 t) _)
  isplitl [Hx]; · iexact Hx
  isplitl [Hw]; · iexact Hw
  isplitl [Ho]; · iexists _; iexact Ho
  iintro ⟨Hx, Hw, Ho⟩
  isplitl [HΦ]; · iexact HΦ
  isplitl [Hd]; · iexact Hd
  isplitl [Hx]; · iexact Hx
  isplitl [Hw]; · iexact Hw
  iexact Ho

end Cert.KernelIdeal.Hand

end
-- ==== Proof.R1.lean ====
import proofs.«136756_j77644418777510_1_alg».proof.Proof.Dats
import Idealize.ShloMosaic.Lib.Tactic
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

local notation "𝕄" => MT nD τ sig Unit (Elt F) ℕ (UR sig nD τ) ℕ

/-! ## The body on whole buffers -/

/-- The zero offsets of a whole-buffer access, as the constant function. -/
theorem off00_1 : (![0, 0] : Fin 2 → Nat) = fun _ => 0 := funext fun a => by fin_cases a <;> rfl

set_option maxHeartbeats 1000000 in
/-- The body on five whole staging memrefs: the feature buffer at `x0`, the three coefficient buffers at `x1`,
    `x2`, `x3`, the message buffer at anything. Four whole loads, a dead whole load of the message buffer and one
    whole store leave the inputs as they were and the message buffer at `out1_4 x0 x1 x2 x3`. -/
theorem sound_kernel1 (c : Dev nD) (E : Set ℕ) (i : grid1.Coords)
    (arg1 : Memref sig .tc .vmem S8192x128 .f32) (harg1 : arg1.IsWhole)
    (arg2 : Memref sig .tc .vmem S8192x1 .f32) (harg2 : arg2.IsWhole)
    (arg3 : Memref sig .tc .vmem S8192x1 .f32) (harg3 : arg3.IsWhole)
    (arg4 : Memref sig .tc .vmem S8192x1 .f32) (harg4 : arg4.IsWhole)
    (arg5 : Memref sig .tc .vmem S8192x128 .f32) (harg5 : arg5.IsWhole)
    (x0 : Vec F S8192x128 .f32) (x1 x2 x3 : Vec F S8192x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__message_kernel i arg1 harg1 arg2 harg2 arg3 harg3 arg4 harg4 arg5 harg5) K := by
  simp only [cc1__message_kernel_eq_skeleton]; unfold cc1__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the one store is through the whole buffer, so it covers every entry
  exact View.read_writes_eq_canon _ _ _ fun y =>
    ⟨_, List.mem_singleton_self _, View.mem_set_unit_zero off00_1 inb_S8192x128_S8192x128_0_0 y⟩

/-! ## The payload, entry by entry -/

/-- Entry `j` of the payload: the feature entry at `j` times the product of the three coefficients of `j`'s row
    (the casts are to the same shape; the broadcast of a one-column vector reads column 0 of the row). -/
theorem k1_pay1_apply (a b d : Vec F S8192x1 .f32) (h : Vec F S8192x128 .f32) (j : S8192x128.Idx) :
    k1_pay1 a b d h j
      = FloatOps.mulf (h j) (FloatOps.mulf (FloatOps.mulf (a (ValueIdx.ix2 (j 0 : Fin 8192) (0 : Fin 1))) (b (ValueIdx.ix2 (j 0 : Fin 8192) (0 : Fin 1))))
          (d (ValueIdx.ix2 (j 0 : Fin 8192) (0 : Fin 1)))) := by
  unfold k1_pay1
  simp only [shapeCast_self]
  show FloatOps.mulf (h j) (broadcastTo S8192x128 (mulf (mulf a b) d) broadcasts_S8192x1_S8192x128 j) = _
  exact congrArg (FloatOps.mulf (h j)) (broadcastTo_apply (mulf (mulf a b) d) broadcasts_S8192x1_S8192x128 j (ValueIdx.ix2 (j 0 : Fin 8192) (0 : Fin 1)) (by
    intro a
    match a with
    | ⟨0, _⟩ => rfl
    | ⟨1, _⟩ => rfl))

/-- The message buffer the body leaves, entry by entry: loads and the store are through whole buffers. -/
theorem out1_4_apply (h : Vec F S8192x128 .f32) (a b d : Vec F S8192x1 .f32) (j : S8192x128.Idx) :
    out1_4 h a b d j
      = FloatOps.mulf (h j) (FloatOps.mulf (FloatOps.mulf (a (ValueIdx.ix2 (j 0 : Fin 8192) (0 : Fin 1))) (b (ValueIdx.ix2 (j 0 : Fin 8192) (0 : Fin 1))))
          (d (ValueIdx.ix2 (j 0 : Fin 8192) (0 : Fin 1)))) := by
  unfold out1_4
  rw [View.canon_unit_zero off00_1, View.ld_unit_zero (S := S8192x1) off00_1, View.ld_unit_zero (S := S8192x1) off00_1,
    View.ld_unit_zero (S := S8192x1) off00_1, View.ld_unit_zero (S := S8192x128) off00_1, k1_pay1_apply]

/-! ## The five windows are cut alike -/

/-- Where the transfer moves an index, the filled block holds the fetched entry whatever the filler. -/
theorem fill_moved1 {G : Pipeline.Grid} (w : Window sig G) {α : Type} (i : G.Coords) (d e : w.block.Idx → α)
    (g : (w.xblock i).Idx → α) {j : w.block.Idx} (h : w.moved i j = true) : w.fill i d g j = w.fill i e g j := by
  unfold Window.fill; rw [dif_pos h, dif_pos h]

/-- At every grid point the feature window's transfer and the message window's move the same rows and columns, and
    each coefficient window's the same rows and its one column: the five index maps are the point itself on
    axis 0, so all five are cut at the same row (decided over the grid). -/
theorem xsizes1 : ∀ t : Fin grid1.N,
    (∀ a : Fin 2, win1_4.xsize (grid1.coords t) a = win1_0.xsize (grid1.coords t) a)
    ∧ (win1_4.xsize (grid1.coords t) 0 = win1_1.xsize (grid1.coords t) 0 ∧ win1_1.xsize (grid1.coords t) 1 = 1)
    ∧ (win1_4.xsize (grid1.coords t) 0 = win1_2.xsize (grid1.coords t) 0 ∧ win1_2.xsize (grid1.coords t) 1 = 1)
    ∧ (win1_4.xsize (grid1.coords t) 0 = win1_3.xsize (grid1.coords t) 0 ∧ win1_3.xsize (grid1.coords t) 1 = 1) := by
  decide +kernel

/-- An entry the message window's transfer moves is one the feature window's moves; -/
theorem moved1_0 (t : Fin cfg1.N) (j : (win1_4.xblock (grid1.coords t)).Idx) :
    win1_0.moved (grid1.coords t) (win1_4.xinj (grid1.coords t) j) = true :=
  (win1_0.moved_iff _ _).mpr fun a => by
    show (j a).val < win1_0.xsize (grid1.coords t) a
    rw [← (xsizes1 t).1 a]; exact (j a).isLt

/-- and its row's one entry of each coefficient column is one that column's transfer moves. -/
theorem moved1_1 (t : Fin cfg1.N) (j : (win1_4.xblock (grid1.coords t)).Idx) :
    win1_1.moved (grid1.coords t) (ValueIdx.ix2 ((win1_4.xinj (grid1.coords t) j) 0 : Fin 8192) (0 : Fin 1)) = true :=
  (win1_1.moved_iff _ _).mpr fun a => by
    match a with
    | ⟨0, _⟩ =>
      show (j 0).val < win1_1.xsize (grid1.coords t) 0
      rw [← (xsizes1 t).2.1.1]; exact (j 0).isLt
    | ⟨1, _⟩ =>
      show 0 < win1_1.xsize (grid1.coords t) 1
      rw [(xsizes1 t).2.1.2]; exact Nat.one_pos

theorem moved1_2 (t : Fin cfg1.N) (j : (win1_4.xblock (grid1.coords t)).Idx) :
    win1_2.moved (grid1.coords t) (ValueIdx.ix2 ((win1_4.xinj (grid1.coords t) j) 0 : Fin 8192) (0 : Fin 1)) = true :=
  (win1_2.moved_iff _ _).mpr fun a => by
    match a with
    | ⟨0, _⟩ =>
      show (j 0).val < win1_2.xsize (grid1.coords t) 0
      rw [← (xsizes1 t).2.2.1.1]; exact (j 0).isLt
    | ⟨1, _⟩ =>
      show 0 < win1_2.xsize (grid1.coords t) 1
      rw [(xsizes1 t).2.2.1.2]; exact Nat.one_pos

theorem moved1_3 (t : Fin cfg1.N) (j : (win1_4.xblock (grid1.coords t)).Idx) :
    win1_3.moved (grid1.coords t) (ValueIdx.ix2 ((win1_4.xinj (grid1.coords t) j) 0 : Fin 8192) (0 : Fin 1)) = true :=
  (win1_3.moved_iff _ _).mpr fun a => by
    match a with
    | ⟨0, _⟩ =>
      show (j 0).val < win1_3.xsize (grid1.coords t) 0
      rw [← (xsizes1 t).2.2.2.1]; exact (j 0).isLt
    | ⟨1, _⟩ =>
      show 0 < win1_3.xsize (grid1.coords t) 1
      rw [(xsizes1 t).2.2.2.2]; exact Nat.one_pos

/-- Row-locality of the body: on the entries the message window's write-back moves, the message buffer does not
    depend on what the four input buffers hold outside the rows their fetches filled. -/
theorem cut_out1_4 (t : Fin cfg1.N)
    (g0 : (win1_0.xblock (grid1.coords t)).Idx → Elt F .f32) (g1 : (win1_1.xblock (grid1.coords t)).Idx → Elt F .f32)
    (g2 : (win1_2.xblock (grid1.coords t)).Idx → Elt F .f32) (g3 : (win1_3.xblock (grid1.coords t)).Idx → Elt F .f32)
    (d0 e0 : S8192x128.Idx → Elt F .f32) (d1 e1 d2 e2 d3 e3 : S8192x1.Idx → Elt F .f32) :
    win1_4.cut (grid1.coords t) (out1_4 (win1_0.fill (grid1.coords t) d0 g0) (win1_1.fill (grid1.coords t) d1 g1)
        (win1_2.fill (grid1.coords t) d2 g2) (win1_3.fill (grid1.coords t) d3 g3))
      = win1_4.cut (grid1.coords t) (out1_4 (win1_0.fill (grid1.coords t) e0 g0) (win1_1.fill (grid1.coords t) e1 g1)
        (win1_2.fill (grid1.coords t) e2 g2) (win1_3.fill (grid1.coords t) e3 g3)) := by
  funext j
  show out1_4 _ _ _ _ (win1_4.xinj (grid1.coords t) j) = out1_4 _ _ _ _ (win1_4.xinj (grid1.coords t) j)
  rw [out1_4_apply, out1_4_apply,
    fill_moved1 win1_0 (grid1.coords t) d0 e0 g0 (moved1_0 t j), fill_moved1 win1_1 (grid1.coords t) d1 e1 g1 (moved1_1 t j),
    fill_moved1 win1_2 (grid1.coords t) d2 e2 g2 (moved1_2 t j), fill_moved1 win1_3 (grid1.coords t) d3 e3 g3 (moved1_3 t j)]

/-! ## What the body finds and what it leaves -/

/-- What the proof data names after the body, window by window. -/
theorem after1_0 (c : Dev nD) (t : Fin cfg1.N) : (dat1 V c).after 0 t = fblk1_0 V c t := by dsimp only [dat1]
theorem after1_1 (c : Dev nD) (t : Fin cfg1.N) : (dat1 V c).after 1 t = fblk1_1 V c t := by dsimp only [dat1]
theorem after1_2 (c : Dev nD) (t : Fin cfg1.N) : (dat1 V c).after 2 t = fblk1_2 V c t := by dsimp only [dat1]
theorem after1_3 (c : Dev nD) (t : Fin cfg1.N) : (dat1 V c).after 3 t = fblk1_3 V c t := by dsimp only [dat1]
theorem after1_4 (c : Dev nD) (t : Fin cfg1.N) :
    (dat1 V c).after 4 t = out1_4 (fblk1_0 V c t) (fblk1_1 V c t) (fblk1_2 V c t) (fblk1_3 V c t) := by
  dsimp only [dat1]

/-- Every input window is fetched at every point, so the body finds in its buffer the array's block on the rows
    inside the array and, on the rows past its end, contents `d` nothing names. -/
theorem before1_0 (c : Dev nD) (t : Fin cfg1.N) (d) :
    (dat1 V c).before 0 t d = win1_0.fill (grid1.coords t) d (iblk1 V c 0 t) := by
  unfold Dat.before; rw [if_pos (fetch1_0 t)]; rfl
theorem before1_1 (c : Dev nD) (t : Fin cfg1.N) (d) :
    (dat1 V c).before 1 t d = win1_1.fill (grid1.coords t) d (iblk1 V c 1 t) := by
  unfold Dat.before; rw [if_pos (fetch1_1 t)]; rfl
theorem before1_2 (c : Dev nD) (t : Fin cfg1.N) (d) :
    (dat1 V c).before 2 t d = win1_2.fill (grid1.coords t) d (iblk1 V c 2 t) := by
  unfold Dat.before; rw [if_pos (fetch1_2 t)]; rfl
theorem before1_3 (c : Dev nD) (t : Fin cfg1.N) (d) :
    (dat1 V c).before 3 t d = win1_3.fill (grid1.coords t) d (iblk1 V c 3 t) := by
  unfold Dat.before; rw [if_pos (fetch1_3 t)]; rfl

/-! ## The body obligation -/

/-- At every grid point: the four input buffers arrive holding their blocks filled out with unnamed rows, the
    message buffer holding anything; the body leaves the inputs as they were, which on the rows inside the array
    is the proof data's zero-filled block, and the message buffer at the row-wise scaled features, which on the
    rows the write-back moves does not depend on the fillers (`cut_out1_4`). Every window is loose, so that is
    all the obligation states. -/
theorem body_obligation1 (c : Dev nD) : BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  rw [before1_0 V c t d0, before1_1 V c t d1, before1_2 V c t d2, before1_3 V c t d3]
  iapply (sound_kernel1 (F := F) c Set.univ (grid1.coords t) (st1_0 t) (hstage1_0 ((cfg1.slots t 0).cast nbuf1_0))
      (st1_1 t) (hstage1_1 ((cfg1.slots t 1).cast nbuf1_1))
      (st1_2 t) (hstage1_2 ((cfg1.slots t 2).cast nbuf1_2))
      (st1_3 t) (hstage1_3 ((cfg1.slots t 3).cast nbuf1_3))
      (st1_4 t) (hstage1_4 ((cfg1.slots t 4).cast nbuf1_4))
      (win1_0.fill (grid1.coords t) d0 (iblk1 V c 0 t)) (win1_1.fill (grid1.coords t) d1 (iblk1 V c 1 t))
      (win1_2.fill (grid1.coords t) d2 (iblk1 V c 2 t)) (win1_3.fill (grid1.coords t) d3 (iblk1 V c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    change _ ⊢ owns (c : Thread nD τ) (st1_0 t) fullShare
      (win1_0.fill (grid1.coords t) d0 (win1_0.cut (grid1.coords t) (fblk1_0 V c t)))
    rw [show win1_0.cut (grid1.coords t) (fblk1_0 V c t) = iblk1 V c 0 t from win1_0.cut_fill _ _ _]
  isplitl [H1]
  · iexists d1
    change _ ⊢ owns (c : Thread nD τ) (st1_1 t) fullShare
      (win1_1.fill (grid1.coords t) d1 (win1_1.cut (grid1.coords t) (fblk1_1 V c t)))
    rw [show win1_1.cut (grid1.coords t) (fblk1_1 V c t) = iblk1 V c 1 t from win1_1.cut_fill _ _ _]
  isplitl [H2]
  · iexists d2
    change _ ⊢ owns (c : Thread nD τ) (st1_2 t) fullShare
      (win1_2.fill (grid1.coords t) d2 (win1_2.cut (grid1.coords t) (fblk1_2 V c t)))
    rw [show win1_2.cut (grid1.coords t) (fblk1_2 V c t) = iblk1 V c 2 t from win1_2.cut_fill _ _ _]
  isplitl [H3]
  · iexists d3
    change _ ⊢ owns (c : Thread nD τ) (st1_3 t) fullShare
      (win1_3.fill (grid1.coords t) d3 (win1_3.cut (grid1.coords t) (fblk1_3 V c t)))
    rw [show win1_3.cut (grid1.coords t) (fblk1_3 V c t) = iblk1 V c 3 t from win1_3.cut_fill _ _ _]
  · iexists out1_4 (win1_0.fill (grid1.coords t) d0 (iblk1 V c 0 t)) (win1_1.fill (grid1.coords t) d1 (iblk1 V c 1 t))
      (win1_2.fill (grid1.coords t) d2 (iblk1 V c 2 t)) (win1_3.fill (grid1.coords t) d3 (iblk1 V c 3 t))
    change _ ⊢ owns (c : Thread nD τ) (st1_4 t) fullShare
      (win1_4.fill (grid1.coords t) (out1_4 (win1_0.fill (grid1.coords t) d0 (iblk1 V c 0 t)) (win1_1.fill (grid1.coords t) d1 (iblk1 V c 1 t))
      (win1_2.fill (grid1.coords t) d2 (iblk1 V c 2 t)) (win1_3.fill (grid1.coords t) d3 (iblk1 V c 3 t)))
        (win1_4.cut (grid1.coords t) (out1_4 (fblk1_0 V c t) (fblk1_1 V c t) (fblk1_2 V c t) (fblk1_3 V c t))))
    unfold fblk1_0 fblk1_1 fblk1_2 fblk1_3
    rw [win1_4.fill_congr_cut (grid1.coords t) (cut_out1_4 t (iblk1 V c 0 t) (iblk1 V c 1 t) (iblk1 V c 2 t) (iblk1 V c 3 t)
      d0 _ d1 _ d2 _ d3 _)]

end Cert.KernelIdeal.Hand

end
-- ==== Proof.R2.lean ====
import proofs.«136756_j77644418777510_1_alg».proof.Proof.Dats
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

local notation "𝕄" => MT nD τ sig Unit (Elt F) ℕ (UR sig nD τ) ℕ

/-! ## The second dense product at one grid point

At point `t` the left operand's buffer holds rows `5000 t … 5000 t + 4999` of the 128-column hidden
features and the right operand's buffer the whole 128 × 64 weight matrix. The body reads both, reads (and
drops) the result buffer, and writes the 5000 × 64 product over the whole result buffer. -/

/-- The data's arrays are the contents the region is entered from. -/
theorem arr2 (c : Dev nD) (w : Fin cfg2.W) : (dat2 V c).A w = V c (Pipeline.arrRef spec2 w) := by
  dsimp only [dat2]

/-- After the body the feature buffer still holds its row block, -/
theorem left2_x (c : Dev nD) (t : Fin cfg2.N) : (dat2 V c).after 0 t = iblk2 V c 0 t := by dsimp only [dat2]
/-- the weight buffer still holds the weight matrix, -/
theorem left2_w (c : Dev nD) (t : Fin cfg2.N) : (dat2 V c).after 1 t = iblk2 V c 1 t := by dsimp only [dat2]
/-- and the result buffer holds the 64-column product of the two. -/
theorem left2_o (c : Dev nD) (t : Fin cfg2.N) :
    (dat2 V c).after 2 t = out2_2 (iblk2 V c 0 t) (iblk2 V c 1 t) := by dsimp only [dat2]

/-- The feature rows of point `t` are in their buffer when the body starts: the block index moves at
    every point, the body does not write the buffer, and the 20 blocks of 5000 rows tile the 100000 rows,
    so a fetch brings in exactly the block. -/
theorem found2_x (c : Dev nD) (t : Fin cfg2.N) (d) : (dat2 V c).before 0 t d = iblk2 V c 0 t := by
  have hkeep : ∀ s, (cfg2.win 0).cut (cfg2.grid.coords s) ((dat2 V c).after 0 s) = (dat2 V c).blockOf 0 s := by
    intro s; rw [left2_x]; unfold Dat.blockOf iblk2; rw [arr2]
  rw [(dat2 V c).before_in_eq_fetched 0 rfl (fun _ => rfl) (fun _ _ _ => rfl) hkeep t d]
  unfold Dat.fetched Dat.blockOf iblk2; rw [arr2]; rfl

/-- The weight matrix is in its buffer when the body starts, at the first point because it is fetched
    there, at every later point because its block index is the same at all points and the body leaves the
    buffer as it found it. -/
theorem found2_w (c : Dev nD) (t : Fin cfg2.N) (d) : (dat2 V c).before 1 t d = iblk2 V c 1 t := by
  have hkeep : ∀ s, (cfg2.win 1).cut (cfg2.grid.coords s) ((dat2 V c).after 1 s) = (dat2 V c).blockOf 1 s := by
    intro s; rw [left2_w]; unfold Dat.blockOf iblk2; rw [arr2]
  rw [(dat2 V c).before_in_eq_fetched 1 rfl (fun _ => rfl) (fun _ _ _ => rfl) hkeep t d]
  unfold Dat.fetched Dat.blockOf iblk2; rw [arr2]; rfl

/-- The one store writes the rectangle of all 5000 × 64 positions, so every position of the result
    buffer lies in it. -/
theorem whole2 (p : Vec F S5000x64 .f32) (y : S5000x64.Idx) :
    ∃ pc ∈ ([⟨r2_o, p⟩] : List (View.Piece (Elt F) S5000x64 .f32)), y ∈ pc.1.set :=
  View.cover_of_tiled [⟨r2_o, p⟩] S5000x64.size (by rfl) y

set_option maxHeartbeats 1000000 in
/-- The body on any three whole buffers. Given the feature buffer reading `x0`, the weight buffer reading
    `x1` and the result buffer at anything, it runs to a state where the two operand buffers read what
    they did and the result buffer reads `out2_2 x0 x1`: the two loads return `x0` and `x1` through the
    full rectangles, the third load's value is unused, and the store of the product overwrites every
    position of the result buffer (`whole2`), so nothing of its earlier contents is left. -/
theorem product2_triple (c : Dev nD) (E : Set ℕ) (i : grid2.Coords)
    (bx : Memref sig .tc .vmem S5000x128 .f32) (hbx : bx.IsWhole)
    (bw : Memref sig .tc .vmem S128x64 .f32) (hbw : bw.IsWhole)
    (bo : Memref sig .tc .vmem S5000x64 .f32) (hbo : bo.IsWhole)
    (x0 : Vec F S5000x128 .f32) (x1 : Vec F S128x64 .f32) (K : PUnit → sProp 𝕄) :
    iprop(owns (c : Thread nD τ) bx fullShare x0 ∗ owns (c : Thread nD τ) bw fullShare x1
        ∗ (∃ d, owns (c : Thread nD τ) bo fullShare d)
        ∗ (iprop(owns (c : Thread nD τ) bx fullShare x0 ∗ owns (c : Thread nD τ) bw fullShare x1
            ∗ owns (c : Thread nD τ) bo fullShare (out2_2 x0 x1)) -∗ K ⟨⟩))
      ⊢ wp frame (wpE (defs₀ (F := F)) Variants.none c none) E (cc2__matmul_kernel i bx hbx bw hbw bo hbo) K := by
  simp only [cc2__matmul_kernel_eq_skeleton]; unfold cc2__matmul_kernel_skel
  unfold owns
  iintro ⟨⟨%fx, %hfx, Hx⟩, ⟨%fw, %hfw, Hw⟩, ⟨%d, %fo, -, Ho⟩, Hk⟩
  subst hfx; subst hfw
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Ho
  ipureintro
  exact View.read_writes_eq_canon _ _ _ (whole2 _)

/-- At every grid point the three current buffers are whole, the operand buffers hold their blocks
    (`found2_x`, `found2_w`), and the invariant and the core's debt are the same before and after the
    point, so `product2_triple` at the two blocks gives what the data says the body leaves. -/
theorem body_obligation2 (c : Dev nD) : BodyObligation (dat2 (F := F) V c) (defs₀ (F := F)) Variants.none () Set.univ := by
  intro t
  rw [bigSep_W2, bigSep_W2]
  simp only [found2_x, found2_w]
  rw [show (dat2 V c).Φ t.succ = (dat2 V c).Φ t.castSucc from rfl,
    show (dat2 V c).owesAt () t.succ = (dat2 V c).owesAt () t.castSucc from rfl,
    left2_x, left2_w, left2_o]
  show _ ⊢ wp frame _ Set.univ (bodyAt2 t) _
  unfold bodyAt2
  iintro ⟨HΦ, Hd, ⟨%d0, Hx⟩, ⟨%d1, Hw⟩, ⟨%d2, Ho⟩⟩
  iapply (product2_triple c Set.univ _ _ _ _ _ _ _ (iblk2 V c 0 t) (iblk2 V c 1 t) _)
  isplitl [Hx]; · iexact Hx
  isplitl [Hw]; · iexact Hw
  isplitl [Ho]; · iexists _; iexact Ho
  iintro ⟨Hx, Hw, Ho⟩
  isplitl [HΦ]; · iexact HΦ
  isplitl [Hd]; · iexact Hd
  isplitl [Hx]; · iexact Hx
  isplitl [Hw]; · iexact Hw
  iexact Ho

end Cert.KernelIdeal.Hand

end
-- ==== Proof.R3.lean ====
import proofs.«136756_j77644418777510_1_alg».proof.Proof.Dats
import Idealize.ShloMosaic.Lib.Tactic
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

local notation "𝕄" => MT nD τ sig Unit (Elt F) ℕ (UR sig nD τ) ℕ

/-! ## The body on whole buffers -/

/-- The zero offsets of a whole-buffer access, as the constant function. -/
theorem off00_3 : (![0, 0] : Fin 2 → Nat) = fun _ => 0 := funext fun a => by fin_cases a <;> rfl

set_option maxHeartbeats 1000000 in
/-- The body on five whole staging memrefs: the feature buffer at `x0`, the three coefficient buffers at `x1`,
    `x2`, `x3`, the message buffer at anything. Four whole loads, a dead whole load of the message buffer and one
    whole store leave the inputs as they were and the message buffer at `out3_4 x0 x1 x2 x3`. -/
theorem sound_kernel3 (c : Dev nD) (E : Set ℕ) (i : grid3.Coords)
    (arg1 : Memref sig .tc .vmem S8192x64 .f32) (harg1 : arg1.IsWhole)
    (arg2 : Memref sig .tc .vmem S8192x1 .f32) (harg2 : arg2.IsWhole)
    (arg3 : Memref sig .tc .vmem S8192x1 .f32) (harg3 : arg3.IsWhole)
    (arg4 : Memref sig .tc .vmem S8192x1 .f32) (harg4 : arg4.IsWhole)
    (arg5 : Memref sig .tc .vmem S8192x64 .f32) (harg5 : arg5.IsWhole)
    (x0 : Vec F S8192x64 .f32) (x1 x2 x3 : Vec F S8192x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out3_4 x0 x1 x2 x3)) -∗ K ⟨⟩))
      ⊢ wp frame (wpE (defs₀ (F := F)) Variants.none c none) E
          (cc3__message_kernel i arg1 harg1 arg2 harg2 arg3 harg3 arg4 harg4 arg5 harg5) K := by
  simp only [cc3__message_kernel_eq_skeleton]; unfold cc3__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the one store is through the whole buffer, so it covers every entry
  exact View.read_writes_eq_canon _ _ _ fun y =>
    ⟨_, List.mem_singleton_self _, View.mem_set_unit_zero off00_3 inb_S8192x64_S8192x64_0_0 y⟩

/-! ## The payload, entry by entry -/

/-- Entry `j` of the payload: the feature entry at `j` times the product of the three coefficients of `j`'s row
    (the casts are to the same shape; the broadcast of a one-column vector reads column 0 of the row). -/
theorem k3_pay1_apply (a b d : Vec F S8192x1 .f32) (h : Vec F S8192x64 .f32) (j : S8192x64.Idx) :
    k3_pay1 a b d h j
      = FloatOps.mulf (h j) (FloatOps.mulf (FloatOps.mulf (a (ValueIdx.ix2 (j 0 : Fin 8192) (0 : Fin 1))) (b (ValueIdx.ix2 (j 0 : Fin 8192) (0 : Fin 1))))
          (d (ValueIdx.ix2 (j 0 : Fin 8192) (0 : Fin 1)))) := by
  unfold k3_pay1
  simp only [shapeCast_self]
  show FloatOps.mulf (h j) (broadcastTo S8192x64 (mulf (mulf a b) d) broadcasts_S8192x1_S8192x64 j) = _
  exact congrArg (FloatOps.mulf (h j)) (broadcastTo_apply (mulf (mulf a b) d) broadcasts_S8192x1_S8192x64 j (ValueIdx.ix2 (j 0 : Fin 8192) (0 : Fin 1)) (by
    intro a
    match a with
    | ⟨0, _⟩ => rfl
    | ⟨1, _⟩ => rfl))

/-- The message buffer the body leaves, entry by entry: loads and the store are through whole buffers. -/
theorem out3_4_apply (h : Vec F S8192x64 .f32) (a b d : Vec F S8192x1 .f32) (j : S8192x64.Idx) :
    out3_4 h a b d j
      = FloatOps.mulf (h j) (FloatOps.mulf (FloatOps.mulf (a (ValueIdx.ix2 (j 0 : Fin 8192) (0 : Fin 1))) (b (ValueIdx.ix2 (j 0 : Fin 8192) (0 : Fin 1))))
          (d (ValueIdx.ix2 (j 0 : Fin 8192) (0 : Fin 1)))) := by
  unfold out3_4
  rw [View.canon_unit_zero off00_3, View.ld_unit_zero (S := S8192x1) off00_3, View.ld_unit_zero (S := S8192x1) off00_3,
    View.ld_unit_zero (S := S8192x1) off00_3, View.ld_unit_zero (S := S8192x64) off00_3, k3_pay1_apply]

/-! ## The five windows are cut alike -/

/-- Where the transfer moves an index, the filled block holds the fetched entry whatever the filler. -/
theorem fill_moved3 {G : Pipeline.Grid} (w : Window sig G) {α : Type} (i : G.Coords) (d e : w.block.Idx → α)
    (g : (w.xblock i).Idx → α) {j : w.block.Idx} (h : w.moved i j = true) : w.fill i d g j = w.fill i e g j := by
  unfold Window.fill; rw [dif_pos h, dif_pos h]

/-- At every grid point the feature window's transfer and the message window's move the same rows and columns, and
    each coefficient window's the same rows and its one column: the five index maps are the point itself on
    axis 0, so all five are cut at the same row (decided over the grid). -/
theorem xsizes3 : ∀ t : Fin grid3.N,
    (∀ a : Fin 2, win3_4.xsize (grid3.coords t) a = win3_0.xsize (grid3.coords t) a)
    ∧ (win3_4.xsize (grid3.coords t) 0 = win3_1.xsize (grid3.coords t) 0 ∧ win3_1.xsize (grid3.coords t) 1 = 1)
    ∧ (win3_4.xsize (grid3.coords t) 0 = win3_2.xsize (grid3.coords t) 0 ∧ win3_2.xsize (grid3.coords t) 1 = 1)
    ∧ (win3_4.xsize (grid3.coords t) 0 = win3_3.xsize (grid3.coords t) 0 ∧ win3_3.xsize (grid3.coords t) 1 = 1) := by
  decide +kernel

/-- An entry the message window's transfer moves is one the feature window's moves; -/
theorem moved3_0 (t : Fin cfg3.N) (j : (win3_4.xblock (grid3.coords t)).Idx) :
    win3_0.moved (grid3.coords t) (win3_4.xinj (grid3.coords t) j) = true :=
  (win3_0.moved_iff _ _).mpr fun a => by
    show (j a).val < win3_0.xsize (grid3.coords t) a
    rw [← (xsizes3 t).1 a]; exact (j a).isLt

/-- and its row's one entry of each coefficient column is one that column's transfer moves. -/
theorem moved3_1 (t : Fin cfg3.N) (j : (win3_4.xblock (grid3.coords t)).Idx) :
    win3_1.moved (grid3.coords t) (ValueIdx.ix2 ((win3_4.xinj (grid3.coords t) j) 0 : Fin 8192) (0 : Fin 1)) = true :=
  (win3_1.moved_iff _ _).mpr fun a => by
    match a with
    | ⟨0, _⟩ =>
      show (j 0).val < win3_1.xsize (grid3.coords t) 0
      rw [← (xsizes3 t).2.1.1]; exact (j 0).isLt
    | ⟨1, _⟩ =>
      show 0 < win3_1.xsize (grid3.coords t) 1
      rw [(xsizes3 t).2.1.2]; exact Nat.one_pos

theorem moved3_2 (t : Fin cfg3.N) (j : (win3_4.xblock (grid3.coords t)).Idx) :
    win3_2.moved (grid3.coords t) (ValueIdx.ix2 ((win3_4.xinj (grid3.coords t) j) 0 : Fin 8192) (0 : Fin 1)) = true :=
  (win3_2.moved_iff _ _).mpr fun a => by
    match a with
    | ⟨0, _⟩ =>
      show (j 0).val < win3_2.xsize (grid3.coords t) 0
      rw [← (xsizes3 t).2.2.1.1]; exact (j 0).isLt
    | ⟨1, _⟩ =>
      show 0 < win3_2.xsize (grid3.coords t) 1
      rw [(xsizes3 t).2.2.1.2]; exact Nat.one_pos

theorem moved3_3 (t : Fin cfg3.N) (j : (win3_4.xblock (grid3.coords t)).Idx) :
    win3_3.moved (grid3.coords t) (ValueIdx.ix2 ((win3_4.xinj (grid3.coords t) j) 0 : Fin 8192) (0 : Fin 1)) = true :=
  (win3_3.moved_iff _ _).mpr fun a => by
    match a with
    | ⟨0, _⟩ =>
      show (j 0).val < win3_3.xsize (grid3.coords t) 0
      rw [← (xsizes3 t).2.2.2.1]; exact (j 0).isLt
    | ⟨1, _⟩ =>
      show 0 < win3_3.xsize (grid3.coords t) 1
      rw [(xsizes3 t).2.2.2.2]; exact Nat.one_pos

/-- Row-locality of the body: on the entries the message window's write-back moves, the message buffer does not
    depend on what the four input buffers hold outside the rows their fetches filled. -/
theorem cut_out3_4 (t : Fin cfg3.N)
    (g0 : (win3_0.xblock (grid3.coords t)).Idx → Elt F .f32) (g1 : (win3_1.xblock (grid3.coords t)).Idx → Elt F .f32)
    (g2 : (win3_2.xblock (grid3.coords t)).Idx → Elt F .f32) (g3 : (win3_3.xblock (grid3.coords t)).Idx → Elt F .f32)
    (d0 e0 : S8192x64.Idx → Elt F .f32) (d1 e1 d2 e2 d3 e3 : S8192x1.Idx → Elt F .f32) :
    win3_4.cut (grid3.coords t) (out3_4 (win3_0.fill (grid3.coords t) d0 g0) (win3_1.fill (grid3.coords t) d1 g1)
        (win3_2.fill (grid3.coords t) d2 g2) (win3_3.fill (grid3.coords t) d3 g3))
      = win3_4.cut (grid3.coords t) (out3_4 (win3_0.fill (grid3.coords t) e0 g0) (win3_1.fill (grid3.coords t) e1 g1)
        (win3_2.fill (grid3.coords t) e2 g2) (win3_3.fill (grid3.coords t) e3 g3)) := by
  funext j
  show out3_4 _ _ _ _ (win3_4.xinj (grid3.coords t) j) = out3_4 _ _ _ _ (win3_4.xinj (grid3.coords t) j)
  rw [out3_4_apply, out3_4_apply,
    fill_moved3 win3_0 (grid3.coords t) d0 e0 g0 (moved3_0 t j), fill_moved3 win3_1 (grid3.coords t) d1 e1 g1 (moved3_1 t j),
    fill_moved3 win3_2 (grid3.coords t) d2 e2 g2 (moved3_2 t j), fill_moved3 win3_3 (grid3.coords t) d3 e3 g3 (moved3_3 t j)]

/-! ## What the body finds and what it leaves -/

/-- What the proof data names after the body, window by window. -/
theorem after3_0 (c : Dev nD) (t : Fin cfg3.N) : (dat3 V c).after 0 t = fblk3_0 V c t := by dsimp only [dat3]
theorem after3_1 (c : Dev nD) (t : Fin cfg3.N) : (dat3 V c).after 1 t = fblk3_1 V c t := by dsimp only [dat3]
theorem after3_2 (c : Dev nD) (t : Fin cfg3.N) : (dat3 V c).after 2 t = fblk3_2 V c t := by dsimp only [dat3]
theorem after3_3 (c : Dev nD) (t : Fin cfg3.N) : (dat3 V c).after 3 t = fblk3_3 V c t := by dsimp only [dat3]
theorem after3_4 (c : Dev nD) (t : Fin cfg3.N) :
    (dat3 V c).after 4 t = out3_4 (fblk3_0 V c t) (fblk3_1 V c t) (fblk3_2 V c t) (fblk3_3 V c t) := by
  dsimp only [dat3]

/-- Every input window is fetched at every point, so the body finds in its buffer the array's block on the rows
    inside the array and, on the rows past its end, contents `d` nothing names. -/
theorem before3_0 (c : Dev nD) (t : Fin cfg3.N) (d) :
    (dat3 V c).before 0 t d = win3_0.fill (grid3.coords t) d (iblk3 V c 0 t) := by
  unfold Dat.before; rw [if_pos (fetch3_0 t)]; rfl
theorem before3_1 (c : Dev nD) (t : Fin cfg3.N) (d) :
    (dat3 V c).before 1 t d = win3_1.fill (grid3.coords t) d (iblk3 V c 1 t) := by
  unfold Dat.before; rw [if_pos (fetch3_1 t)]; rfl
theorem before3_2 (c : Dev nD) (t : Fin cfg3.N) (d) :
    (dat3 V c).before 2 t d = win3_2.fill (grid3.coords t) d (iblk3 V c 2 t) := by
  unfold Dat.before; rw [if_pos (fetch3_2 t)]; rfl
theorem before3_3 (c : Dev nD) (t : Fin cfg3.N) (d) :
    (dat3 V c).before 3 t d = win3_3.fill (grid3.coords t) d (iblk3 V c 3 t) := by
  unfold Dat.before; rw [if_pos (fetch3_3 t)]; rfl

/-! ## The body obligation -/

/-- At every grid point: the four input buffers arrive holding their blocks filled out with unnamed rows, the
    message buffer holding anything; the body leaves the inputs as they were, which on the rows inside the array
    is the proof data's zero-filled block, and the message buffer at the row-wise scaled features, which on the
    rows the write-back moves does not depend on the fillers (`cut_out3_4`). Every window is loose, so that is
    all the obligation states. -/
theorem body_obligation3 (c : Dev nD) : BodyObligationLoose (dat3 (F := F) V c) (defs₀ (F := F)) Variants.none () Set.univ := fun t => by
  rw [bigSep_W3, bigSep_W3]
  simp only
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  rw [before3_0 V c t d0, before3_1 V c t d1, before3_2 V c t d2, before3_3 V c t d3]
  iapply (sound_kernel3 (F := F) c Set.univ (grid3.coords t) (st3_0 t) (hstage3_0 ((cfg3.slots t 0).cast nbuf3_0))
      (st3_1 t) (hstage3_1 ((cfg3.slots t 1).cast nbuf3_1))
      (st3_2 t) (hstage3_2 ((cfg3.slots t 2).cast nbuf3_2))
      (st3_3 t) (hstage3_3 ((cfg3.slots t 3).cast nbuf3_3))
      (st3_4 t) (hstage3_4 ((cfg3.slots t 4).cast nbuf3_4))
      (win3_0.fill (grid3.coords t) d0 (iblk3 V c 0 t)) (win3_1.fill (grid3.coords t) d1 (iblk3 V c 1 t))
      (win3_2.fill (grid3.coords t) d2 (iblk3 V c 2 t)) (win3_3.fill (grid3.coords t) d3 (iblk3 V c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    change _ ⊢ owns (c : Thread nD τ) (st3_0 t) fullShare
      (win3_0.fill (grid3.coords t) d0 (win3_0.cut (grid3.coords t) (fblk3_0 V c t)))
    rw [show win3_0.cut (grid3.coords t) (fblk3_0 V c t) = iblk3 V c 0 t from win3_0.cut_fill _ _ _]
  isplitl [H1]
  · iexists d1
    change _ ⊢ owns (c : Thread nD τ) (st3_1 t) fullShare
      (win3_1.fill (grid3.coords t) d1 (win3_1.cut (grid3.coords t) (fblk3_1 V c t)))
    rw [show win3_1.cut (grid3.coords t) (fblk3_1 V c t) = iblk3 V c 1 t from win3_1.cut_fill _ _ _]
  isplitl [H2]
  · iexists d2
    change _ ⊢ owns (c : Thread nD τ) (st3_2 t) fullShare
      (win3_2.fill (grid3.coords t) d2 (win3_2.cut (grid3.coords t) (fblk3_2 V c t)))
    rw [show win3_2.cut (grid3.coords t) (fblk3_2 V c t) = iblk3 V c 2 t from win3_2.cut_fill _ _ _]
  isplitl [H3]
  · iexists d3
    change _ ⊢ owns (c : Thread nD τ) (st3_3 t) fullShare
      (win3_3.fill (grid3.coords t) d3 (win3_3.cut (grid3.coords t) (fblk3_3 V c t)))
    rw [show win3_3.cut (grid3.coords t) (fblk3_3 V c t) = iblk3 V c 3 t from win3_3.cut_fill _ _ _]
  · iexists out3_4 (win3_0.fill (grid3.coords t) d0 (iblk3 V c 0 t)) (win3_1.fill (grid3.coords t) d1 (iblk3 V c 1 t))
      (win3_2.fill (grid3.coords t) d2 (iblk3 V c 2 t)) (win3_3.fill (grid3.coords t) d3 (iblk3 V c 3 t))
    change _ ⊢ owns (c : Thread nD τ) (st3_4 t) fullShare
      (win3_4.fill (grid3.coords t) (out3_4 (win3_0.fill (grid3.coords t) d0 (iblk3 V c 0 t)) (win3_1.fill (grid3.coords t) d1 (iblk3 V c 1 t))
      (win3_2.fill (grid3.coords t) d2 (iblk3 V c 2 t)) (win3_3.fill (grid3.coords t) d3 (iblk3 V c 3 t)))
        (win3_4.cut (grid3.coords t) (out3_4 (fblk3_0 V c t) (fblk3_1 V c t) (fblk3_2 V c t) (fblk3_3 V c t))))
    unfold fblk3_0 fblk3_1 fblk3_2 fblk3_3
    rw [win3_4.fill_congr_cut (grid3.coords t) (cut_out3_4 t (iblk3 V c 0 t) (iblk3 V c 1 t) (iblk3 V c 2 t) (iblk3 V c 3 t)
      d0 _ d1 _ d2 _ d3 _)]

end Cert.KernelIdeal.Hand

end
-- ==== Proof.Segs.lean ====
/-
  The four kernel regions as segments of the program, and the program's run.

  Between two items of the program a core holds every unscoped buffer at a named valuation, beside its generator
  register at some state and its debts, none. A kernel region takes its windows' arrays out of those buffers, runs its
  pipeline over them, and puts them back: the operand arrays as it found them, the result array at what the
  write-backs leave. The valuation after the region is the one before it updated at the result buffer alone, so the
  buffers outside the pipeline keep their place and the operand arrays, never written, do too.
-/
import proofs.«136756_j77644418777510_1_alg».proof.Proof.Data
import proofs.«136756_j77644418777510_1_alg».proof.Proof.R0
import proofs.«136756_j77644418777510_1_alg».proof.Proof.R1
import proofs.«136756_j77644418777510_1_alg».proof.Proof.R2
import proofs.«136756_j77644418777510_1_alg».proof.Proof.R3
import proofs.«136756_j77644418777510_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev Rst (c : Dev nD) : sProp 𝕄 := iprop((∃ r, prngReg c r) ∗ ∃ W, owes (c : Thread nD τ) (0 : CellTallies nD τ sig Unit) W)

/-! ## A kernel region between two valuations

The four regions are of one kind: no prefetched table, no semaphore of the kernel's own, nothing owed at the pipeline's
cells, no bound kept on the recorded waits, every array held whole, the class invariant (the scoped buffers no window stages, beside the generator
register). What tells them apart is the pipeline, the valuation `Vin` the region is entered from and the valuation
`Vout` it leaves, of which three facts are wanted: the proof data's arrays are read off `Vin`; after the last
write-back every array holds what `Vout` names; off the arrays `Vout` is `Vin`. -/

section Between

variable (pd : (p : Fin 4) → (c : Dev nD) → Dat τ (Elt F) Unit ℕ (UR sig nD τ) ℕ (cfgs p) c) (p : Fin 4)
  (lf : Pipeline.LaunchFacts (nD := nD) (τ := τ) cfgs p)
  (hbody : ∀ c, BodyObligationLoose (pd p c) (defs₀ (F := F)) Variants.none () Set.univ)
  (hq : ∀ c w, (pd p c).q w = fullShare) (howed : ∀ c t, (pd p c).owed t = 0)
  (hrec : ∀ c, (pd p c).recorded 0 = Set.univ)
  (hΦ : ∀ c t, (pd p c).Φ t = Pipeline.ΦA (cfgs p).spec c)
  (Vin Vout : Dev nD → Valuation τ sig (Elt F))
  (hA : ∀ c w, (pd p c).A w = atTc Vin c (Pipeline.arrRef (cfgs p).spec w))
  (hF : ∀ c w, (pd p c).arrAt w (cfgs p).N = atTc Vout c (Pipeline.arrRef (cfgs p).spec w))
  (hoff : ∀ c b, b ∉ Finset.univ.image (Pipeline.arrRef (cfgs p).spec) → atTc Vout c b = atTc Vin c b)

set_option backward.isDefEq.respectTransparency.types false in
/-- The region of pipeline `p` as a segment: entered from every unscoped buffer at `Vin c` beside `Rst c`, left at
    `Vout c` beside `Rst c`. At entry the windows' arrays are taken out of the unscoped buffers, the others bypass
    the region, and the generator register goes into the pipeline's invariant; at exit the register comes back and the
    arrays, at what the write-backs left, rejoin the bypassing buffers: together they are the unscoped buffers at
    `Vout c`. -/
def between : Pipeline.RegionSeg (pcfgs (F := F)) adm pd () defs₀ Variants.none L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Vin c) ∗ Rst c)
  post c := iprop(StableHlo.held (c : Thread nD τ) (Pipeline.ucRefs τ sig) (Vout c) ∗ Rst c)
  X c := iprop(∃ r, prngReg c r)
  Y c := iprop(∃ r, prngReg c r)
  Z c := Pipeline.unscopedRest (Ix := Unit) (Name := ℕ) (U := UR sig nD τ) (Lvl := ℕ) (cfgs p).spec c (atTc Vin c)
  hentry c := by
    rw [Pipeline.ownSems0_none]
    have htake := Pipeline.arrays_of_unscopedBufs (p := p) (pcfgs (F := F)) adm pd lf.win lf.arr_whole c
      ((pd p c).share_full (hq c)) (atTc Vin c) (hA c)
    rw [Pipeline.unscopedBufs_held] at htake
    iintro ⟨⟨Hbufs, Hreg, Hdebt⟩, -, -⟩
    ihave Hsplit := htake $$ Hbufs
    icases Hsplit with ⟨Harr, Hby⟩
    imodintro
    isplitl [Harr]; · iexact Harr
    isplitr
    · unfold Pipeline.prefHeld; rw [show (Finset.univ : Finset (Fin 0)) = ∅ from rfl, BI.bigSep_empty]; iempintro
    isplitl [Hdebt]
    · unfold Pipeline.Dat.owesAt Pipeline.owesWithin
      rw [howed c]
      icases Hdebt with ⟨%W, Hdebt⟩
      iexists W
      isplitr; · ipureintro; exact fun x _ => Or.inl (by rw [hrec c]; exact Set.mem_univ x)
      iexact Hdebt
    isplitl [Hreg]; · iexact Hreg
    iexact Hby
  hin c := by
    rw [hΦ c 0]; unfold Pipeline.ΦA
    iintro ⟨Hreg, -, Hscoped⟩
    isplitl [Hscoped]; · iexact Hscoped
    iexact Hreg
  hout c := by
    rw [Pipeline.ownSems0_none, hΦ c (Fin.last _)]; unfold Pipeline.ΦA
    iintro ⟨Hscoped, Hreg⟩
    isplitl [Hreg]; · iexact Hreg
    isplitr; · iempintro
    iexact Hscoped
  hexit c := by
    have hback := Pipeline.unscopedBufs_of_arrays (p := p) (pcfgs (F := F)) adm (Ix := Unit) (Name := ℕ) (U := UR sig nD τ) (Lvl := ℕ)
      lf.win lf.arr_whole c pd ((pd p c).share_full (hq c))
      (atTc Vin c) (atTc Vout c) ((pd p c).arrAt · (cfgs p).N) (hF c) (hoff c)
    rw [Pipeline.unscopedBufs_held] at hback
    iintro ⟨Harr, Hdebt, Hreg, Hby⟩
    imodintro
    isplitl [Harr Hby]
    · iapply hback; isplitl [Harr] <;> iassumption
    isplitl [Hreg]; · iexact Hreg
    unfold Pipeline.Dat.owesAt Pipeline.owesWithin
    rw [howed c]
    icases Hdebt with ⟨%W, -, Hdebt⟩
    iexists W; iexact Hdebt

end Between

/-! ## Region 0: the first dense product, from `V5` to `V6` -/

/-- At region 0's exit every array of its pipeline holds what `V6` names there. The two operand arrays are never
    written back, so they hold what `V5` gave them, and `V6` is `V5` off the result buffer. The result array holds
    the fold of the twenty write-backs, which is the contents `outs` records for it. -/
theorem exit0_arr (outs : Outs (F := F)) (hO : OutsOk m outs) (c : Dev nD) (w : Fin cfg0.W) :
    (pdats m outs 0 c).arrAt w cfg0.N = atTc (V6 m outs) c (Pipeline.arrRef spec0 w) :=
  match w with
  | ⟨0, _⟩ => ((pdats m outs 0 c).arrAt_in 0 rfl _).trans (V6_of m outs c main_arg0 (by decide)).symm
  | ⟨1, _⟩ => ((pdats m outs 0 c).arrAt_in 1 rfl _).trans (V6_of m outs c main_arg3 (by decide)).symm
  | ⟨2, _⟩ => by
    show _ = Function.update (V5 m c) main_v33 (outs 6 main_v33 c) main_v33
    rw [Function.update_self]; exact (hO.o6 c).symm

/-- Off the pipeline's arrays `V6` is `V5`: the one buffer where they differ is the result array. -/
theorem exit0_off (outs : Outs (F := F)) (c : Dev nD) (b : Ref sig .tc) (hb : b ∉ Finset.univ.image (Pipeline.arrRef spec0)) :
    atTc (V6 m outs) c b = atTc (V5 m) c b :=
  V6_of m outs c b fun hmem => hb (by
    rw [List.mem_singleton.mp hmem]; exact Finset.mem_image.mpr ⟨2, Finset.mem_univ _, rfl⟩)

/-- Region 0 as a segment: entered from every unscoped buffer at `V5 m c`, left at `V6 m outs c`. -/
def reg0 (outs : Outs (F := F)) (hO : OutsOk m outs) : Pipeline.RegionSeg (pcfgs (F := F)) adm (pdats m outs) () defs₀ Variants.none L lv 0 :=
  between (pdats m outs) 0 launch0 (fun c => (body_obligation0 (atTc (V5 m)) c).loose) (fun _ _ => rfl) (fun _ _ => rfl) (fun _ => rfl)
    (fun _ _ => rfl) (V5 m) (V6 m outs) (fun _ _ => rfl) (exit0_arr m outs hO) (exit0_off m outs)

theorem reg0_pre (outs : Outs (F := F)) (hO : OutsOk m outs) (c : Dev nD) :
    iprop(StableHlo.held (c : Thread nD τ) (Pipeline.ucRefs τ sig) (V5 m c) ∗ Rst c) ⊢ (reg0 m outs hO).pre c := .rfl
theorem reg0_post (outs : Outs (F := F)) (hO : OutsOk m outs) (c : Dev nD) :
    (reg0 m outs hO).post c ⊢ iprop(StableHlo.held (c : Thread nD τ) (Pipeline.ucRefs τ sig) (V6 m outs c) ∗ Rst c) := .rfl

/-! ## Region 1: the first layer's messages, from `V7` to `V8` -/

-- five windows, each read against the valuation by unfolding the proof data: past the default budget taken together
set_option maxHeartbeats 1000000 in
/-- At region 1's exit every array of its pipeline holds what `V8` names there: the feature array and the three
    coefficient columns are operands, never written back, and `V8` is `V7` off the message buffer; the message array
    holds the fold of the 208 write-backs, the last of them cut at the array's end, as `outs` records it. -/
theorem exit1_arr (outs : Outs (F := F)) (hO : OutsOk m outs) (c : Dev nD) (w : Fin cfg1.W) :
    (pdats m outs 1 c).arrAt w cfg1.N = atTc (V8 m outs) c (Pipeline.arrRef spec1 w) :=
  match w with
  | ⟨0, _⟩ => ((pdats m outs 1 c).arrAt_in 0 rfl _).trans (V8_of m outs c main_v40 (by decide)).symm
  | ⟨1, _⟩ => ((pdats m outs 1 c).arrAt_in 1 rfl _).trans (V8_of m outs c main_v41 (by decide)).symm
  | ⟨2, _⟩ => ((pdats m outs 1 c).arrAt_in 2 rfl _).trans (V8_of m outs c main_v42 (by decide)).symm
  | ⟨3, _⟩ => ((pdats m outs 1 c).arrAt_in 3 rfl _).trans (V8_of m outs c main_v43 (by decide)).symm
  | ⟨4, _⟩ => by
    show _ = Function.update (V7 m outs c) main_v44 (outs 8 main_v44 c) main_v44
    rw [Function.update_self]; exact (hO.o8 c).symm

/-- Off the pipeline's arrays `V8` is `V7`. -/
theorem exit1_off (outs : Outs (F := F)) (c : Dev nD) (b : Ref sig .tc) (hb : b ∉ Finset.univ.image (Pipeline.arrRef spec1)) :
    atTc (V8 m outs) c b = atTc (V7 m outs) c b :=
  V8_of m outs c b fun hmem => hb (by
    rw [List.mem_singleton.mp hmem]; exact Finset.mem_image.mpr ⟨4, Finset.mem_univ _, rfl⟩)

/-- Region 1 as a segment: entered from every unscoped buffer at `V7 m outs c`, left at `V8 m outs c`. -/
def reg1 (outs : Outs (F := F)) (hO : OutsOk m outs) : Pipeline.RegionSeg (pcfgs (F := F)) adm (pdats m outs) () defs₀ Variants.none L lv 1 :=
  between (pdats m outs) 1 launch1 (fun c => body_obligation1 (atTc (V7 m outs)) c) (fun _ _ => rfl) (fun _ _ => rfl) (fun _ => rfl)
    (fun _ _ => rfl) (V7 m outs) (V8 m outs) (fun _ _ => rfl) (exit1_arr m outs hO) (exit1_off m outs)

theorem reg1_pre (outs : Outs (F := F)) (hO : OutsOk m outs) (c : Dev nD) :
    iprop(StableHlo.held (c : Thread nD τ) (Pipeline.ucRefs τ sig) (V7 m outs c) ∗ Rst c) ⊢ (reg1 m outs hO).pre c := .rfl
theorem reg1_post (outs : Outs (F := F)) (hO : OutsOk m outs) (c : Dev nD) :
    (reg1 m outs hO).post c ⊢ iprop(StableHlo.held (c : Thread nD τ) (Pipeline.ucRefs τ sig) (V8 m outs c) ∗ Rst c) := .rfl

/-! ## Region 2: the second dense product, from `V10` to `V11` -/

/-- At region 2's exit every array of its pipeline holds what `V11` names there: the aggregated features and the
    second weight matrix are operands, never written back; the product's array holds the fold of the twenty
    write-backs, as `outs` records it. -/
theorem exit2_arr (outs : Outs (F := F)) (hO : OutsOk m outs) (c : Dev nD) (w : Fin cfg2.W) :
    (pdats m outs 2 c).arrAt w cfg2.N = atTc (V11 m outs) c (Pipeline.arrRef spec2 w) :=
  match w with
  | ⟨0, _⟩ => ((pdats m outs 2 c).arrAt_in 0 rfl _).trans (V11_of m outs c main_v51 (by decide)).symm
  | ⟨1, _⟩ => ((pdats m outs 2 c).arrAt_in 1 rfl _).trans (V11_of m outs c main_arg5 (by decide)).symm
  | ⟨2, _⟩ => by
    show _ = Function.update (V10 m outs c) main_v52 (outs 11 main_v52 c) main_v52
    rw [Function.update_self]; exact (hO.o11 c).symm

/-- Off the pipeline's arrays `V11` is `V10`. -/
theorem exit2_off (outs : Outs (F := F)) (c : Dev nD) (b : Ref sig .tc) (hb : b ∉ Finset.univ.image (Pipeline.arrRef spec2)) :
    atTc (V11 m outs) c b = atTc (V10 m outs) c b :=
  V11_of m outs c b fun hmem => hb (by
    rw [List.mem_singleton.mp hmem]; exact Finset.mem_image.mpr ⟨2, Finset.mem_univ _, rfl⟩)

/-- Region 2 as a segment: entered from every unscoped buffer at `V10 m outs c`, left at `V11 m outs c`. -/
def reg2 (outs : Outs (F := F)) (hO : OutsOk m outs) : Pipeline.RegionSeg (pcfgs (F := F)) adm (pdats m outs) () defs₀ Variants.none L lv 2 :=
  between (pdats m outs) 2 launch2 (fun c => (body_obligation2 (atTc (V10 m outs)) c).loose) (fun _ _ => rfl) (fun _ _ => rfl) (fun _ => rfl)
    (fun _ _ => rfl) (V10 m outs) (V11 m outs) (fun _ _ => rfl) (exit2_arr m outs hO) (exit2_off m outs)

theorem reg2_pre (outs : Outs (F := F)) (hO : OutsOk m outs) (c : Dev nD) :
    iprop(StableHlo.held (c : Thread nD τ) (Pipeline.ucRefs τ sig) (V10 m outs c) ∗ Rst c) ⊢ (reg2 m outs hO).pre c := .rfl
theorem reg2_post (outs : Outs (F := F)) (hO : OutsOk m outs) (c : Dev nD) :
    (reg2 m outs hO).post c ⊢ iprop(StableHlo.held (c : Thread nD τ) (Pipeline.ucRefs τ sig) (V11 m outs c) ∗ Rst c) := .rfl

/-! ## Region 3: the second layer's messages, from `V12` to `V13` -/

-- five windows, each read against the valuation by unfolding the proof data: past the default budget taken together
set_option maxHeartbeats 1000000 in
/-- At region 3's exit every array of its pipeline holds what `V13` names there: the gathered rows and the three
    coefficient columns are operands, never written back; the message array holds the fold of the 208 write-backs,
    the last of them cut at the array's end, as `outs` records it. -/
theorem exit3_arr (outs : Outs (F := F)) (hO : OutsOk m outs) (c : Dev nD) (w : Fin cfg3.W) :
    (pdats m outs 3 c).arrAt w cfg3.N = atTc (V13 m outs) c (Pipeline.arrRef spec3 w) :=
  match w with
  | ⟨0, _⟩ => ((pdats m outs 3 c).arrAt_in 0 rfl _).trans (V13_of m outs c main_v59 (by decide)).symm
  | ⟨1, _⟩ => ((pdats m outs 3 c).arrAt_in 1 rfl _).trans (V13_of m outs c main_v60 (by decide)).symm
  | ⟨2, _⟩ => ((pdats m outs 3 c).arrAt_in 2 rfl _).trans (V13_of m outs c main_v61 (by decide)).symm
  | ⟨3, _⟩ => ((pdats m outs 3 c).arrAt_in 3 rfl _).trans (V13_of m outs c main_v62 (by decide)).symm
  | ⟨4, _⟩ => by
    show _ = Function.update (V12 m outs c) main_v63 (outs 13 main_v63 c) main_v63
    rw [Function.update_self]; exact (hO.o13 c).symm

/-- Off the pipeline's arrays `V13` is `V12`. -/
theorem exit3_off (outs : Outs (F := F)) (c : Dev nD) (b : Ref sig .tc) (hb : b ∉ Finset.univ.image (Pipeline.arrRef spec3)) :
    atTc (V13 m outs) c b = atTc (V12 m outs) c b :=
  V13_of m outs c b fun hmem => hb (by
    rw [List.mem_singleton.mp hmem]; exact Finset.mem_image.mpr ⟨4, Finset.mem_univ _, rfl⟩)

/-- Region 3 as a segment: entered from every unscoped buffer at `V12 m outs c`, left at `V13 m outs c`. -/
def reg3 (outs : Outs (F := F)) (hO : OutsOk m outs) : Pipeline.RegionSeg (pcfgs (F := F)) adm (pdats m outs) () defs₀ Variants.none L lv 3 :=
  between (pdats m outs) 3 launch3 (fun c => body_obligation3 (atTc (V12 m outs)) c) (fun _ _ => rfl) (fun _ _ => rfl) (fun _ => rfl)
    (fun _ _ => rfl) (V12 m outs) (V13 m outs) (fun _ _ => rfl) (exit3_arr m outs hO) (exit3_off m outs)

theorem reg3_pre (outs : Outs (F := F)) (hO : OutsOk m outs) (c : Dev nD) :
    iprop(StableHlo.held (c : Thread nD τ) (Pipeline.ucRefs τ sig) (V12 m outs c) ∗ Rst c) ⊢ (reg3 m outs hO).pre c := .rfl
theorem reg3_post (outs : Outs (F := F)) (hO : OutsOk m outs) (c : Dev nD) :
    (reg3 m outs hO).post c ⊢ iprop(StableHlo.held (c : Thread nD τ) (Pipeline.ucRefs τ sig) (V13 m outs c) ∗ Rst c) := .rfl

/-! ## The run

@main is fourteen items: five stretches of host operations, region 0, a stretch, region 1, two stretches, region 2, a
stretch, region 3, a last stretch. Each host stretch carries every unscoped buffer from its valuation to the next,
`Rst` riding along; each region is the segment above. The launch deals every core its unscoped buffers at the launch
memory, its generator register and an empty debt: the first thread state. The last one holds every unscoped buffer at
`V14`, which is read against the final memory. -/

/-- An unscoped TensorCore reference is among those the thread states hold. -/
theorem uc_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The run, read at every unscoped buffer: every weakly fair execution of @main from memory `m` with zero counters
    ends, nothing faults, and in the final memory each unscoped buffer of each core holds what the last valuation
    `V14 m outs c` names; so any `Q` that follows from those readings holds of the final memory. -/
theorem run_bufs (outs : Outs (F := F)) (hO : OutsOk m outs) {Q : PUnit × MemSt nD τ sig (Elt F) → Prop}
    (hQ : ∀ s : MemSt nD τ sig (Elt F),
      (∀ c : Dev nD, ∀ b ∈ Pipeline.ucRefs τ sig, s.mem ((c : Thread nD τ).1, b) = V14 m outs c b) → Q (⟨⟩, s)) :
    θ_run defs (onTc (τ := τ) (main (F := F))) ⟨m, fun _ => 0, ρ⟩ Q := by
  refine Pipeline.θ_run_regions_kit_dev (pcfgs (F := F)) adm (pdats m outs) () cellOf_inj emb₁ defs₀ Variants.none L lv m ρ main
    (segs m outs Variants.none L lv (fun _ c => Rst c) () (pdats m outs) (reg0 m outs hO) (reg1 m outs hO) (reg2 m outs hO) (reg3 m outs hO))
    (fun c Q' => by
      rewrite [main_chain c, Pipeline.Seg.run_eq_chain,
        show (segs m outs Variants.none L lv (fun _ c => Rst c) () (pdats m outs) (reg0 m outs hO) (reg1 m outs hO) (reg2 m outs hO) (reg3 m outs hO) c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          StableHlo.seq hostOps2_1,
          Prog.lift (.customCall (Pipeline.entry 2) ()),
          StableHlo.seq hostOps3,
          Prog.lift (.customCall (Pipeline.entry 3) ()),
          StableHlo.seq hostOps4 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ Rst c))
    (Tₙ := fun c => StableHlo.held (c : Thread nD τ) (Pipeline.ucRefs τ sig) (V14 m outs c))
    (hch := fun c => ⟨.rfl, .rfl, .rfl, .rfl, .rfl, reg0_pre m outs hO c, reg0_post m outs hO c, reg1_pre m outs hO c, reg1_post m outs hO c,
      .rfl, reg2_pre m outs hO c, reg2_post m outs hO c, reg3_pre m outs hO c, reg3_post m outs hO c,
      sep_mono .rfl (by iintro ⟨-, Hdebt⟩; iexact Hdebt)⟩)
    (hinit := ?_)
    (QY := fun c s => ∀ b ∈ Pipeline.ucRefs τ sig, s.mem ((c : Thread nD τ).1, b) = V14 m outs c b)
    (hfin := fun c s' => ?_) (hQ := hQ)
  · -- the launch element is the pipeline library's own; no further ghost resource is dealt
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the first thread state, core by core: the unscoped buffers at the launch memory, the register, the empty debt
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hbufs, -, Hdebt, -, Hreg, -⟩, -⟩
    imodintro
    isplitl [Hbufs]; · iexact Hbufs
    isplitl [Hreg]; · iexists _; iexact Hreg
    iexists ∅; iexact Hdebt
  · -- the end: the last thread state's buffers read against the final memory
    unfold StableHlo.held
    iintro ⟨Hbufs, HSI⟩
    imodintro
    iapply (pointsTo_read_all (Pipeline.ucRefs τ sig) (fun b => ((c : Thread nD τ).1, b)) (V14 m outs c) s')
    isplitl [Hbufs] <;> iassumption

/-- The frame: every weakly fair execution ends, nothing faults, and the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  obtain ⟨outs, hO⟩ := exists_outs m
  exact run_bufs m ρ outs hO fun s h c =>
    ⟨(h c _ (uc_mem main_arg0 (by decide))).trans (V14_main_arg0 m outs c),
     (h c _ (uc_mem main_arg1 (by decide))).trans (V14_main_arg1 m outs c),
     (h c _ (uc_mem main_arg2 (by decide))).trans (V14_main_arg2 m outs c),
     (h c _ (uc_mem main_arg3 (by decide))).trans (V14_main_arg3 m outs c),
     (h c _ (uc_mem main_arg4 (by decide))).trans (V14_main_arg4 m outs c),
     (h c _ (uc_mem main_arg5 (by decide))).trans (V14_main_arg5 m outs c),
     (h c _ (uc_mem main_arg6 (by decide))).trans (V14_main_arg6 m outs c)⟩

/-- The run with the result named: besides the frame, the result buffer ends at the last valuation's contents. -/
theorem run_vals (outs : Outs (F := F)) (hO : OutsOk m outs) :
    θ_run defs (onTc (τ := τ) (main (F := F))) ⟨m, fun _ => 0, ρ⟩ (fun r => ∀ c : Dev nD,
      r.2.mem ((c.tc : Thread nD τ).loc main_v69) = V14 m outs c main_v69
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_bufs m ρ outs hO fun s h c =>
    ⟨h c _ (uc_mem main_v69 (by decide)),
     (h c _ (uc_mem main_arg0 (by decide))).trans (V14_main_arg0 m outs c),
     (h c _ (uc_mem main_arg1 (by decide))).trans (V14_main_arg1 m outs c),
     (h c _ (uc_mem main_arg2 (by decide))).trans (V14_main_arg2 m outs c),
     (h c _ (uc_mem main_arg3 (by decide))).trans (V14_main_arg3 m outs c),
     (h c _ (uc_mem main_arg4 (by decide))).trans (V14_main_arg4 m outs c),
     (h c _ (uc_mem main_arg5 (by decide))).trans (V14_main_arg5 m outs c),
     (h c _ (uc_mem main_arg6 (by decide))).trans (V14_main_arg6 m outs c)⟩

end Cert.KernelIdeal.Hand

end
-- ==== Proof.Bits.Dats.lean ====
/-
  The proof data of the four kernel regions, each stated at the contents `V` its region is entered from.

  Regions 0 and 2 are the dense products: at grid point `t` the body loads a 5000-row block of the left operand
  and the whole right operand, and stores their matrix product into the result's 5000-row block. Their blocks
  tile the arrays, so after the body each input buffer holds its block and the result buffer the product.

  Regions 1 and 3 form the messages: at grid point `t` the body loads an 8192-row block of the gathered
  features and of the three per-edge coefficient columns and stores the features scaled, row by row, by the
  product of the three coefficients. The 1 700 000 edge rows are not a multiple of 8192, so the last of the
  208 blocks reaches past the arrays' end: a fetch fills only the rows inside the array and a write-back
  writes only those. The data names each buffer after the body on all 8192 rows by filling the rows past the
  array with the zero word; the body obligation states the buffers on the rows inside the array only.
-/
import proofs.«136756_j77644418777510_1_alg».proof.Proof.Gen.Kernel.Launch
import proofs.«136756_j77644418777510_1_alg».proof.Proof.Gen.Kernel.Skeleton
import proofs.«136756_j77644418777510_1_alg».proof.Proof.Gen.Kernel.Points
import Idealize.ShloMosaic.Lib.Pipeline.FrameBody
import Idealize.ShloMosaic.Lib.Pipeline.Kit
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

-- the contents a region is entered from: every TensorCore buffer of core `c`
variable (V : (c : Dev nD) → (b : Ref sig .tc) → Buf (Elt F) ((c : Thread nD τ).loc b))

/-! ## Region 0: the first dense product -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0

/-- The result buffer after the body: the one whole store of the product of the two loaded blocks. -/
def out0_2 (x0 : Vec F S5000x128 .f32) (x1 : Vec F S128x128 .f32) : Vec F S5000x128 .f32 :=
  View.canon [⟨r0_x, k0_pay1 (View.ld x0 r0_x) (View.ld x1 r0_w)⟩]

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-! ## Region 2: the second dense product -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S5000x128 := Rect.unit (s := S5000x128) ![0, 0] S5000x128.size inb_S5000x128_S5000x128_0_0
abbrev r2_w : Rect S128x64 := Rect.unit (s := S128x64) ![0, 0] S128x64.size inb_S128x64_S128x64_0_0
abbrev r2_o : Rect S5000x64 := Rect.unit (s := S5000x64) ![0, 0] S5000x64.size inb_S5000x64_S5000x64_0_0

def out2_2 (x0 : Vec F S5000x128 .f32) (x1 : Vec F S128x64 .f32) : Vec F S5000x64 .f32 :=
  View.canon [⟨r2_o, k2_pay1 (View.ld x0 r2_x) (View.ld x1 r2_w)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-! ## Region 1: the first layer's messages -/

/-- Window `w`'s block at point `t` as the fetch reads it: its rows inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The same block on all 8192 rows: the rows past the array's end hold the zero word. -/
def fblk1_0 (c : Dev nD) (t : Fin cfg1.N) : Vec F S8192x128 .f32 :=
  win1_0.fill (grid1.coords t) (fun _ => Scalar.ofBits .f32 0#32) (iblk1 V c 0 t)
def fblk1_1 (c : Dev nD) (t : Fin cfg1.N) : Vec F S8192x1 .f32 :=
  win1_1.fill (grid1.coords t) (fun _ => Scalar.ofBits .f32 0#32) (iblk1 V c 1 t)
def fblk1_2 (c : Dev nD) (t : Fin cfg1.N) : Vec F S8192x1 .f32 :=
  win1_2.fill (grid1.coords t) (fun _ => Scalar.ofBits .f32 0#32) (iblk1 V c 2 t)
def fblk1_3 (c : Dev nD) (t : Fin cfg1.N) : Vec F S8192x1 .f32 :=
  win1_3.fill (grid1.coords t) (fun _ => Scalar.ofBits .f32 0#32) (iblk1 V c 3 t)

abbrev r1_h : Rect S8192x128 := Rect.unit (s := S8192x128) ![0, 0] S8192x128.size inb_S8192x128_S8192x128_0_0
abbrev r1_c : Rect S8192x1 := Rect.unit (s := S8192x1) ![0, 0] S8192x1.size inb_S8192x1_S8192x1_0_0

/-- The message buffer after the body, from the feature block `h` and the three coefficient columns. -/
def out1_4 (h : Vec F S8192x128 .f32) (a b d : Vec F S8192x1 .f32) : Vec F S8192x128 .f32 :=
  View.canon [⟨r1_h, k1_pay1 (View.ld a r1_c) (View.ld b r1_c) (View.ld d r1_c) (View.ld h r1_h)⟩]

def dat1 (c : Dev nD) : Dat τ (Elt F) Unit ℕ (UR sig nD τ) ℕ cfg1 c where
  A w := V c (Pipeline.arrRef spec1 w)
  after w t := match w with
    | ⟨0, _⟩ => fblk1_0 V c t
    | ⟨1, _⟩ => fblk1_1 V c t
    | ⟨2, _⟩ => fblk1_2 V c t
    | ⟨3, _⟩ => fblk1_3 V c t
    | ⟨4, _⟩ => out1_4 (fblk1_0 V c t) (fblk1_1 V c t) (fblk1_2 V c t) (fblk1_3 V c t)
  Φ _ := Pipeline.ΦA spec1 c
  q _ := fullShare
  owed _ := 0

/-! ## Region 3: the second layer's messages -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def fblk3_0 (c : Dev nD) (t : Fin cfg3.N) : Vec F S8192x64 .f32 :=
  win3_0.fill (grid3.coords t) (fun _ => Scalar.ofBits .f32 0#32) (iblk3 V c 0 t)
def fblk3_1 (c : Dev nD) (t : Fin cfg3.N) : Vec F S8192x1 .f32 :=
  win3_1.fill (grid3.coords t) (fun _ => Scalar.ofBits .f32 0#32) (iblk3 V c 1 t)
def fblk3_2 (c : Dev nD) (t : Fin cfg3.N) : Vec F S8192x1 .f32 :=
  win3_2.fill (grid3.coords t) (fun _ => Scalar.ofBits .f32 0#32) (iblk3 V c 2 t)
def fblk3_3 (c : Dev nD) (t : Fin cfg3.N) : Vec F S8192x1 .f32 :=
  win3_3.fill (grid3.coords t) (fun _ => Scalar.ofBits .f32 0#32) (iblk3 V c 3 t)

abbrev r3_h : Rect S8192x64 := Rect.unit (s := S8192x64) ![0, 0] S8192x64.size inb_S8192x64_S8192x64_0_0
abbrev r3_c : Rect S8192x1 := Rect.unit (s := S8192x1) ![0, 0] S8192x1.size inb_S8192x1_S8192x1_0_0

def out3_4 (h : Vec F S8192x64 .f32) (a b d : Vec F S8192x1 .f32) : Vec F S8192x64 .f32 :=
  View.canon [⟨r3_h, k3_pay1 (View.ld a r3_c) (View.ld b r3_c) (View.ld d r3_c) (View.ld h r3_h)⟩]

def dat3 (c : Dev nD) : Dat τ (Elt F) Unit ℕ (UR sig nD τ) ℕ cfg3 c where
  A w := V c (Pipeline.arrRef spec3 w)
  after w t := match w with
    | ⟨0, _⟩ => fblk3_0 V c t
    | ⟨1, _⟩ => fblk3_1 V c t
    | ⟨2, _⟩ => fblk3_2 V c t
    | ⟨3, _⟩ => fblk3_3 V c t
    | ⟨4, _⟩ => out3_4 (fblk3_0 V c t) (fblk3_1 V c t) (fblk3_2 V c t) (fblk3_3 V c t)
  Φ _ := Pipeline.ΦA spec3 c
  q _ := fullShare
  owed _ := 0

end Cert.Kernel.Hand

end
-- ==== Proof.Bits.Data.lean ====
/-
  What the four kernel regions leave in the buffers they write, pinned down.

  Between two items of the program core `c` holds every buffer at a valuation: the launch contents pushed through
  each stretch of host operations, and at each kernel region updated at the one buffer the region writes. Each
  region's result is what its pipeline's write-backs leave (the proof data's array after the last grid point),
  computed from the valuation the region is entered from, which itself holds the earlier regions' results. `OutsOk`
  states this chain of four equations for a family `outs` of such results, and `exists_outs` constructs one by
  walking the program once. Everything downstream takes `outs` with `OutsOk` and never looks inside.
-/
import proofs.«136756_j77644418777510_1_alg».proof.Proof.Bits.Dats
import proofs.«136756_j77644418777510_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ)

/-- A family of valuations read at the TensorCore's references: what a region's proof data takes. -/
abbrev atTc (W : Dev nD → Valuation τ sig (Elt F)) : (c : Dev nD) → (b : Ref sig .tc) → Buf (Elt F) ((c : Thread nD τ).loc b) :=
  fun c b => W c b

/-- The four results are what the four pipelines compute, each from the valuation its region is entered from. -/
structure OutsOk (outs : Outs (F := F)) : Prop where
  o6 : ∀ c : Dev nD, outs 6 main_v33 c = (dat0 (atTc (V5 m)) c).arrAt 2 cfg0.N
  o8 : ∀ c : Dev nD, outs 8 main_v44 c = (dat1 (atTc (V7 m outs)) c).arrAt 4 cfg1.N
  o11 : ∀ c : Dev nD, outs 11 main_v52 c = (dat2 (atTc (V10 m outs)) c).arrAt 2 cfg2.N
  o13 : ∀ c : Dev nD, outs 13 main_v63 c = (dat3 (atTc (V12 m outs)) c).arrAt 4 cfg3.N

/-- Every pipeline's proof data, each at its region's entry valuation. -/
def pdats (outs : Outs (F := F)) : (p : Fin 4) → (c : Dev nD) → Dat τ (Elt F) Unit ℕ (UR sig nD τ) ℕ (cfgs p) c
  | ⟨0, _⟩ => fun c => dat0 (atTc (V5 m)) c
  | ⟨1, _⟩ => fun c => dat1 (atTc (V7 m outs)) c
  | ⟨2, _⟩ => fun c => dat2 (atTc (V10 m outs)) c
  | ⟨3, _⟩ => fun c => dat3 (atTc (V12 m outs)) c

/-! ## A family that satisfies the equations -/

/-- The valuations of one walk through the program, each region's result computed on the way. -/
def Y6 (c : Dev nD) : Valuation τ sig (Elt F) := Function.update (V5 m c) main_v33 ((dat0 (atTc (V5 m)) c).arrAt 2 cfg0.N)
def Y7 (c : Dev nD) : Valuation τ sig (Elt F) := StableHlo.after hostOps1 (Y6 m c)
def Y8 (c : Dev nD) : Valuation τ sig (Elt F) := Function.update (Y7 m c) main_v44 ((dat1 (atTc (Y7 m)) c).arrAt 4 cfg1.N)
def Y9 (c : Dev nD) : Valuation τ sig (Elt F) := StableHlo.after hostOps2 (Y8 m c)
def Y10 (c : Dev nD) : Valuation τ sig (Elt F) := StableHlo.after hostOps2_1 (Y9 m c)
def Y11 (c : Dev nD) : Valuation τ sig (Elt F) := Function.update (Y10 m c) main_v52 ((dat2 (atTc (Y10 m)) c).arrAt 2 cfg2.N)
def Y12 (c : Dev nD) : Valuation τ sig (Elt F) := StableHlo.after hostOps3 (Y11 m c)
def Y13 (c : Dev nD) : Valuation τ sig (Elt F) := Function.update (Y12 m c) main_v63 ((dat3 (atTc (Y12 m)) c).arrAt 4 cfg3.N)

/-- The results read off that walk. -/
def theOuts : Outs (F := F) := fun j r c =>
  if j = 6 then Y6 m c r else if j = 8 then Y8 m c r else if j = 11 then Y11 m c r else Y13 m c r

theorem theOuts_6 (r : Ref sig .tc) (c : Dev nD) : theOuts m 6 r c = Y6 m c r := by unfold theOuts; rw [if_pos rfl]
theorem theOuts_8 (r : Ref sig .tc) (c : Dev nD) : theOuts m 8 r c = Y8 m c r := by
  unfold theOuts; rw [if_neg (by decide), if_pos rfl]
theorem theOuts_11 (r : Ref sig .tc) (c : Dev nD) : theOuts m 11 r c = Y11 m c r := by
  unfold theOuts; rw [if_neg (by decide), if_neg (by decide), if_pos rfl]
theorem theOuts_13 (r : Ref sig .tc) (c : Dev nD) : theOuts m 13 r c = Y13 m c r := by
  unfold theOuts; rw [if_neg (by decide), if_neg (by decide), if_neg (by decide)]

theorem V6_theOuts (c : Dev nD) : V6 m (theOuts m) c = Y6 m c := by
  show Function.update (V5 m c) main_v33 (theOuts m 6 main_v33 c) = _
  rw [theOuts_6]; unfold Y6; rw [Function.update_self]
theorem V7_theOuts : V7 m (theOuts m) = Y7 m := by
  funext c; show StableHlo.after hostOps1 (V6 m (theOuts m) c) = _; rw [V6_theOuts]; rfl
theorem V8_theOuts (c : Dev nD) : V8 m (theOuts m) c = Y8 m c := by
  show Function.update (V7 m (theOuts m) c) main_v44 (theOuts m 8 main_v44 c) = _
  rw [V7_theOuts, theOuts_8]; unfold Y8; rw [Function.update_self]
theorem V10_theOuts : V10 m (theOuts m) = Y10 m := by
  funext c; show StableHlo.after hostOps2_1 (StableHlo.after hostOps2 (V8 m (theOuts m) c)) = _; rw [V8_theOuts]; rfl
theorem V11_theOuts (c : Dev nD) : V11 m (theOuts m) c = Y11 m c := by
  show Function.update (V10 m (theOuts m) c) main_v52 (theOuts m 11 main_v52 c) = _
  rw [V10_theOuts, theOuts_11]; unfold Y11; rw [Function.update_self]
theorem V12_theOuts : V12 m (theOuts m) = Y12 m := by
  funext c; show StableHlo.after hostOps3 (V11 m (theOuts m) c) = _; rw [V11_theOuts]; rfl

theorem theOuts_ok : OutsOk m (theOuts m) where
  o6 c := by rw [theOuts_6]; unfold Y6; rw [Function.update_self]
  o8 c := by rw [V7_theOuts, theOuts_8]; unfold Y8; rw [Function.update_self]
  o11 c := by rw [V10_theOuts, theOuts_11]; unfold Y11; rw [Function.update_self]
  o13 c := by rw [V12_theOuts, theOuts_13]; unfold Y13; rw [Function.update_self]

theorem exists_outs : ∃ outs : Outs (F := F), OutsOk m outs := ⟨theOuts m, theOuts_ok m⟩

end Cert.Kernel.Hand

end
-- ==== Proof.Bits.R0.lean ====
import proofs.«136756_j77644418777510_1_alg».proof.Proof.Bits.Dats
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

local notation "𝕄" => MT nD τ sig Unit (Elt F) ℕ (UR sig nD τ) ℕ

/-! ## The first dense product at one grid point

At point `t` the left operand's buffer holds rows `5000 t … 5000 t + 4999` of the left matrix and the right
operand's buffer the whole 128 × 128 right matrix. The body reads both, reads (and drops) the result buffer,
and writes the 5000 × 128 product over the whole result buffer. -/

/-- The data's arrays are the contents the region is entered from. -/
theorem arr0 (c : Dev nD) (w : Fin cfg0.W) : (dat0 V c).A w = V c (Pipeline.arrRef spec0 w) := by
  dsimp only [dat0]

/-- After the body the left operand's buffer still holds its row block, -/
theorem left0_x (c : Dev nD) (t : Fin cfg0.N) : (dat0 V c).after 0 t = iblk0 V c 0 t := by dsimp only [dat0]
/-- the right operand's buffer still holds the right matrix, -/
theorem left0_w (c : Dev nD) (t : Fin cfg0.N) : (dat0 V c).after 1 t = iblk0 V c 1 t := by dsimp only [dat0]
/-- and the result buffer holds the product of the two. -/
theorem left0_o (c : Dev nD) (t : Fin cfg0.N) :
    (dat0 V c).after 2 t = out0_2 (iblk0 V c 0 t) (iblk0 V c 1 t) := by dsimp only [dat0]

/-- The left operand's row block is in its buffer when the body starts: the block index moves at every
    point, the body does not write the buffer, and the 20 blocks of 5000 rows tile the 100000 rows, so a
    fetch brings in exactly the block. -/
theorem found0_x (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := by
    intro s; rw [left0_x]; unfold Dat.blockOf iblk0; rw [arr0]
  rw [(dat0 V c).before_in_eq_fetched 0 rfl (fun _ => rfl) (fun _ _ _ => rfl) hkeep t d]
  unfold Dat.fetched Dat.blockOf iblk0; rw [arr0]; rfl

/-- The right matrix is in its buffer when the body starts, at the first point because it is fetched
    there, at every later point because its block index is the same at all points and the body leaves the
    buffer as it found it. -/
theorem found0_w (c : Dev nD) (t : Fin cfg0.N) (d) : (dat0 V c).before 1 t d = iblk0 V c 1 t := by
  have hkeep : ∀ s, (cfg0.win 1).cut (cfg0.grid.coords s) ((dat0 V c).after 1 s) = (dat0 V c).blockOf 1 s := by
    intro s; rw [left0_w]; unfold Dat.blockOf iblk0; rw [arr0]
  rw [(dat0 V c).before_in_eq_fetched 1 rfl (fun _ => rfl) (fun _ _ _ => rfl) hkeep t d]
  unfold Dat.fetched Dat.blockOf iblk0; rw [arr0]; rfl

/-- The one store writes the rectangle of all 5000 × 128 positions, so every position of the result
    buffer lies in it. -/
theorem whole0 (p : Vec F S5000x128 .f32) (y : S5000x128.Idx) :
    ∃ pc ∈ ([⟨r0_x, p⟩] : List (View.Piece (Elt F) S5000x128 .f32)), y ∈ pc.1.set :=
  View.cover_of_tiled [⟨r0_x, p⟩] S5000x128.size (by rfl) y

set_option maxHeartbeats 1000000 in
/-- The body on any three whole buffers. Given the left buffer reading `x0`, the right buffer reading
    `x1` and the result buffer at anything, it runs to a state where the two operand buffers read what
    they did and the result buffer reads `out0_2 x0 x1`: the two loads return `x0` and `x1` through the
    full rectangles, the third load's value is unused, and the store of the product overwrites every
    position of the result buffer (`whole0`), so nothing of its earlier contents is left. -/
theorem product0_triple (c : Dev nD) (E : Set ℕ) (i : grid0.Coords)
    (bx : Memref sig .tc .vmem S5000x128 .f32) (hbx : bx.IsWhole)
    (bw : Memref sig .tc .vmem S128x128 .f32) (hbw : bw.IsWhole)
    (bo : Memref sig .tc .vmem S5000x128 .f32) (hbo : bo.IsWhole)
    (x0 : Vec F S5000x128 .f32) (x1 : Vec F S128x128 .f32) (K : PUnit → sProp 𝕄) :
    iprop(owns (c : Thread nD τ) bx fullShare x0 ∗ owns (c : Thread nD τ) bw fullShare x1
        ∗ (∃ d, owns (c : Thread nD τ) bo fullShare d)
        ∗ (iprop(owns (c : Thread nD τ) bx fullShare x0 ∗ owns (c : Thread nD τ) bw fullShare x1
            ∗ owns (c : Thread nD τ) bo fullShare (out0_2 x0 x1)) -∗ K ⟨⟩))
      ⊢ wp frame (wpE (defs₀ (F := F)) Variants.none c none) E (cc0__matmul_kernel i bx hbx bw hbw bo hbo) K := by
  simp only [cc0__matmul_kernel_eq_skeleton]; unfold cc0__matmul_kernel_skel
  unfold owns
  iintro ⟨⟨%fx, %hfx, Hx⟩, ⟨%fw, %hfw, Hw⟩, ⟨%d, %fo, -, Ho⟩, Hk⟩
  subst hfx; subst hfw
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Ho
  ipureintro
  exact View.read_writes_eq_canon _ _ _ (whole0 _)

/-- At every grid point the three current buffers are whole, the operand buffers hold their blocks
    (`found0_x`, `found0_w`), and the invariant and the core's debt are the same before and after the
    point, so `product0_triple` at the two blocks gives what the data says the body leaves. -/
theorem body_obligation0 (c : Dev nD) : BodyObligation (dat0 (F := F) V c) (defs₀ (F := F)) Variants.none () Set.univ := by
  intro t
  rw [bigSep_W0, bigSep_W0]
  simp only [found0_x, found0_w]
  rw [show (dat0 V c).Φ t.succ = (dat0 V c).Φ t.castSucc from rfl,
    show (dat0 V c).owesAt () t.succ = (dat0 V c).owesAt () t.castSucc from rfl,
    left0_x, left0_w, left0_o]
  show _ ⊢ wp frame _ Set.univ (bodyAt0 t) _
  unfold bodyAt0
  iintro ⟨HΦ, Hd, ⟨%d0, Hx⟩, ⟨%d1, Hw⟩, ⟨%d2, Ho⟩⟩
  iapply (product0_triple c Set.univ _ _ _ _ _ _ _ (iblk0 V c 0 t) (iblk0 V c 1 t) _)
  isplitl [Hx]; · iexact Hx
  isplitl [Hw]; · iexact Hw
  isplitl [Ho]; · iexists _; iexact Ho
  iintro ⟨Hx, Hw, Ho⟩
  isplitl [HΦ]; · iexact HΦ
  isplitl [Hd]; · iexact Hd
  isplitl [Hx]; · iexact Hx
  isplitl [Hw]; · iexact Hw
  iexact Ho

end Cert.Kernel.Hand

end
-- ==== Proof.Bits.R1.lean ====
import proofs.«136756_j77644418777510_1_alg».proof.Proof.Bits.Dats
import Idealize.ShloMosaic.Lib.Tactic
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

local notation "𝕄" => MT nD τ sig Unit (Elt F) ℕ (UR sig nD τ) ℕ

/-! ## The body on whole buffers -/

/-- The zero offsets of a whole-buffer access, as the constant function. -/
theorem off00_1 : (![0, 0] : Fin 2 → Nat) = fun _ => 0 := funext fun a => by fin_cases a <;> rfl

set_option maxHeartbeats 1000000 in
/-- The body on five whole staging memrefs: the feature buffer at `x0`, the three coefficient buffers at `x1`,
    `x2`, `x3`, the message buffer at anything. Four whole loads, a dead whole load of the message buffer and one
    whole store leave the inputs as they were and the message buffer at `out1_4 x0 x1 x2 x3`. -/
theorem sound_kernel1 (c : Dev nD) (E : Set ℕ) (i : grid1.Coords)
    (arg1 : Memref sig .tc .vmem S8192x128 .f32) (harg1 : arg1.IsWhole)
    (arg2 : Memref sig .tc .vmem S8192x1 .f32) (harg2 : arg2.IsWhole)
    (arg3 : Memref sig .tc .vmem S8192x1 .f32) (harg3 : arg3.IsWhole)
    (arg4 : Memref sig .tc .vmem S8192x1 .f32) (harg4 : arg4.IsWhole)
    (arg5 : Memref sig .tc .vmem S8192x128 .f32) (harg5 : arg5.IsWhole)
    (x0 : Vec F S8192x128 .f32) (x1 x2 x3 : Vec F S8192x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__message_kernel i arg1 harg1 arg2 harg2 arg3 harg3 arg4 harg4 arg5 harg5) K := by
  simp only [cc1__message_kernel_eq_skeleton]; unfold cc1__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the one store is through the whole buffer, so it covers every entry
  exact View.read_writes_eq_canon _ _ _ fun y =>
    ⟨_, List.mem_singleton_self _, View.mem_set_unit_zero off00_1 inb_S8192x128_S8192x128_0_0 y⟩

/-! ## The payload, entry by entry -/

/-- Entry `j` of the payload: the feature entry at `j` times the product of the three coefficients of `j`'s row
    (the casts are to the same shape; the broadcast of a one-column vector reads column 0 of the row). -/
theorem k1_pay1_apply (a b d : Vec F S8192x1 .f32) (h : Vec F S8192x128 .f32) (j : S8192x128.Idx) :
    k1_pay1 a b d h j
      = FloatOps.mulf (h j) (FloatOps.mulf (FloatOps.mulf (a (ValueIdx.ix2 (j 0 : Fin 8192) (0 : Fin 1))) (b (ValueIdx.ix2 (j 0 : Fin 8192) (0 : Fin 1))))
          (d (ValueIdx.ix2 (j 0 : Fin 8192) (0 : Fin 1)))) := by
  unfold k1_pay1
  simp only [shapeCast_self]
  show FloatOps.mulf (h j) (broadcastTo S8192x128 (mulf (mulf a b) d) broadcasts_S8192x1_S8192x128 j) = _
  exact congrArg (FloatOps.mulf (h j)) (broadcastTo_apply (mulf (mulf a b) d) broadcasts_S8192x1_S8192x128 j (ValueIdx.ix2 (j 0 : Fin 8192) (0 : Fin 1)) (by
    intro a
    match a with
    | ⟨0, _⟩ => rfl
    | ⟨1, _⟩ => rfl))

/-- The message buffer the body leaves, entry by entry: loads and the store are through whole buffers. -/
theorem out1_4_apply (h : Vec F S8192x128 .f32) (a b d : Vec F S8192x1 .f32) (j : S8192x128.Idx) :
    out1_4 h a b d j
      = FloatOps.mulf (h j) (FloatOps.mulf (FloatOps.mulf (a (ValueIdx.ix2 (j 0 : Fin 8192) (0 : Fin 1))) (b (ValueIdx.ix2 (j 0 : Fin 8192) (0 : Fin 1))))
          (d (ValueIdx.ix2 (j 0 : Fin 8192) (0 : Fin 1)))) := by
  unfold out1_4
  rw [View.canon_unit_zero off00_1, View.ld_unit_zero (S := S8192x1) off00_1, View.ld_unit_zero (S := S8192x1) off00_1,
    View.ld_unit_zero (S := S8192x1) off00_1, View.ld_unit_zero (S := S8192x128) off00_1, k1_pay1_apply]

/-! ## The five windows are cut alike -/

/-- Where the transfer moves an index, the filled block holds the fetched entry whatever the filler. -/
theorem fill_moved1 {G : Pipeline.Grid} (w : Window sig G) {α : Type} (i : G.Coords) (d e : w.block.Idx → α)
    (g : (w.xblock i).Idx → α) {j : w.block.Idx} (h : w.moved i j = true) : w.fill i d g j = w.fill i e g j := by
  unfold Window.fill; rw [dif_pos h, dif_pos h]

/-- At every grid point the feature window's transfer and the message window's move the same rows and columns, and
    each coefficient window's the same rows and its one column: the five index maps are the point itself on
    axis 0, so all five are cut at the same row (decided over the grid). -/
theorem xsizes1 : ∀ t : Fin grid1.N,
    (∀ a : Fin 2, win1_4.xsize (grid1.coords t) a = win1_0.xsize (grid1.coords t) a)
    ∧ (win1_4.xsize (grid1.coords t) 0 = win1_1.xsize (grid1.coords t) 0 ∧ win1_1.xsize (grid1.coords t) 1 = 1)
    ∧ (win1_4.xsize (grid1.coords t) 0 = win1_2.xsize (grid1.coords t) 0 ∧ win1_2.xsize (grid1.coords t) 1 = 1)
    ∧ (win1_4.xsize (grid1.coords t) 0 = win1_3.xsize (grid1.coords t) 0 ∧ win1_3.xsize (grid1.coords t) 1 = 1) := by
  decide +kernel

/-- An entry the message window's transfer moves is one the feature window's moves; -/
theorem moved1_0 (t : Fin cfg1.N) (j : (win1_4.xblock (grid1.coords t)).Idx) :
    win1_0.moved (grid1.coords t) (win1_4.xinj (grid1.coords t) j) = true :=
  (win1_0.moved_iff _ _).mpr fun a => by
    show (j a).val < win1_0.xsize (grid1.coords t) a
    rw [← (xsizes1 t).1 a]; exact (j a).isLt

/-- and its row's one entry of each coefficient column is one that column's transfer moves. -/
theorem moved1_1 (t : Fin cfg1.N) (j : (win1_4.xblock (grid1.coords t)).Idx) :
    win1_1.moved (grid1.coords t) (ValueIdx.ix2 ((win1_4.xinj (grid1.coords t) j) 0 : Fin 8192) (0 : Fin 1)) = true :=
  (win1_1.moved_iff _ _).mpr fun a => by
    match a with
    | ⟨0, _⟩ =>
      show (j 0).val < win1_1.xsize (grid1.coords t) 0
      rw [← (xsizes1 t).2.1.1]; exact (j 0).isLt
    | ⟨1, _⟩ =>
      show 0 < win1_1.xsize (grid1.coords t) 1
      rw [(xsizes1 t).2.1.2]; exact Nat.one_pos

theorem moved1_2 (t : Fin cfg1.N) (j : (win1_4.xblock (grid1.coords t)).Idx) :
    win1_2.moved (grid1.coords t) (ValueIdx.ix2 ((win1_4.xinj (grid1.coords t) j) 0 : Fin 8192) (0 : Fin 1)) = true :=
  (win1_2.moved_iff _ _).mpr fun a => by
    match a with
    | ⟨0, _⟩ =>
      show (j 0).val < win1_2.xsize (grid1.coords t) 0
      rw [← (xsizes1 t).2.2.1.1]; exact (j 0).isLt
    | ⟨1, _⟩ =>
      show 0 < win1_2.xsize (grid1.coords t) 1
      rw [(xsizes1 t).2.2.1.2]; exact Nat.one_pos

theorem moved1_3 (t : Fin cfg1.N) (j : (win1_4.xblock (grid1.coords t)).Idx) :
    win1_3.moved (grid1.coords t) (ValueIdx.ix2 ((win1_4.xinj (grid1.coords t) j) 0 : Fin 8192) (0 : Fin 1)) = true :=
  (win1_3.moved_iff _ _).mpr fun a => by
    match a with
    | ⟨0, _⟩ =>
      show (j 0).val < win1_3.xsize (grid1.coords t) 0
      rw [← (xsizes1 t).2.2.2.1]; exact (j 0).isLt
    | ⟨1, _⟩ =>
      show 0 < win1_3.xsize (grid1.coords t) 1
      rw [(xsizes1 t).2.2.2.2]; exact Nat.one_pos

/-- Row-locality of the body: on the entries the message window's write-back moves, the message buffer does not
    depend on what the four input buffers hold outside the rows their fetches filled. -/
theorem cut_out1_4 (t : Fin cfg1.N)
    (g0 : (win1_0.xblock (grid1.coords t)).Idx → Elt F .f32) (g1 : (win1_1.xblock (grid1.coords t)).Idx → Elt F .f32)
    (g2 : (win1_2.xblock (grid1.coords t)).Idx → Elt F .f32) (g3 : (win1_3.xblock (grid1.coords t)).Idx → Elt F .f32)
    (d0 e0 : S8192x128.Idx → Elt F .f32) (d1 e1 d2 e2 d3 e3 : S8192x1.Idx → Elt F .f32) :
    win1_4.cut (grid1.coords t) (out1_4 (win1_0.fill (grid1.coords t) d0 g0) (win1_1.fill (grid1.coords t) d1 g1)
        (win1_2.fill (grid1.coords t) d2 g2) (win1_3.fill (grid1.coords t) d3 g3))
      = win1_4.cut (grid1.coords t) (out1_4 (win1_0.fill (grid1.coords t) e0 g0) (win1_1.fill (grid1.coords t) e1 g1)
        (win1_2.fill (grid1.coords t) e2 g2) (win1_3.fill (grid1.coords t) e3 g3)) := by
  funext j
  show out1_4 _ _ _ _ (win1_4.xinj (grid1.coords t) j) = out1_4 _ _ _ _ (win1_4.xinj (grid1.coords t) j)
  rw [out1_4_apply, out1_4_apply,
    fill_moved1 win1_0 (grid1.coords t) d0 e0 g0 (moved1_0 t j), fill_moved1 win1_1 (grid1.coords t) d1 e1 g1 (moved1_1 t j),
    fill_moved1 win1_2 (grid1.coords t) d2 e2 g2 (moved1_2 t j), fill_moved1 win1_3 (grid1.coords t) d3 e3 g3 (moved1_3 t j)]

/-! ## What the body finds and what it leaves -/

/-- What the proof data names after the body, window by window. -/
theorem after1_0 (c : Dev nD) (t : Fin cfg1.N) : (dat1 V c).after 0 t = fblk1_0 V c t := by dsimp only [dat1]
theorem after1_1 (c : Dev nD) (t : Fin cfg1.N) : (dat1 V c).after 1 t = fblk1_1 V c t := by dsimp only [dat1]
theorem after1_2 (c : Dev nD) (t : Fin cfg1.N) : (dat1 V c).after 2 t = fblk1_2 V c t := by dsimp only [dat1]
theorem after1_3 (c : Dev nD) (t : Fin cfg1.N) : (dat1 V c).after 3 t = fblk1_3 V c t := by dsimp only [dat1]
theorem after1_4 (c : Dev nD) (t : Fin cfg1.N) :
    (dat1 V c).after 4 t = out1_4 (fblk1_0 V c t) (fblk1_1 V c t) (fblk1_2 V c t) (fblk1_3 V c t) := by
  dsimp only [dat1]

/-- Every input window is fetched at every point, so the body finds in its buffer the array's block on the rows
    inside the array and, on the rows past its end, contents `d` nothing names. -/
theorem before1_0 (c : Dev nD) (t : Fin cfg1.N) (d) :
    (dat1 V c).before 0 t d = win1_0.fill (grid1.coords t) d (iblk1 V c 0 t) := by
  unfold Dat.before; rw [if_pos (fetch1_0 t)]; rfl
theorem before1_1 (c : Dev nD) (t : Fin cfg1.N) (d) :
    (dat1 V c).before 1 t d = win1_1.fill (grid1.coords t) d (iblk1 V c 1 t) := by
  unfold Dat.before; rw [if_pos (fetch1_1 t)]; rfl
theorem before1_2 (c : Dev nD) (t : Fin cfg1.N) (d) :
    (dat1 V c).before 2 t d = win1_2.fill (grid1.coords t) d (iblk1 V c 2 t) := by
  unfold Dat.before; rw [if_pos (fetch1_2 t)]; rfl
theorem before1_3 (c : Dev nD) (t : Fin cfg1.N) (d) :
    (dat1 V c).before 3 t d = win1_3.fill (grid1.coords t) d (iblk1 V c 3 t) := by
  unfold Dat.before; rw [if_pos (fetch1_3 t)]; rfl

/-! ## The body obligation -/

/-- At every grid point: the four input buffers arrive holding their blocks filled out with unnamed rows, the
    message buffer holding anything; the body leaves the inputs as they were, which on the rows inside the array
    is the proof data's zero-filled block, and the message buffer at the row-wise scaled features, which on the
    rows the write-back moves does not depend on the fillers (`cut_out1_4`). Every window is loose, so that is
    all the obligation states. -/
theorem body_obligation1 (c : Dev nD) : BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  rw [before1_0 V c t d0, before1_1 V c t d1, before1_2 V c t d2, before1_3 V c t d3]
  iapply (sound_kernel1 (F := F) c Set.univ (grid1.coords t) (st1_0 t) (hstage1_0 ((cfg1.slots t 0).cast nbuf1_0))
      (st1_1 t) (hstage1_1 ((cfg1.slots t 1).cast nbuf1_1))
      (st1_2 t) (hstage1_2 ((cfg1.slots t 2).cast nbuf1_2))
      (st1_3 t) (hstage1_3 ((cfg1.slots t 3).cast nbuf1_3))
      (st1_4 t) (hstage1_4 ((cfg1.slots t 4).cast nbuf1_4))
      (win1_0.fill (grid1.coords t) d0 (iblk1 V c 0 t)) (win1_1.fill (grid1.coords t) d1 (iblk1 V c 1 t))
      (win1_2.fill (grid1.coords t) d2 (iblk1 V c 2 t)) (win1_3.fill (grid1.coords t) d3 (iblk1 V c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    change _ ⊢ owns (c : Thread nD τ) (st1_0 t) fullShare
      (win1_0.fill (grid1.coords t) d0 (win1_0.cut (grid1.coords t) (fblk1_0 V c t)))
    rw [show win1_0.cut (grid1.coords t) (fblk1_0 V c t) = iblk1 V c 0 t from win1_0.cut_fill _ _ _]
  isplitl [H1]
  · iexists d1
    change _ ⊢ owns (c : Thread nD τ) (st1_1 t) fullShare
      (win1_1.fill (grid1.coords t) d1 (win1_1.cut (grid1.coords t) (fblk1_1 V c t)))
    rw [show win1_1.cut (grid1.coords t) (fblk1_1 V c t) = iblk1 V c 1 t from win1_1.cut_fill _ _ _]
  isplitl [H2]
  · iexists d2
    change _ ⊢ owns (c : Thread nD τ) (st1_2 t) fullShare
      (win1_2.fill (grid1.coords t) d2 (win1_2.cut (grid1.coords t) (fblk1_2 V c t)))
    rw [show win1_2.cut (grid1.coords t) (fblk1_2 V c t) = iblk1 V c 2 t from win1_2.cut_fill _ _ _]
  isplitl [H3]
  · iexists d3
    change _ ⊢ owns (c : Thread nD τ) (st1_3 t) fullShare
      (win1_3.fill (grid1.coords t) d3 (win1_3.cut (grid1.coords t) (fblk1_3 V c t)))
    rw [show win1_3.cut (grid1.coords t) (fblk1_3 V c t) = iblk1 V c 3 t from win1_3.cut_fill _ _ _]
  · iexists out1_4 (win1_0.fill (grid1.coords t) d0 (iblk1 V c 0 t)) (win1_1.fill (grid1.coords t) d1 (iblk1 V c 1 t))
      (win1_2.fill (grid1.coords t) d2 (iblk1 V c 2 t)) (win1_3.fill (grid1.coords t) d3 (iblk1 V c 3 t))
    change _ ⊢ owns (c : Thread nD τ) (st1_4 t) fullShare
      (win1_4.fill (grid1.coords t) (out1_4 (win1_0.fill (grid1.coords t) d0 (iblk1 V c 0 t)) (win1_1.fill (grid1.coords t) d1 (iblk1 V c 1 t))
      (win1_2.fill (grid1.coords t) d2 (iblk1 V c 2 t)) (win1_3.fill (grid1.coords t) d3 (iblk1 V c 3 t)))
        (win1_4.cut (grid1.coords t) (out1_4 (fblk1_0 V c t) (fblk1_1 V c t) (fblk1_2 V c t) (fblk1_3 V c t))))
    unfold fblk1_0 fblk1_1 fblk1_2 fblk1_3
    rw [win1_4.fill_congr_cut (grid1.coords t) (cut_out1_4 t (iblk1 V c 0 t) (iblk1 V c 1 t) (iblk1 V c 2 t) (iblk1 V c 3 t)
      d0 _ d1 _ d2 _ d3 _)]

end Cert.Kernel.Hand

end
-- ==== Proof.Bits.R2.lean ====
import proofs.«136756_j77644418777510_1_alg».proof.Proof.Bits.Dats
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

local notation "𝕄" => MT nD τ sig Unit (Elt F) ℕ (UR sig nD τ) ℕ

/-! ## The second dense product at one grid point

At point `t` the left operand's buffer holds rows `5000 t … 5000 t + 4999` of the 128-column hidden
features and the right operand's buffer the whole 128 × 64 weight matrix. The body reads both, reads (and
drops) the result buffer, and writes the 5000 × 64 product over the whole result buffer. -/

/-- The data's arrays are the contents the region is entered from. -/
theorem arr2 (c : Dev nD) (w : Fin cfg2.W) : (dat2 V c).A w = V c (Pipeline.arrRef spec2 w) := by
  dsimp only [dat2]

/-- After the body the feature buffer still holds its row block, -/
theorem left2_x (c : Dev nD) (t : Fin cfg2.N) : (dat2 V c).after 0 t = iblk2 V c 0 t := by dsimp only [dat2]
/-- the weight buffer still holds the weight matrix, -/
theorem left2_w (c : Dev nD) (t : Fin cfg2.N) : (dat2 V c).after 1 t = iblk2 V c 1 t := by dsimp only [dat2]
/-- and the result buffer holds the 64-column product of the two. -/
theorem left2_o (c : Dev nD) (t : Fin cfg2.N) :
    (dat2 V c).after 2 t = out2_2 (iblk2 V c 0 t) (iblk2 V c 1 t) := by dsimp only [dat2]

/-- The feature rows of point `t` are in their buffer when the body starts: the block index moves at
    every point, the body does not write the buffer, and the 20 blocks of 5000 rows tile the 100000 rows,
    so a fetch brings in exactly the block. -/
theorem found2_x (c : Dev nD) (t : Fin cfg2.N) (d) : (dat2 V c).before 0 t d = iblk2 V c 0 t := by
  have hkeep : ∀ s, (cfg2.win 0).cut (cfg2.grid.coords s) ((dat2 V c).after 0 s) = (dat2 V c).blockOf 0 s := by
    intro s; rw [left2_x]; unfold Dat.blockOf iblk2; rw [arr2]
  rw [(dat2 V c).before_in_eq_fetched 0 rfl (fun _ => rfl) (fun _ _ _ => rfl) hkeep t d]
  unfold Dat.fetched Dat.blockOf iblk2; rw [arr2]; rfl

/-- The weight matrix is in its buffer when the body starts, at the first point because it is fetched
    there, at every later point because its block index is the same at all points and the body leaves the
    buffer as it found it. -/
theorem found2_w (c : Dev nD) (t : Fin cfg2.N) (d) : (dat2 V c).before 1 t d = iblk2 V c 1 t := by
  have hkeep : ∀ s, (cfg2.win 1).cut (cfg2.grid.coords s) ((dat2 V c).after 1 s) = (dat2 V c).blockOf 1 s := by
    intro s; rw [left2_w]; unfold Dat.blockOf iblk2; rw [arr2]
  rw [(dat2 V c).before_in_eq_fetched 1 rfl (fun _ => rfl) (fun _ _ _ => rfl) hkeep t d]
  unfold Dat.fetched Dat.blockOf iblk2; rw [arr2]; rfl

/-- The one store writes the rectangle of all 5000 × 64 positions, so every position of the result
    buffer lies in it. -/
theorem whole2 (p : Vec F S5000x64 .f32) (y : S5000x64.Idx) :
    ∃ pc ∈ ([⟨r2_o, p⟩] : List (View.Piece (Elt F) S5000x64 .f32)), y ∈ pc.1.set :=
  View.cover_of_tiled [⟨r2_o, p⟩] S5000x64.size (by rfl) y

set_option maxHeartbeats 1000000 in
/-- The body on any three whole buffers. Given the feature buffer reading `x0`, the weight buffer reading
    `x1` and the result buffer at anything, it runs to a state where the two operand buffers read what
    they did and the result buffer reads `out2_2 x0 x1`: the two loads return `x0` and `x1` through the
    full rectangles, the third load's value is unused, and the store of the product overwrites every
    position of the result buffer (`whole2`), so nothing of its earlier contents is left. -/
theorem product2_triple (c : Dev nD) (E : Set ℕ) (i : grid2.Coords)
    (bx : Memref sig .tc .vmem S5000x128 .f32) (hbx : bx.IsWhole)
    (bw : Memref sig .tc .vmem S128x64 .f32) (hbw : bw.IsWhole)
    (bo : Memref sig .tc .vmem S5000x64 .f32) (hbo : bo.IsWhole)
    (x0 : Vec F S5000x128 .f32) (x1 : Vec F S128x64 .f32) (K : PUnit → sProp 𝕄) :
    iprop(owns (c : Thread nD τ) bx fullShare x0 ∗ owns (c : Thread nD τ) bw fullShare x1
        ∗ (∃ d, owns (c : Thread nD τ) bo fullShare d)
        ∗ (iprop(owns (c : Thread nD τ) bx fullShare x0 ∗ owns (c : Thread nD τ) bw fullShare x1
            ∗ owns (c : Thread nD τ) bo fullShare (out2_2 x0 x1)) -∗ K ⟨⟩))
      ⊢ wp frame (wpE (defs₀ (F := F)) Variants.none c none) E (cc2__matmul_kernel i bx hbx bw hbw bo hbo) K := by
  simp only [cc2__matmul_kernel_eq_skeleton]; unfold cc2__matmul_kernel_skel
  unfold owns
  iintro ⟨⟨%fx, %hfx, Hx⟩, ⟨%fw, %hfw, Hw⟩, ⟨%d, %fo, -, Ho⟩, Hk⟩
  subst hfx; subst hfw
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Ho
  ipureintro
  exact View.read_writes_eq_canon _ _ _ (whole2 _)

/-- At every grid point the three current buffers are whole, the operand buffers hold their blocks
    (`found2_x`, `found2_w`), and the invariant and the core's debt are the same before and after the
    point, so `product2_triple` at the two blocks gives what the data says the body leaves. -/
theorem body_obligation2 (c : Dev nD) : BodyObligation (dat2 (F := F) V c) (defs₀ (F := F)) Variants.none () Set.univ := by
  intro t
  rw [bigSep_W2, bigSep_W2]
  simp only [found2_x, found2_w]
  rw [show (dat2 V c).Φ t.succ = (dat2 V c).Φ t.castSucc from rfl,
    show (dat2 V c).owesAt () t.succ = (dat2 V c).owesAt () t.castSucc from rfl,
    left2_x, left2_w, left2_o]
  show _ ⊢ wp frame _ Set.univ (bodyAt2 t) _
  unfold bodyAt2
  iintro ⟨HΦ, Hd, ⟨%d0, Hx⟩, ⟨%d1, Hw⟩, ⟨%d2, Ho⟩⟩
  iapply (product2_triple c Set.univ _ _ _ _ _ _ _ (iblk2 V c 0 t) (iblk2 V c 1 t) _)
  isplitl [Hx]; · iexact Hx
  isplitl [Hw]; · iexact Hw
  isplitl [Ho]; · iexists _; iexact Ho
  iintro ⟨Hx, Hw, Ho⟩
  isplitl [HΦ]; · iexact HΦ
  isplitl [Hd]; · iexact Hd
  isplitl [Hx]; · iexact Hx
  isplitl [Hw]; · iexact Hw
  iexact Ho

end Cert.Kernel.Hand

end
-- ==== Proof.Bits.R3.lean ====
import proofs.«136756_j77644418777510_1_alg».proof.Proof.Bits.Dats
import Idealize.ShloMosaic.Lib.Tactic
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

local notation "𝕄" => MT nD τ sig Unit (Elt F) ℕ (UR sig nD τ) ℕ

/-! ## The body on whole buffers -/

/-- The zero offsets of a whole-buffer access, as the constant function. -/
theorem off00_3 : (![0, 0] : Fin 2 → Nat) = fun _ => 0 := funext fun a => by fin_cases a <;> rfl

set_option maxHeartbeats 1000000 in
/-- The body on five whole staging memrefs: the feature buffer at `x0`, the three coefficient buffers at `x1`,
    `x2`, `x3`, the message buffer at anything. Four whole loads, a dead whole load of the message buffer and one
    whole store leave the inputs as they were and the message buffer at `out3_4 x0 x1 x2 x3`. -/
theorem sound_kernel3 (c : Dev nD) (E : Set ℕ) (i : grid3.Coords)
    (arg1 : Memref sig .tc .vmem S8192x64 .f32) (harg1 : arg1.IsWhole)
    (arg2 : Memref sig .tc .vmem S8192x1 .f32) (harg2 : arg2.IsWhole)
    (arg3 : Memref sig .tc .vmem S8192x1 .f32) (harg3 : arg3.IsWhole)
    (arg4 : Memref sig .tc .vmem S8192x1 .f32) (harg4 : arg4.IsWhole)
    (arg5 : Memref sig .tc .vmem S8192x64 .f32) (harg5 : arg5.IsWhole)
    (x0 : Vec F S8192x64 .f32) (x1 x2 x3 : Vec F S8192x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out3_4 x0 x1 x2 x3)) -∗ K ⟨⟩))
      ⊢ wp frame (wpE (defs₀ (F := F)) Variants.none c none) E
          (cc3__message_kernel i arg1 harg1 arg2 harg2 arg3 harg3 arg4 harg4 arg5 harg5) K := by
  simp only [cc3__message_kernel_eq_skeleton]; unfold cc3__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the one store is through the whole buffer, so it covers every entry
  exact View.read_writes_eq_canon _ _ _ fun y =>
    ⟨_, List.mem_singleton_self _, View.mem_set_unit_zero off00_3 inb_S8192x64_S8192x64_0_0 y⟩

/-! ## The payload, entry by entry -/

/-- Entry `j` of the payload: the feature entry at `j` times the product of the three coefficients of `j`'s row
    (the casts are to the same shape; the broadcast of a one-column vector reads column 0 of the row). -/
theorem k3_pay1_apply (a b d : Vec F S8192x1 .f32) (h : Vec F S8192x64 .f32) (j : S8192x64.Idx) :
    k3_pay1 a b d h j
      = FloatOps.mulf (h j) (FloatOps.mulf (FloatOps.mulf (a (ValueIdx.ix2 (j 0 : Fin 8192) (0 : Fin 1))) (b (ValueIdx.ix2 (j 0 : Fin 8192) (0 : Fin 1))))
          (d (ValueIdx.ix2 (j 0 : Fin 8192) (0 : Fin 1)))) := by
  unfold k3_pay1
  simp only [shapeCast_self]
  show FloatOps.mulf (h j) (broadcastTo S8192x64 (mulf (mulf a b) d) broadcasts_S8192x1_S8192x64 j) = _
  exact congrArg (FloatOps.mulf (h j)) (broadcastTo_apply (mulf (mulf a b) d) broadcasts_S8192x1_S8192x64 j (ValueIdx.ix2 (j 0 : Fin 8192) (0 : Fin 1)) (by
    intro a
    match a with
    | ⟨0, _⟩ => rfl
    | ⟨1, _⟩ => rfl))

/-- The message buffer the body leaves, entry by entry: loads and the store are through whole buffers. -/
theorem out3_4_apply (h : Vec F S8192x64 .f32) (a b d : Vec F S8192x1 .f32) (j : S8192x64.Idx) :
    out3_4 h a b d j
      = FloatOps.mulf (h j) (FloatOps.mulf (FloatOps.mulf (a (ValueIdx.ix2 (j 0 : Fin 8192) (0 : Fin 1))) (b (ValueIdx.ix2 (j 0 : Fin 8192) (0 : Fin 1))))
          (d (ValueIdx.ix2 (j 0 : Fin 8192) (0 : Fin 1)))) := by
  unfold out3_4
  rw [View.canon_unit_zero off00_3, View.ld_unit_zero (S := S8192x1) off00_3, View.ld_unit_zero (S := S8192x1) off00_3,
    View.ld_unit_zero (S := S8192x1) off00_3, View.ld_unit_zero (S := S8192x64) off00_3, k3_pay1_apply]

/-! ## The five windows are cut alike -/

/-- Where the transfer moves an index, the filled block holds the fetched entry whatever the filler. -/
theorem fill_moved3 {G : Pipeline.Grid} (w : Window sig G) {α : Type} (i : G.Coords) (d e : w.block.Idx → α)
    (g : (w.xblock i).Idx → α) {j : w.block.Idx} (h : w.moved i j = true) : w.fill i d g j = w.fill i e g j := by
  unfold Window.fill; rw [dif_pos h, dif_pos h]

/-- At every grid point the feature window's transfer and the message window's move the same rows and columns, and
    each coefficient window's the same rows and its one column: the five index maps are the point itself on
    axis 0, so all five are cut at the same row (decided over the grid). -/
theorem xsizes3 : ∀ t : Fin grid3.N,
    (∀ a : Fin 2, win3_4.xsize (grid3.coords t) a = win3_0.xsize (grid3.coords t) a)
    ∧ (win3_4.xsize (grid3.coords t) 0 = win3_1.xsize (grid3.coords t) 0 ∧ win3_1.xsize (grid3.coords t) 1 = 1)
    ∧ (win3_4.xsize (grid3.coords t) 0 = win3_2.xsize (grid3.coords t) 0 ∧ win3_2.xsize (grid3.coords t) 1 = 1)
    ∧ (win3_4.xsize (grid3.coords t) 0 = win3_3.xsize (grid3.coords t) 0 ∧ win3_3.xsize (grid3.coords t) 1 = 1) := by
  decide +kernel

/-- An entry the message window's transfer moves is one the feature window's moves; -/
theorem moved3_0 (t : Fin cfg3.N) (j : (win3_4.xblock (grid3.coords t)).Idx) :
    win3_0.moved (grid3.coords t) (win3_4.xinj (grid3.coords t) j) = true :=
  (win3_0.moved_iff _ _).mpr fun a => by
    show (j a).val < win3_0.xsize (grid3.coords t) a
    rw [← (xsizes3 t).1 a]; exact (j a).isLt

/-- and its row's one entry of each coefficient column is one that column's transfer moves. -/
theorem moved3_1 (t : Fin cfg3.N) (j : (win3_4.xblock (grid3.coords t)).Idx) :
    win3_1.moved (grid3.coords t) (ValueIdx.ix2 ((win3_4.xinj (grid3.coords t) j) 0 : Fin 8192) (0 : Fin 1)) = true :=
  (win3_1.moved_iff _ _).mpr fun a => by
    match a with
    | ⟨0, _⟩ =>
      show (j 0).val < win3_1.xsize (grid3.coords t) 0
      rw [← (xsizes3 t).2.1.1]; exact (j 0).isLt
    | ⟨1, _⟩ =>
      show 0 < win3_1.xsize (grid3.coords t) 1
      rw [(xsizes3 t).2.1.2]; exact Nat.one_pos

theorem moved3_2 (t : Fin cfg3.N) (j : (win3_4.xblock (grid3.coords t)).Idx) :
    win3_2.moved (grid3.coords t) (ValueIdx.ix2 ((win3_4.xinj (grid3.coords t) j) 0 : Fin 8192) (0 : Fin 1)) = true :=
  (win3_2.moved_iff _ _).mpr fun a => by
    match a with
    | ⟨0, _⟩ =>
      show (j 0).val < win3_2.xsize (grid3.coords t) 0
      rw [← (xsizes3 t).2.2.1.1]; exact (j 0).isLt
    | ⟨1, _⟩ =>
      show 0 < win3_2.xsize (grid3.coords t) 1
      rw [(xsizes3 t).2.2.1.2]; exact Nat.one_pos

theorem moved3_3 (t : Fin cfg3.N) (j : (win3_4.xblock (grid3.coords t)).Idx) :
    win3_3.moved (grid3.coords t) (ValueIdx.ix2 ((win3_4.xinj (grid3.coords t) j) 0 : Fin 8192) (0 : Fin 1)) = true :=
  (win3_3.moved_iff _ _).mpr fun a => by
    match a with
    | ⟨0, _⟩ =>
      show (j 0).val < win3_3.xsize (grid3.coords t) 0
      rw [← (xsizes3 t).2.2.2.1]; exact (j 0).isLt
    | ⟨1, _⟩ =>
      show 0 < win3_3.xsize (grid3.coords t) 1
      rw [(xsizes3 t).2.2.2.2]; exact Nat.one_pos

/-- Row-locality of the body: on the entries the message window's write-back moves, the message buffer does not
    depend on what the four input buffers hold outside the rows their fetches filled. -/
theorem cut_out3_4 (t : Fin cfg3.N)
    (g0 : (win3_0.xblock (grid3.coords t)).Idx → Elt F .f32) (g1 : (win3_1.xblock (grid3.coords t)).Idx → Elt F .f32)
    (g2 : (win3_2.xblock (grid3.coords t)).Idx → Elt F .f32) (g3 : (win3_3.xblock (grid3.coords t)).Idx → Elt F .f32)
    (d0 e0 : S8192x64.Idx → Elt F .f32) (d1 e1 d2 e2 d3 e3 : S8192x1.Idx → Elt F .f32) :
    win3_4.cut (grid3.coords t) (out3_4 (win3_0.fill (grid3.coords t) d0 g0) (win3_1.fill (grid3.coords t) d1 g1)
        (win3_2.fill (grid3.coords t) d2 g2) (win3_3.fill (grid3.coords t) d3 g3))
      = win3_4.cut (grid3.coords t) (out3_4 (win3_0.fill (grid3.coords t) e0 g0) (win3_1.fill (grid3.coords t) e1 g1)
        (win3_2.fill (grid3.coords t) e2 g2) (win3_3.fill (grid3.coords t) e3 g3)) := by
  funext j
  show out3_4 _ _ _ _ (win3_4.xinj (grid3.coords t) j) = out3_4 _ _ _ _ (win3_4.xinj (grid3.coords t) j)
  rw [out3_4_apply, out3_4_apply,
    fill_moved3 win3_0 (grid3.coords t) d0 e0 g0 (moved3_0 t j), fill_moved3 win3_1 (grid3.coords t) d1 e1 g1 (moved3_1 t j),
    fill_moved3 win3_2 (grid3.coords t) d2 e2 g2 (moved3_2 t j), fill_moved3 win3_3 (grid3.coords t) d3 e3 g3 (moved3_3 t j)]

/-! ## What the body finds and what it leaves -/

/-- What the proof data names after the body, window by window. -/
theorem after3_0 (c : Dev nD) (t : Fin cfg3.N) : (dat3 V c).after 0 t = fblk3_0 V c t := by dsimp only [dat3]
theorem after3_1 (c : Dev nD) (t : Fin cfg3.N) : (dat3 V c).after 1 t = fblk3_1 V c t := by dsimp only [dat3]
theorem after3_2 (c : Dev nD) (t : Fin cfg3.N) : (dat3 V c).after 2 t = fblk3_2 V c t := by dsimp only [dat3]
theorem after3_3 (c : Dev nD) (t : Fin cfg3.N) : (dat3 V c).after 3 t = fblk3_3 V c t := by dsimp only [dat3]
theorem after3_4 (c : Dev nD) (t : Fin cfg3.N) :
    (dat3 V c).after 4 t = out3_4 (fblk3_0 V c t) (fblk3_1 V c t) (fblk3_2 V c t) (fblk3_3 V c t) := by
  dsimp only [dat3]

/-- Every input window is fetched at every point, so the body finds in its buffer the array's block on the rows
    inside the array and, on the rows past its end, contents `d` nothing names. -/
theorem before3_0 (c : Dev nD) (t : Fin cfg3.N) (d) :
    (dat3 V c).before 0 t d = win3_0.fill (grid3.coords t) d (iblk3 V c 0 t) := by
  unfold Dat.before; rw [if_pos (fetch3_0 t)]; rfl
theorem before3_1 (c : Dev nD) (t : Fin cfg3.N) (d) :
    (dat3 V c).before 1 t d = win3_1.fill (grid3.coords t) d (iblk3 V c 1 t) := by
  unfold Dat.before; rw [if_pos (fetch3_1 t)]; rfl
theorem before3_2 (c : Dev nD) (t : Fin cfg3.N) (d) :
    (dat3 V c).before 2 t d = win3_2.fill (grid3.coords t) d (iblk3 V c 2 t) := by
  unfold Dat.before; rw [if_pos (fetch3_2 t)]; rfl
theorem before3_3 (c : Dev nD) (t : Fin cfg3.N) (d) :
    (dat3 V c).before 3 t d = win3_3.fill (grid3.coords t) d (iblk3 V c 3 t) := by
  unfold Dat.before; rw [if_pos (fetch3_3 t)]; rfl

/-! ## The body obligation -/

/-- At every grid point: the four input buffers arrive holding their blocks filled out with unnamed rows, the
    message buffer holding anything; the body leaves the inputs as they were, which on the rows inside the array
    is the proof data's zero-filled block, and the message buffer at the row-wise scaled features, which on the
    rows the write-back moves does not depend on the fillers (`cut_out3_4`). Every window is loose, so that is
    all the obligation states. -/
theorem body_obligation3 (c : Dev nD) : BodyObligationLoose (dat3 (F := F) V c) (defs₀ (F := F)) Variants.none () Set.univ := fun t => by
  rw [bigSep_W3, bigSep_W3]
  simp only
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  rw [before3_0 V c t d0, before3_1 V c t d1, before3_2 V c t d2, before3_3 V c t d3]
  iapply (sound_kernel3 (F := F) c Set.univ (grid3.coords t) (st3_0 t) (hstage3_0 ((cfg3.slots t 0).cast nbuf3_0))
      (st3_1 t) (hstage3_1 ((cfg3.slots t 1).cast nbuf3_1))
      (st3_2 t) (hstage3_2 ((cfg3.slots t 2).cast nbuf3_2))
      (st3_3 t) (hstage3_3 ((cfg3.slots t 3).cast nbuf3_3))
      (st3_4 t) (hstage3_4 ((cfg3.slots t 4).cast nbuf3_4))
      (win3_0.fill (grid3.coords t) d0 (iblk3 V c 0 t)) (win3_1.fill (grid3.coords t) d1 (iblk3 V c 1 t))
      (win3_2.fill (grid3.coords t) d2 (iblk3 V c 2 t)) (win3_3.fill (grid3.coords t) d3 (iblk3 V c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    change _ ⊢ owns (c : Thread nD τ) (st3_0 t) fullShare
      (win3_0.fill (grid3.coords t) d0 (win3_0.cut (grid3.coords t) (fblk3_0 V c t)))
    rw [show win3_0.cut (grid3.coords t) (fblk3_0 V c t) = iblk3 V c 0 t from win3_0.cut_fill _ _ _]
  isplitl [H1]
  · iexists d1
    change _ ⊢ owns (c : Thread nD τ) (st3_1 t) fullShare
      (win3_1.fill (grid3.coords t) d1 (win3_1.cut (grid3.coords t) (fblk3_1 V c t)))
    rw [show win3_1.cut (grid3.coords t) (fblk3_1 V c t) = iblk3 V c 1 t from win3_1.cut_fill _ _ _]
  isplitl [H2]
  · iexists d2
    change _ ⊢ owns (c : Thread nD τ) (st3_2 t) fullShare
      (win3_2.fill (grid3.coords t) d2 (win3_2.cut (grid3.coords t) (fblk3_2 V c t)))
    rw [show win3_2.cut (grid3.coords t) (fblk3_2 V c t) = iblk3 V c 2 t from win3_2.cut_fill _ _ _]
  isplitl [H3]
  · iexists d3
    change _ ⊢ owns (c : Thread nD τ) (st3_3 t) fullShare
      (win3_3.fill (grid3.coords t) d3 (win3_3.cut (grid3.coords t) (fblk3_3 V c t)))
    rw [show win3_3.cut (grid3.coords t) (fblk3_3 V c t) = iblk3 V c 3 t from win3_3.cut_fill _ _ _]
  · iexists out3_4 (win3_0.fill (grid3.coords t) d0 (iblk3 V c 0 t)) (win3_1.fill (grid3.coords t) d1 (iblk3 V c 1 t))
      (win3_2.fill (grid3.coords t) d2 (iblk3 V c 2 t)) (win3_3.fill (grid3.coords t) d3 (iblk3 V c 3 t))
    change _ ⊢ owns (c : Thread nD τ) (st3_4 t) fullShare
      (win3_4.fill (grid3.coords t) (out3_4 (win3_0.fill (grid3.coords t) d0 (iblk3 V c 0 t)) (win3_1.fill (grid3.coords t) d1 (iblk3 V c 1 t))
      (win3_2.fill (grid3.coords t) d2 (iblk3 V c 2 t)) (win3_3.fill (grid3.coords t) d3 (iblk3 V c 3 t)))
        (win3_4.cut (grid3.coords t) (out3_4 (fblk3_0 V c t) (fblk3_1 V c t) (fblk3_2 V c t) (fblk3_3 V c t))))
    unfold fblk3_0 fblk3_1 fblk3_2 fblk3_3
    rw [win3_4.fill_congr_cut (grid3.coords t) (cut_out3_4 t (iblk3 V c 0 t) (iblk3 V c 1 t) (iblk3 V c 2 t) (iblk3 V c 3 t)
      d0 _ d1 _ d2 _ d3 _)]

end Cert.Kernel.Hand

end
-- ==== Proof.Bits.Segs.lean ====
/-
  The four kernel regions as segments of the program, and the program's run.

  Between two items of the program a core holds every unscoped buffer at a named valuation, beside its generator
  register at some state and its debts, none. A kernel region takes its windows' arrays out of those buffers, runs its
  pipeline over them, and puts them back: the operand arrays as it found them, the result array at what the
  write-backs leave. The valuation after the region is the one before it updated at the result buffer alone, so the
  buffers outside the pipeline keep their place and the operand arrays, never written, do too.
-/
import proofs.«136756_j77644418777510_1_alg».proof.Proof.Bits.Data
import proofs.«136756_j77644418777510_1_alg».proof.Proof.Bits.R0
import proofs.«136756_j77644418777510_1_alg».proof.Proof.Bits.R1
import proofs.«136756_j77644418777510_1_alg».proof.Proof.Bits.R2
import proofs.«136756_j77644418777510_1_alg».proof.Proof.Bits.R3
import proofs.«136756_j77644418777510_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev Rst (c : Dev nD) : sProp 𝕄 := iprop((∃ r, prngReg c r) ∗ ∃ W, owes (c : Thread nD τ) (0 : CellTallies nD τ sig Unit) W)

/-! ## A kernel region between two valuations

The four regions are of one kind: no prefetched table, no semaphore of the kernel's own, nothing owed at the pipeline's
cells, no bound kept on the recorded waits, every array held whole, the class invariant (the scoped buffers no window stages, beside the generator
register). What tells them apart is the pipeline, the valuation `Vin` the region is entered from and the valuation
`Vout` it leaves, of which three facts are wanted: the proof data's arrays are read off `Vin`; after the last
write-back every array holds what `Vout` names; off the arrays `Vout` is `Vin`. -/

section Between

variable (pd : (p : Fin 4) → (c : Dev nD) → Dat τ (Elt F) Unit ℕ (UR sig nD τ) ℕ (cfgs p) c) (p : Fin 4)
  (lf : Pipeline.LaunchFacts (nD := nD) (τ := τ) cfgs p)
  (hbody : ∀ c, BodyObligationLoose (pd p c) (defs₀ (F := F)) Variants.none () Set.univ)
  (hq : ∀ c w, (pd p c).q w = fullShare) (howed : ∀ c t, (pd p c).owed t = 0)
  (hrec : ∀ c, (pd p c).recorded 0 = Set.univ)
  (hΦ : ∀ c t, (pd p c).Φ t = Pipeline.ΦA (cfgs p).spec c)
  (Vin Vout : Dev nD → Valuation τ sig (Elt F))
  (hA : ∀ c w, (pd p c).A w = atTc Vin c (Pipeline.arrRef (cfgs p).spec w))
  (hF : ∀ c w, (pd p c).arrAt w (cfgs p).N = atTc Vout c (Pipeline.arrRef (cfgs p).spec w))
  (hoff : ∀ c b, b ∉ Finset.univ.image (Pipeline.arrRef (cfgs p).spec) → atTc Vout c b = atTc Vin c b)

set_option backward.isDefEq.respectTransparency.types false in
/-- The region of pipeline `p` as a segment: entered from every unscoped buffer at `Vin c` beside `Rst c`, left at
    `Vout c` beside `Rst c`. At entry the windows' arrays are taken out of the unscoped buffers, the others bypass
    the region, and the generator register goes into the pipeline's invariant; at exit the register comes back and the
    arrays, at what the write-backs left, rejoin the bypassing buffers: together they are the unscoped buffers at
    `Vout c`. -/
def between : Pipeline.RegionSeg (pcfgs (F := F)) adm pd () defs₀ Variants.none L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Vin c) ∗ Rst c)
  post c := iprop(StableHlo.held (c : Thread nD τ) (Pipeline.ucRefs τ sig) (Vout c) ∗ Rst c)
  X c := iprop(∃ r, prngReg c r)
  Y c := iprop(∃ r, prngReg c r)
  Z c := Pipeline.unscopedRest (Ix := Unit) (Name := ℕ) (U := UR sig nD τ) (Lvl := ℕ) (cfgs p).spec c (atTc Vin c)
  hentry c := by
    rw [Pipeline.ownSems0_none]
    have htake := Pipeline.arrays_of_unscopedBufs (p := p) (pcfgs (F := F)) adm pd lf.win lf.arr_whole c
      ((pd p c).share_full (hq c)) (atTc Vin c) (hA c)
    rw [Pipeline.unscopedBufs_held] at htake
    iintro ⟨⟨Hbufs, Hreg, Hdebt⟩, -, -⟩
    ihave Hsplit := htake $$ Hbufs
    icases Hsplit with ⟨Harr, Hby⟩
    imodintro
    isplitl [Harr]; · iexact Harr
    isplitr
    · unfold Pipeline.prefHeld; rw [show (Finset.univ : Finset (Fin 0)) = ∅ from rfl, BI.bigSep_empty]; iempintro
    isplitl [Hdebt]
    · unfold Pipeline.Dat.owesAt Pipeline.owesWithin
      rw [howed c]
      icases Hdebt with ⟨%W, Hdebt⟩
      iexists W
      isplitr; · ipureintro; exact fun x _ => Or.inl (by rw [hrec c]; exact Set.mem_univ x)
      iexact Hdebt
    isplitl [Hreg]; · iexact Hreg
    iexact Hby
  hin c := by
    rw [hΦ c 0]; unfold Pipeline.ΦA
    iintro ⟨Hreg, -, Hscoped⟩
    isplitl [Hscoped]; · iexact Hscoped
    iexact Hreg
  hout c := by
    rw [Pipeline.ownSems0_none, hΦ c (Fin.last _)]; unfold Pipeline.ΦA
    iintro ⟨Hscoped, Hreg⟩
    isplitl [Hreg]; · iexact Hreg
    isplitr; · iempintro
    iexact Hscoped
  hexit c := by
    have hback := Pipeline.unscopedBufs_of_arrays (p := p) (pcfgs (F := F)) adm (Ix := Unit) (Name := ℕ) (U := UR sig nD τ) (Lvl := ℕ)
      lf.win lf.arr_whole c pd ((pd p c).share_full (hq c))
      (atTc Vin c) (atTc Vout c) ((pd p c).arrAt · (cfgs p).N) (hF c) (hoff c)
    rw [Pipeline.unscopedBufs_held] at hback
    iintro ⟨Harr, Hdebt, Hreg, Hby⟩
    imodintro
    isplitl [Harr Hby]
    · iapply hback; isplitl [Harr] <;> iassumption
    isplitl [Hreg]; · iexact Hreg
    unfold Pipeline.Dat.owesAt Pipeline.owesWithin
    rw [howed c]
    icases Hdebt with ⟨%W, -, Hdebt⟩
    iexists W; iexact Hdebt

end Between

/-! ## Region 0: the first dense product, from `V5` to `V6` -/

/-- At region 0's exit every array of its pipeline holds what `V6` names there. The two operand arrays are never
    written back, so they hold what `V5` gave them, and `V6` is `V5` off the result buffer. The result array holds
    the fold of the twenty write-backs, which is the contents `outs` records for it. -/
theorem exit0_arr (outs : Outs (F := F)) (hO : OutsOk m outs) (c : Dev nD) (w : Fin cfg0.W) :
    (pdats m outs 0 c).arrAt w cfg0.N = atTc (V6 m outs) c (Pipeline.arrRef spec0 w) :=
  match w with
  | ⟨0, _⟩ => ((pdats m outs 0 c).arrAt_in 0 rfl _).trans (V6_of m outs c main_arg0 (by decide)).symm
  | ⟨1, _⟩ => ((pdats m outs 0 c).arrAt_in 1 rfl _).trans (V6_of m outs c main_arg3 (by decide)).symm
  | ⟨2, _⟩ => by
    show _ = Function.update (V5 m c) main_v33 (outs 6 main_v33 c) main_v33
    rw [Function.update_self]; exact (hO.o6 c).symm

/-- Off the pipeline's arrays `V6` is `V5`: the one buffer where they differ is the result array. -/
theorem exit0_off (outs : Outs (F := F)) (c : Dev nD) (b : Ref sig .tc) (hb : b ∉ Finset.univ.image (Pipeline.arrRef spec0)) :
    atTc (V6 m outs) c b = atTc (V5 m) c b :=
  V6_of m outs c b fun hmem => hb (by
    rw [List.mem_singleton.mp hmem]; exact Finset.mem_image.mpr ⟨2, Finset.mem_univ _, rfl⟩)

/-- Region 0 as a segment: entered from every unscoped buffer at `V5 m c`, left at `V6 m outs c`. -/
def reg0 (outs : Outs (F := F)) (hO : OutsOk m outs) : Pipeline.RegionSeg (pcfgs (F := F)) adm (pdats m outs) () defs₀ Variants.none L lv 0 :=
  between (pdats m outs) 0 launch0 (fun c => (body_obligation0 (atTc (V5 m)) c).loose) (fun _ _ => rfl) (fun _ _ => rfl) (fun _ => rfl)
    (fun _ _ => rfl) (V5 m) (V6 m outs) (fun _ _ => rfl) (exit0_arr m outs hO) (exit0_off m outs)

theorem reg0_pre (outs : Outs (F := F)) (hO : OutsOk m outs) (c : Dev nD) :
    iprop(StableHlo.held (c : Thread nD τ) (Pipeline.ucRefs τ sig) (V5 m c) ∗ Rst c) ⊢ (reg0 m outs hO).pre c := .rfl
theorem reg0_post (outs : Outs (F := F)) (hO : OutsOk m outs) (c : Dev nD) :
    (reg0 m outs hO).post c ⊢ iprop(StableHlo.held (c : Thread nD τ) (Pipeline.ucRefs τ sig) (V6 m outs c) ∗ Rst c) := .rfl

/-! ## Region 1: the first layer's messages, from `V7` to `V8` -/

-- five windows, each read against the valuation by unfolding the proof data: past the default budget taken together
set_option maxHeartbeats 1000000 in
/-- At region 1's exit every array of its pipeline holds what `V8` names there: the feature array and the three
    coefficient columns are operands, never written back, and `V8` is `V7` off the message buffer; the message array
    holds the fold of the 208 write-backs, the last of them cut at the array's end, as `outs` records it. -/
theorem exit1_arr (outs : Outs (F := F)) (hO : OutsOk m outs) (c : Dev nD) (w : Fin cfg1.W) :
    (pdats m outs 1 c).arrAt w cfg1.N = atTc (V8 m outs) c (Pipeline.arrRef spec1 w) :=
  match w with
  | ⟨0, _⟩ => ((pdats m outs 1 c).arrAt_in 0 rfl _).trans (V8_of m outs c main_v40 (by decide)).symm
  | ⟨1, _⟩ => ((pdats m outs 1 c).arrAt_in 1 rfl _).trans (V8_of m outs c main_v41 (by decide)).symm
  | ⟨2, _⟩ => ((pdats m outs 1 c).arrAt_in 2 rfl _).trans (V8_of m outs c main_v42 (by decide)).symm
  | ⟨3, _⟩ => ((pdats m outs 1 c).arrAt_in 3 rfl _).trans (V8_of m outs c main_v43 (by decide)).symm
  | ⟨4, _⟩ => by
    show _ = Function.update (V7 m outs c) main_v44 (outs 8 main_v44 c) main_v44
    rw [Function.update_self]; exact (hO.o8 c).symm

/-- Off the pipeline's arrays `V8` is `V7`. -/
theorem exit1_off (outs : Outs (F := F)) (c : Dev nD) (b : Ref sig .tc) (hb : b ∉ Finset.univ.image (Pipeline.arrRef spec1)) :
    atTc (V8 m outs) c b = atTc (V7 m outs) c b :=
  V8_of m outs c b fun hmem => hb (by
    rw [List.mem_singleton.mp hmem]; exact Finset.mem_image.mpr ⟨4, Finset.mem_univ _, rfl⟩)

/-- Region 1 as a segment: entered from every unscoped buffer at `V7 m outs c`, left at `V8 m outs c`. -/
def reg1 (outs : Outs (F := F)) (hO : OutsOk m outs) : Pipeline.RegionSeg (pcfgs (F := F)) adm (pdats m outs) () defs₀ Variants.none L lv 1 :=
  between (pdats m outs) 1 launch1 (fun c => body_obligation1 (atTc (V7 m outs)) c) (fun _ _ => rfl) (fun _ _ => rfl) (fun _ => rfl)
    (fun _ _ => rfl) (V7 m outs) (V8 m outs) (fun _ _ => rfl) (exit1_arr m outs hO) (exit1_off m outs)

theorem reg1_pre (outs : Outs (F := F)) (hO : OutsOk m outs) (c : Dev nD) :
    iprop(StableHlo.held (c : Thread nD τ) (Pipeline.ucRefs τ sig) (V7 m outs c) ∗ Rst c) ⊢ (reg1 m outs hO).pre c := .rfl
theorem reg1_post (outs : Outs (F := F)) (hO : OutsOk m outs) (c : Dev nD) :
    (reg1 m outs hO).post c ⊢ iprop(StableHlo.held (c : Thread nD τ) (Pipeline.ucRefs τ sig) (V8 m outs c) ∗ Rst c) := .rfl

/-! ## Region 2: the second dense product, from `V10` to `V11` -/

/-- At region 2's exit every array of its pipeline holds what `V11` names there: the aggregated features and the
    second weight matrix are operands, never written back; the product's array holds the fold of the twenty
    write-backs, as `outs` records it. -/
theorem exit2_arr (outs : Outs (F := F)) (hO : OutsOk m outs) (c : Dev nD) (w : Fin cfg2.W) :
    (pdats m outs 2 c).arrAt w cfg2.N = atTc (V11 m outs) c (Pipeline.arrRef spec2 w) :=
  match w with
  | ⟨0, _⟩ => ((pdats m outs 2 c).arrAt_in 0 rfl _).trans (V11_of m outs c main_v51 (by decide)).symm
  | ⟨1, _⟩ => ((pdats m outs 2 c).arrAt_in 1 rfl _).trans (V11_of m outs c main_arg5 (by decide)).symm
  | ⟨2, _⟩ => by
    show _ = Function.update (V10 m outs c) main_v52 (outs 11 main_v52 c) main_v52
    rw [Function.update_self]; exact (hO.o11 c).symm

/-- Off the pipeline's arrays `V11` is `V10`. -/
theorem exit2_off (outs : Outs (F := F)) (c : Dev nD) (b : Ref sig .tc) (hb : b ∉ Finset.univ.image (Pipeline.arrRef spec2)) :
    atTc (V11 m outs) c b = atTc (V10 m outs) c b :=
  V11_of m outs c b fun hmem => hb (by
    rw [List.mem_singleton.mp hmem]; exact Finset.mem_image.mpr ⟨2, Finset.mem_univ _, rfl⟩)

/-- Region 2 as a segment: entered from every unscoped buffer at `V10 m outs c`, left at `V11 m outs c`. -/
def reg2 (outs : Outs (F := F)) (hO : OutsOk m outs) : Pipeline.RegionSeg (pcfgs (F := F)) adm (pdats m outs) () defs₀ Variants.none L lv 2 :=
  between (pdats m outs) 2 launch2 (fun c => (body_obligation2 (atTc (V10 m outs)) c).loose) (fun _ _ => rfl) (fun _ _ => rfl) (fun _ => rfl)
    (fun _ _ => rfl) (V10 m outs) (V11 m outs) (fun _ _ => rfl) (exit2_arr m outs hO) (exit2_off m outs)

theorem reg2_pre (outs : Outs (F := F)) (hO : OutsOk m outs) (c : Dev nD) :
    iprop(StableHlo.held (c : Thread nD τ) (Pipeline.ucRefs τ sig) (V10 m outs c) ∗ Rst c) ⊢ (reg2 m outs hO).pre c := .rfl
theorem reg2_post (outs : Outs (F := F)) (hO : OutsOk m outs) (c : Dev nD) :
    (reg2 m outs hO).post c ⊢ iprop(StableHlo.held (c : Thread nD τ) (Pipeline.ucRefs τ sig) (V11 m outs c) ∗ Rst c) := .rfl

/-! ## Region 3: the second layer's messages, from `V12` to `V13` -/

-- five windows, each read against the valuation by unfolding the proof data: past the default budget taken together
set_option maxHeartbeats 1000000 in
/-- At region 3's exit every array of its pipeline holds what `V13` names there: the gathered rows and the three
    coefficient columns are operands, never written back; the message array holds the fold of the 208 write-backs,
    the last of them cut at the array's end, as `outs` records it. -/
theorem exit3_arr (outs : Outs (F := F)) (hO : OutsOk m outs) (c : Dev nD) (w : Fin cfg3.W) :
    (pdats m outs 3 c).arrAt w cfg3.N = atTc (V13 m outs) c (Pipeline.arrRef spec3 w) :=
  match w with
  | ⟨0, _⟩ => ((pdats m outs 3 c).arrAt_in 0 rfl _).trans (V13_of m outs c main_v59 (by decide)).symm
  | ⟨1, _⟩ => ((pdats m outs 3 c).arrAt_in 1 rfl _).trans (V13_of m outs c main_v60 (by decide)).symm
  | ⟨2, _⟩ => ((pdats m outs 3 c).arrAt_in 2 rfl _).trans (V13_of m outs c main_v61 (by decide)).symm
  | ⟨3, _⟩ => ((pdats m outs 3 c).arrAt_in 3 rfl _).trans (V13_of m outs c main_v62 (by decide)).symm
  | ⟨4, _⟩ => by
    show _ = Function.update (V12 m outs c) main_v63 (outs 13 main_v63 c) main_v63
    rw [Function.update_self]; exact (hO.o13 c).symm

/-- Off the pipeline's arrays `V13` is `V12`. -/
theorem exit3_off (outs : Outs (F := F)) (c : Dev nD) (b : Ref sig .tc) (hb : b ∉ Finset.univ.image (Pipeline.arrRef spec3)) :
    atTc (V13 m outs) c b = atTc (V12 m outs) c b :=
  V13_of m outs c b fun hmem => hb (by
    rw [List.mem_singleton.mp hmem]; exact Finset.mem_image.mpr ⟨4, Finset.mem_univ _, rfl⟩)

/-- Region 3 as a segment: entered from every unscoped buffer at `V12 m outs c`, left at `V13 m outs c`. -/
def reg3 (outs : Outs (F := F)) (hO : OutsOk m outs) : Pipeline.RegionSeg (pcfgs (F := F)) adm (pdats m outs) () defs₀ Variants.none L lv 3 :=
  between (pdats m outs) 3 launch3 (fun c => body_obligation3 (atTc (V12 m outs)) c) (fun _ _ => rfl) (fun _ _ => rfl) (fun _ => rfl)
    (fun _ _ => rfl) (V12 m outs) (V13 m outs) (fun _ _ => rfl) (exit3_arr m outs hO) (exit3_off m outs)

theorem reg3_pre (outs : Outs (F := F)) (hO : OutsOk m outs) (c : Dev nD) :
    iprop(StableHlo.held (c : Thread nD τ) (Pipeline.ucRefs τ sig) (V12 m outs c) ∗ Rst c) ⊢ (reg3 m outs hO).pre c := .rfl
theorem reg3_post (outs : Outs (F := F)) (hO : OutsOk m outs) (c : Dev nD) :
    (reg3 m outs hO).post c ⊢ iprop(StableHlo.held (c : Thread nD τ) (Pipeline.ucRefs τ sig) (V13 m outs c) ∗ Rst c) := .rfl

/-! ## The run

@main is fourteen items: five stretches of host operations, region 0, a stretch, region 1, two stretches, region 2, a
stretch, region 3, a last stretch. Each host stretch carries every unscoped buffer from its valuation to the next,
`Rst` riding along; each region is the segment above. The launch deals every core its unscoped buffers at the launch
memory, its generator register and an empty debt: the first thread state. The last one holds every unscoped buffer at
`V14`, which is read against the final memory. -/

/-- An unscoped TensorCore reference is among those the thread states hold. -/
theorem uc_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The run, read at every unscoped buffer: every weakly fair execution of @main from memory `m` with zero counters
    ends, nothing faults, and in the final memory each unscoped buffer of each core holds what the last valuation
    `V14 m outs c` names; so any `Q` that follows from those readings holds of the final memory. -/
theorem run_bufs (outs : Outs (F := F)) (hO : OutsOk m outs) {Q : PUnit × MemSt nD τ sig (Elt F) → Prop}
    (hQ : ∀ s : MemSt nD τ sig (Elt F),
      (∀ c : Dev nD, ∀ b ∈ Pipeline.ucRefs τ sig, s.mem ((c : Thread nD τ).1, b) = V14 m outs c b) → Q (⟨⟩, s)) :
    θ_run defs (onTc (τ := τ) (main (F := F))) ⟨m, fun _ => 0, ρ⟩ Q := by
  refine Pipeline.θ_run_regions_kit_dev (pcfgs (F := F)) adm (pdats m outs) () cellOf_inj emb₁ defs₀ Variants.none L lv m ρ main
    (segs m outs Variants.none L lv (fun _ c => Rst c) () (pdats m outs) (reg0 m outs hO) (reg1 m outs hO) (reg2 m outs hO) (reg3 m outs hO))
    (fun c Q' => by
      rewrite [main_chain c, Pipeline.Seg.run_eq_chain,
        show (segs m outs Variants.none L lv (fun _ c => Rst c) () (pdats m outs) (reg0 m outs hO) (reg1 m outs hO) (reg2 m outs hO) (reg3 m outs hO) c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          StableHlo.seq hostOps2_1,
          Prog.lift (.customCall (Pipeline.entry 2) ()),
          StableHlo.seq hostOps3,
          Prog.lift (.customCall (Pipeline.entry 3) ()),
          StableHlo.seq hostOps4 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ Rst c))
    (Tₙ := fun c => StableHlo.held (c : Thread nD τ) (Pipeline.ucRefs τ sig) (V14 m outs c))
    (hch := fun c => ⟨.rfl, .rfl, .rfl, .rfl, .rfl, reg0_pre m outs hO c, reg0_post m outs hO c, reg1_pre m outs hO c, reg1_post m outs hO c,
      .rfl, reg2_pre m outs hO c, reg2_post m outs hO c, reg3_pre m outs hO c, reg3_post m outs hO c,
      sep_mono .rfl (by iintro ⟨-, Hdebt⟩; iexact Hdebt)⟩)
    (hinit := ?_)
    (QY := fun c s => ∀ b ∈ Pipeline.ucRefs τ sig, s.mem ((c : Thread nD τ).1, b) = V14 m outs c b)
    (hfin := fun c s' => ?_) (hQ := hQ)
  · -- the launch element is the pipeline library's own; no further ghost resource is dealt
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the first thread state, core by core: the unscoped buffers at the launch memory, the register, the empty debt
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hbufs, -, Hdebt, -, Hreg, -⟩, -⟩
    imodintro
    isplitl [Hbufs]; · iexact Hbufs
    isplitl [Hreg]; · iexists _; iexact Hreg
    iexists ∅; iexact Hdebt
  · -- the end: the last thread state's buffers read against the final memory
    unfold StableHlo.held
    iintro ⟨Hbufs, HSI⟩
    imodintro
    iapply (pointsTo_read_all (Pipeline.ucRefs τ sig) (fun b => ((c : Thread nD τ).1, b)) (V14 m outs c) s')
    isplitl [Hbufs] <;> iassumption

/-- The frame: every weakly fair execution ends, nothing faults, and the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  obtain ⟨outs, hO⟩ := exists_outs m
  exact run_bufs m ρ outs hO fun s h c =>
    ⟨(h c _ (uc_mem main_arg0 (by decide))).trans (V14_main_arg0 m outs c),
     (h c _ (uc_mem main_arg1 (by decide))).trans (V14_main_arg1 m outs c),
     (h c _ (uc_mem main_arg2 (by decide))).trans (V14_main_arg2 m outs c),
     (h c _ (uc_mem main_arg3 (by decide))).trans (V14_main_arg3 m outs c),
     (h c _ (uc_mem main_arg4 (by decide))).trans (V14_main_arg4 m outs c),
     (h c _ (uc_mem main_arg5 (by decide))).trans (V14_main_arg5 m outs c),
     (h c _ (uc_mem main_arg6 (by decide))).trans (V14_main_arg6 m outs c)⟩

/-- The run with the result named: besides the frame, the result buffer ends at the last valuation's contents. -/
theorem run_vals (outs : Outs (F := F)) (hO : OutsOk m outs) :
    θ_run defs (onTc (τ := τ) (main (F := F))) ⟨m, fun _ => 0, ρ⟩ (fun r => ∀ c : Dev nD,
      r.2.mem ((c.tc : Thread nD τ).loc main_v69) = V14 m outs c main_v69
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_bufs m ρ outs hO fun s h c =>
    ⟨h c _ (uc_mem main_v69 (by decide)),
     (h c _ (uc_mem main_arg0 (by decide))).trans (V14_main_arg0 m outs c),
     (h c _ (uc_mem main_arg1 (by decide))).trans (V14_main_arg1 m outs c),
     (h c _ (uc_mem main_arg2 (by decide))).trans (V14_main_arg2 m outs c),
     (h c _ (uc_mem main_arg3 (by decide))).trans (V14_main_arg3 m outs c),
     (h c _ (uc_mem main_arg4 (by decide))).trans (V14_main_arg4 m outs c),
     (h c _ (uc_mem main_arg5 (by decide))).trans (V14_main_arg5 m outs c),
     (h c _ (uc_mem main_arg6 (by decide))).trans (V14_main_arg6 m outs c)⟩

end Cert.Kernel.Hand

end
-- ==== Proof.Spec.lean ====
/-
  The two-layer graph convolution as a composition of named pieces, in the host operations the reference is
  printed in.

  With `src`, `dst` the edge endpoints followed by one self-loop per node and `ew` the edge weights followed by
  ones: `deg` is the weighted in-degree (a scatter-add of `ew` at `dst`), `dis` its inverse square root where it
  is positive and zero elsewhere, `norm e = (dis (src e) * ew e) * dis (dst e)`, and a layer maps node features
  `h` to `scatter-add at dst of (h (src e) * norm e) + bias`. The network is
  `layer₆₄ (relu (layer₁₂₈ (x · W1) b1) · W2) b2`.
-/
import proofs.«136756_j77644418777510_1_alg».proof.Proof.Gen.ReferenceIdeal

noncomputable section

namespace Cert.ReferenceIdeal.Spec

open Cert.ReferenceIdeal Cert.ReferenceIdeal.Facts₀ Idealize.ShloMosaic Idealize.ShloMosaic.TcCoe

variable {F : FTy → Type} [FloatOps F]

/-- The edges' sources followed by the nodes themselves (the self-loops). -/
def srcV (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The edges' destinations followed by the nodes themselves. -/
def dstV (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- The edge weights followed by a one per self-loop. -/
def ewV (w : (⟨S1600000, .f32⟩ : BufTy).Contents (Elt F)) : (⟨S1700000, .f32⟩ : BufTy).Contents (Elt F) :=
  concatenate S1700000 0 [⟨S1600000, w⟩, ⟨S100000, (broadcastInDim S100000 ![] bcast_S_S100000 (constant S_ .f32 0x3F800000#32))⟩] concatenates_S1600000_S100000_S1700000_d0

/-- A node list as gather indices: a negative entry counts from the end, and the list becomes a column. -/
def idxV (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The weighted in-degree of every node. -/
def degV (ei : (⟨S2x1600000, .i32⟩ : BufTy).Contents (Elt F)) (w : (⟨S1600000, .f32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (dstV ei)) (ewV w)

/-- The inverse square root of the degree where it is positive, zero elsewhere. -/
def disV (ei : (⟨S2x1600000, .i32⟩ : BufTy).Contents (Elt F)) (w : (⟨S1600000, .f32⟩ : BufTy).Contents (Elt F)) : (⟨S100000, .f32⟩ : BufTy).Contents (Elt F) :=
  select (cmpf .ogt (degV ei w) (broadcastInDim S100000 ![] bcast_S_S100000 (constant S_ .f32 0x00000000#32))) (Host.rsqrt (select (cmpf .ogt (degV ei w) (broadcastInDim S100000 ![] bcast_S_S100000 (constant S_ .f32 0x00000000#32))) (degV ei w) (broadcastInDim S100000 ![] bcast_S_S100000 (id (constant S_ .f32 0x3F800000#32))))) (broadcastInDim S100000 ![] bcast_S_S100000 (id (constant S_ .f32 0x00000000#32)))

/-- `dis` at every edge's source, and at its destination. -/
def disSrc (ei : (⟨S2x1600000, .i32⟩ : BufTy).Contents (Elt F)) (w : (⟨S1600000, .f32⟩ : BufTy).Contents (Elt F)) : (⟨S1700000, .f32⟩ : BufTy).Contents (Elt F) :=
  Host.gather gather_S100000_S1700000x1_S1700000_n_0_n_n_0_1_1 (disV ei w) (idxV (srcV ei))
def disDst (ei : (⟨S2x1600000, .i32⟩ : BufTy).Contents (Elt F)) (w : (⟨S1600000, .f32⟩ : BufTy).Contents (Elt F)) : (⟨S1700000, .f32⟩ : BufTy).Contents (Elt F) :=
  Host.gather gather_S100000_S1700000x1_S1700000_n_0_n_n_0_1_1 (disV ei w) (idxV (dstV ei))

/-- The symmetric normalisation coefficient of every edge. -/
def normV (ei : (⟨S2x1600000, .i32⟩ : BufTy).Contents (Elt F)) (w : (⟨S1600000, .f32⟩ : BufTy).Contents (Elt F)) : (⟨S1700000, .f32⟩ : BufTy).Contents (Elt F) :=
  mulf (mulf (disSrc ei w) (ewV w)) (disDst ei w)

/-- The messages of a layer of width 128: the source's features scaled by the edge's coefficient. -/
def msg128 (h : (⟨S100000x128, .f32⟩ : BufTy).Contents (Elt F)) (ei : (⟨S2x1600000, .i32⟩ : BufTy).Contents (Elt F)) (w : (⟨S1600000, .f32⟩ : BufTy).Contents (Elt F)) : (⟨S1700000x128, .f32⟩ : BufTy).Contents (Elt F) :=
  mulf (Host.gather gather_S100000x128_S1700000x1_S1700000x128_1_0_n_n_0_1_1128 h (idxV (srcV ei))) (broadcastInDim S1700000x128 ![0, 1] bcast_S1700000x1_S1700000x128_0_1 (broadcastInDim S1700000x1 ![0] bcast_S1700000_S1700000x1_0 (normV ei w)))

/-- The aggregation of width 128: the messages summed into their destinations, plus the bias. -/
def agg128 (u : (⟨S1700000x128, .f32⟩ : BufTy).Contents (Elt F)) (ei : (⟨S2x1600000, .i32⟩ : BufTy).Contents (Elt F)) (b : (⟨S128, .f32⟩ : BufTy).Contents (Elt F)) : (⟨S100000x128, .f32⟩ : BufTy).Contents (Elt F) :=
  addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (dstV ei)) u) (broadcastInDim S100000x128 ![0, 1] bcast_S1x128_S100000x128_0_1 (broadcastInDim S1x128 ![1] bcast_S128_S1x128_1 b))

/-- The rectifier between the layers. -/
def relu128 (a : (⟨S100000x128, .f32⟩ : BufTy).Contents (Elt F)) : (⟨S100000x128, .f32⟩ : BufTy).Contents (Elt F) :=
  maximumf a (broadcastInDim S100000x128 ![] bcast_S_S100000x128 (constant S_ .f32 0x00000000#32))

/-- The messages and the aggregation of width 64. -/
def msg64 (h : (⟨S100000x64, .f32⟩ : BufTy).Contents (Elt F)) (ei : (⟨S2x1600000, .i32⟩ : BufTy).Contents (Elt F)) (w : (⟨S1600000, .f32⟩ : BufTy).Contents (Elt F)) : (⟨S1700000x64, .f32⟩ : BufTy).Contents (Elt F) :=
  mulf (Host.gather gather_S100000x64_S1700000x1_S1700000x64_1_0_n_n_0_1_164 h (idxV (srcV ei))) (broadcastInDim S1700000x64 ![0, 1] bcast_S1700000x1_S1700000x64_0_1 (broadcastInDim S1700000x1 ![0] bcast_S1700000_S1700000x1_0 (normV ei w)))
def agg64 (u : (⟨S1700000x64, .f32⟩ : BufTy).Contents (Elt F)) (ei : (⟨S2x1600000, .i32⟩ : BufTy).Contents (Elt F)) (b : (⟨S64, .f32⟩ : BufTy).Contents (Elt F)) : (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (dstV ei)) u) (broadcastInDim S100000x64 ![0, 1] bcast_S1x64_S100000x64_0_1 (broadcastInDim S1x64 ![1] bcast_S64_S1x64_1 b))

/-- The two dense products. -/
def prod128 (x : (⟨S100000x128, .f32⟩ : BufTy).Contents (Elt F)) (W : (⟨S128x128, .f32⟩ : BufTy).Contents (Elt F)) : (⟨S100000x128, .f32⟩ : BufTy).Contents (Elt F) :=
  Host.dotGeneral dot_S100000x128_S128x128_S100000x128_1_0_0_1_n_n none x W
def prod64 (x : (⟨S100000x128, .f32⟩ : BufTy).Contents (Elt F)) (W : (⟨S128x64, .f32⟩ : BufTy).Contents (Elt F)) : (⟨S100000x64, .f32⟩ : BufTy).Contents (Elt F) :=
  Host.dotGeneral dot_S100000x128_S128x64_S100000x64_1_0_0_1_n_n none x W

/-- The whole network. -/
def net (x : (⟨S100000x128, .f32⟩ : BufTy).Contents (Elt F)) (ei : (⟨S2x1600000, .i32⟩ : BufTy).Contents (Elt F)) (w : (⟨S1600000, .f32⟩ : BufTy).Contents (Elt F)) (W1 : (⟨S128x128, .f32⟩ : BufTy).Contents (Elt F)) (b1 : (⟨S128, .f32⟩ : BufTy).Contents (Elt F))
    (W2 : (⟨S128x64, .f32⟩ : BufTy).Contents (Elt F)) (b2 : (⟨S64, .f32⟩ : BufTy).Contents (Elt F)) : (⟨S100000x64, .f32⟩ : BufTy).Contents (Elt F) :=
  agg64 (msg64 (prod64 (relu128 (agg128 (msg128 (prod128 x W1) ei w) ei b1)) W2) ei w) ei b2

end Cert.ReferenceIdeal.Spec

end
-- ==== Proof.KSteps.lean ====
/-
  What the host operations between the kernel regions compute, buffer by buffer, in the specification's pieces.
-/
import proofs.«136756_j77644418777510_1_alg».proof.Proof.Data
import proofs.«136756_j77644418777510_1_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

open Idealize.ShloMosaic.ValueIdx

variable (m : (ℓ : Loc nD τ sig) → Buf (Elt F) ℓ) (c : Dev nD) (outs : Outs (F := F))

/-! ## Before the first region: the edge lists, the weights and the normalisation's two gathers -/

theorem k5_src : V5 m c main_v3 = Cert.ReferenceIdeal.Spec.srcV (m ((c.tc : Thread nD τ).loc main_arg1)) := by
  rw [V5_of m c main_v3 (by decide), V4_of m c main_v3 (by decide), V3_of m c main_v3 (by decide), V2_of m c main_v3 (by decide)]
  show StableHlo.after hostOps0 (V0 m c) (Proc.devRef .tc main_v3) = _
  after_results
  rfl
theorem k5_dst : V5 m c main_v6 = Cert.ReferenceIdeal.Spec.dstV (m ((c.tc : Thread nD τ).loc main_arg1)) := by
  rw [V5_of m c main_v6 (by decide), V4_of m c main_v6 (by decide), V3_of m c main_v6 (by decide), V2_of m c main_v6 (by decide)]
  show StableHlo.after hostOps0 (V0 m c) (Proc.devRef .tc main_v6) = _
  after_results
  rfl
theorem k5_ew : V5 m c main_v8 = Cert.ReferenceIdeal.Spec.ewV (m ((c.tc : Thread nD τ).loc main_arg2)) := by
  rw [V5_of m c main_v8 (by decide), V4_of m c main_v8 (by decide), V3_of m c main_v8 (by decide), V2_of m c main_v8 (by decide)]
  show StableHlo.after hostOps0 (V0 m c) (Proc.devRef .tc main_v8) = _
  after_results
  rfl
/-! ### The normalisation, stretch by stretch

The first stretch sums the weights into their destinations (the degree) and tests where the degree is
positive; the second replaces a non-positive degree by one; the third takes the inverse square root; the
fourth puts zero back where the degree was not positive; the fifth reads the result at the edges' endpoints. -/

/-- After the first stretch: the weighted in-degree of every node, -/
theorem k1_deg : V1 m c main_v11 = (Cert.ReferenceIdeal.Spec.degV (m ((c.tc : Thread nD τ).loc main_arg1)) (m ((c.tc : Thread nD τ).loc main_arg2)) : (⟨S100000, .f32⟩ : BufTy).Contents (Elt F)) := by
  show StableHlo.after hostOps0 (V0 m c) (Proc.devRef .tc main_v11) = _
  after_results
  rfl
/-- the test "the degree is positive", which the stretch computes twice, -/
theorem k1_posA : V1 m c main_v13 = (cmpf .ogt (Cert.ReferenceIdeal.Spec.degV (m ((c.tc : Thread nD τ).loc main_arg1)) (m ((c.tc : Thread nD τ).loc main_arg2)) : (⟨S100000, .f32⟩ : BufTy).Contents (Elt F)) (broadcastInDim S100000 ![] bcast_S_S100000 (constant S_ .f32 0x00000000#32) : (⟨S100000, .f32⟩ : BufTy).Contents (Elt F)) : (⟨S100000, .i1⟩ : BufTy).Contents (Elt F)) := by
  show StableHlo.after hostOps0 (V0 m c) (Proc.devRef .tc main_v13) = _
  after_results
  rfl
theorem k1_posB : V1 m c main_v15 = (cmpf .ogt (Cert.ReferenceIdeal.Spec.degV (m ((c.tc : Thread nD τ).loc main_arg1)) (m ((c.tc : Thread nD τ).loc main_arg2)) : (⟨S100000, .f32⟩ : BufTy).Contents (Elt F)) (broadcastInDim S100000 ![] bcast_S_S100000 (constant S_ .f32 0x00000000#32) : (⟨S100000, .f32⟩ : BufTy).Contents (Elt F)) : (⟨S100000, .i1⟩ : BufTy).Contents (Elt F)) := by
  show StableHlo.after hostOps0 (V0 m c) (Proc.devRef .tc main_v15) = _
  after_results
  rfl
/-- and the scalar one. -/
theorem k1_one : V1 m c main_cst_3 = (constant S_ .f32 0x3F800000#32 : (⟨S_, .f32⟩ : BufTy).Contents (Elt F)) := by
  show StableHlo.after hostOps0 (V0 m c) (Proc.devRef .tc main_cst_3) = _
  after_results

/-- After the second stretch: the degree where it is positive, one elsewhere. -/
theorem k2_safe : V2 m c main_v16 = (select (cmpf .ogt (Cert.ReferenceIdeal.Spec.degV (m ((c.tc : Thread nD τ).loc main_arg1)) (m ((c.tc : Thread nD τ).loc main_arg2)) : (⟨S100000, .f32⟩ : BufTy).Contents (Elt F)) (broadcastInDim S100000 ![] bcast_S_S100000 (constant S_ .f32 0x00000000#32) : (⟨S100000, .f32⟩ : BufTy).Contents (Elt F)) : (⟨S100000, .i1⟩ : BufTy).Contents (Elt F)) (Cert.ReferenceIdeal.Spec.degV (m ((c.tc : Thread nD τ).loc main_arg1)) (m ((c.tc : Thread nD τ).loc main_arg2)) : (⟨S100000, .f32⟩ : BufTy).Contents (Elt F)) (broadcastInDim S100000 ![] bcast_S_S100000 (id (constant S_ .f32 0x3F800000#32))) : (⟨S100000, .f32⟩ : BufTy).Contents (Elt F)) := by
  have hpos := k1_posB m c
  have hdeg := k1_deg m c
  have hone := k1_one m c
  show StableHlo.after hostOps0_1 (V1 m c) (Proc.devRef .tc main_v16) = _
  generalize V1 m c = W at hpos hdeg hone ⊢
  after_results
  rw [hpos, hdeg, hone]
  rfl

/-- After the third stretch: its inverse square root, and the scalar zero. -/
theorem k3_inv : V3 m c main_v17 = (Host.rsqrt (select (cmpf .ogt (Cert.ReferenceIdeal.Spec.degV (m ((c.tc : Thread nD τ).loc main_arg1)) (m ((c.tc : Thread nD τ).loc main_arg2)) : (⟨S100000, .f32⟩ : BufTy).Contents (Elt F)) (broadcastInDim S100000 ![] bcast_S_S100000 (constant S_ .f32 0x00000000#32) : (⟨S100000, .f32⟩ : BufTy).Contents (Elt F)) : (⟨S100000, .i1⟩ : BufTy).Contents (Elt F)) (Cert.ReferenceIdeal.Spec.degV (m ((c.tc : Thread nD τ).loc main_arg1)) (m ((c.tc : Thread nD τ).loc main_arg2)) : (⟨S100000, .f32⟩ : BufTy).Contents (Elt F)) (broadcastInDim S100000 ![] bcast_S_S100000 (id (constant S_ .f32 0x3F800000#32))) : (⟨S100000, .f32⟩ : BufTy).Contents (Elt F)) : (⟨S100000, .f32⟩ : BufTy).Contents (Elt F)) := by
  have hsafe := k2_safe m c
  show StableHlo.after hostOps0_2 (V2 m c) (Proc.devRef .tc main_v17) = _
  generalize V2 m c = W at hsafe ⊢
  after_results
  rw [hsafe]
theorem k3_zero : V3 m c main_cst_4 = (constant S_ .f32 0x00000000#32 : (⟨S_, .f32⟩ : BufTy).Contents (Elt F)) := by
  show StableHlo.after hostOps0_2 (V2 m c) (Proc.devRef .tc main_cst_4) = _
  generalize V2 m c = W
  after_results

/-- After the fourth stretch: the inverse square root of the degree where it is positive, zero elsewhere. -/
theorem k4_dis : V4 m c main_v18 = Cert.ReferenceIdeal.Spec.disV (m ((c.tc : Thread nD τ).loc main_arg1)) (m ((c.tc : Thread nD τ).loc main_arg2)) := by
  have hpos : V3 m c main_v13 = (cmpf .ogt (Cert.ReferenceIdeal.Spec.degV (m ((c.tc : Thread nD τ).loc main_arg1)) (m ((c.tc : Thread nD τ).loc main_arg2)) : (⟨S100000, .f32⟩ : BufTy).Contents (Elt F)) (broadcastInDim S100000 ![] bcast_S_S100000 (constant S_ .f32 0x00000000#32) : (⟨S100000, .f32⟩ : BufTy).Contents (Elt F)) : (⟨S100000, .i1⟩ : BufTy).Contents (Elt F)) := by
    rw [V3_of m c main_v13 (by decide), V2_of m c main_v13 (by decide), k1_posA]
  have hinv := k3_inv m c
  have hzero := k3_zero m c
  show StableHlo.after hostOps0_3 (V3 m c) (Proc.devRef .tc main_v18) = _
  generalize V3 m c = W at hpos hinv hzero ⊢
  after_results
  rw [hpos, hinv, hzero]
  rfl

theorem k5_disSrc : V5 m c main_v25 = Cert.ReferenceIdeal.Spec.disSrc (m ((c.tc : Thread nD τ).loc main_arg1)) (m ((c.tc : Thread nD τ).loc main_arg2)) := by
  have hdis := k4_dis m c
  have hlist : V4 m c main_v3 = Cert.ReferenceIdeal.Spec.srcV (m ((c.tc : Thread nD τ).loc main_arg1)) :=
    (V5_of m c main_v3 (by decide)).symm.trans (k5_src m c)
  show StableHlo.after hostOps0_4 (V4 m c) (Proc.devRef .tc main_v25) = _
  generalize V4 m c = W at hdis hlist ⊢
  after_results
  rw [hdis, hlist]
  rfl
theorem k5_disDst : V5 m c main_v32 = Cert.ReferenceIdeal.Spec.disDst (m ((c.tc : Thread nD τ).loc main_arg1)) (m ((c.tc : Thread nD τ).loc main_arg2)) := by
  have hdis := k4_dis m c
  have hlist : V4 m c main_v6 = Cert.ReferenceIdeal.Spec.dstV (m ((c.tc : Thread nD τ).loc main_arg1)) :=
    (V5_of m c main_v6 (by decide)).symm.trans (k5_dst m c)
  show StableHlo.after hostOps0_4 (V4 m c) (Proc.devRef .tc main_v32) = _
  generalize V4 m c = W at hdis hlist ⊢
  after_results_simp
  rw [hdis, hlist]
  rfl
theorem k5_arg0 : V5 m c main_arg0 = m ((c.tc : Thread nD τ).loc main_arg0) := by
  rw [V5_of m c main_arg0 (by decide), V4_of m c main_arg0 (by decide), V3_of m c main_arg0 (by decide), V2_of m c main_arg0 (by decide), V1_of m c main_arg0 (by decide)]
theorem k5_arg3 : V5 m c main_arg3 = m ((c.tc : Thread nD τ).loc main_arg3) := by
  rw [V5_of m c main_arg3 (by decide), V4_of m c main_arg3 (by decide), V3_of m c main_arg3 (by decide), V2_of m c main_arg3 (by decide), V1_of m c main_arg3 (by decide)]

/-! ## Before the second region: the first product's rows gathered at the sources, the three coefficient columns -/

/-- A list of `n` entries laid out as an `n × 1` matrix reads, at `(e, 0)`, the list's entry `e`: both
    positions are `e` in row-major order. -/
theorem column_apply {α : Type} {n : ℕ} (x : (⟨1, ![n]⟩ : Shape).Idx → α)
    (h : (⟨1, ![n]⟩ : Shape).ShapeCasts ⟨2, ![n, 1]⟩) (e : Fin n) :
    shapeCast ⟨2, ![n, 1]⟩ x h (ix2 e (0 : Fin 1)) = x (ix1 e) :=
  shapeCast_apply x h _ _ (by
    rw [Shape.rowMajor_val_two, Shape.rowMajor_val_one]
    show e.val = e.val * 1 + 0
    omega)

theorem k7_feat : V7 m outs c main_v40
    = Host.gather Cert.ReferenceIdeal.gather_S100000x128_S1700000x1_S1700000x128_1_0_n_n_0_1_1128 (outs 6 main_v33 c)
        (Cert.ReferenceIdeal.Spec.idxV (Cert.ReferenceIdeal.Spec.srcV (m ((c.tc : Thread nD τ).loc main_arg1)))) := by
  have hprod : V6 m outs c main_v33 = outs 6 main_v33 c := by
    simp only [V6, Function.update_self]
  have hsrc : V6 m outs c main_v3 = Cert.ReferenceIdeal.Spec.srcV (m ((c.tc : Thread nD τ).loc main_arg1)) := by
    rw [V6_of m outs c main_v3 (by decide), k5_src]
  show StableHlo.after hostOps1 (V6 m outs c) (Proc.devRef .tc main_v40) = _
  generalize V6 m outs c = W at hprod hsrc ⊢
  after_results
  rw [hprod, hsrc]
  rfl
/-- The three columns are the per-edge lists laid out as one-column matrices: entry `(e, 0)` is the list's entry `e`. -/
theorem k7_colA (e : Fin 1700000) : (V7 m outs c main_v41 : (⟨S1700000x1, .f32⟩ : BufTy).Contents (Elt F)) (ix2 e 0)
    = (Cert.ReferenceIdeal.Spec.disSrc (m ((c.tc : Thread nD τ).loc main_arg1)) (m ((c.tc : Thread nD τ).loc main_arg2)) : (⟨S1700000, .f32⟩ : BufTy).Contents (Elt F)) (ix1 e) := by
  have hlist : V6 m outs c main_v25 = Cert.ReferenceIdeal.Spec.disSrc (m ((c.tc : Thread nD τ).loc main_arg1)) (m ((c.tc : Thread nD τ).loc main_arg2)) := by
    rw [V6_of m outs c main_v25 (by decide), k5_disSrc]
  have hcol : (V7 m outs c main_v41 : (⟨S1700000x1, .f32⟩ : BufTy).Contents (Elt F))
      = shapeCast S1700000x1 (Cert.ReferenceIdeal.Spec.disSrc (m ((c.tc : Thread nD τ).loc main_arg1)) (m ((c.tc : Thread nD τ).loc main_arg2)) : (⟨S1700000, .f32⟩ : BufTy).Contents (Elt F)) shapeCasts_S1700000_S1700000x1 := by
    show StableHlo.after hostOps1 (V6 m outs c) (Proc.devRef .tc main_v41) = _
    generalize V6 m outs c = W at hlist ⊢
    after_results
    rw [hlist]
    rfl
  rw [hcol]
  exact column_apply _ _ e
theorem k7_colB (e : Fin 1700000) : (V7 m outs c main_v42 : (⟨S1700000x1, .f32⟩ : BufTy).Contents (Elt F)) (ix2 e 0)
    = (Cert.ReferenceIdeal.Spec.ewV (m ((c.tc : Thread nD τ).loc main_arg2)) : (⟨S1700000, .f32⟩ : BufTy).Contents (Elt F)) (ix1 e) := by
  have hlist : V6 m outs c main_v8 = Cert.ReferenceIdeal.Spec.ewV (m ((c.tc : Thread nD τ).loc main_arg2)) := by
    rw [V6_of m outs c main_v8 (by decide), k5_ew]
  have hcol : (V7 m outs c main_v42 : (⟨S1700000x1, .f32⟩ : BufTy).Contents (Elt F))
      = shapeCast S1700000x1 (Cert.ReferenceIdeal.Spec.ewV (m ((c.tc : Thread nD τ).loc main_arg2)) : (⟨S1700000, .f32⟩ : BufTy).Contents (Elt F)) shapeCasts_S1700000_S1700000x1 := by
    show StableHlo.after hostOps1 (V6 m outs c) (Proc.devRef .tc main_v42) = _
    generalize V6 m outs c = W at hlist ⊢
    after_results
    rw [hlist]
    rfl
  rw [hcol]
  exact column_apply _ _ e
theorem k7_colD (e : Fin 1700000) : (V7 m outs c main_v43 : (⟨S1700000x1, .f32⟩ : BufTy).Contents (Elt F)) (ix2 e 0)
    = (Cert.ReferenceIdeal.Spec.disDst (m ((c.tc : Thread nD τ).loc main_arg1)) (m ((c.tc : Thread nD τ).loc main_arg2)) : (⟨S1700000, .f32⟩ : BufTy).Contents (Elt F)) (ix1 e) := by
  have hlist : V6 m outs c main_v32 = Cert.ReferenceIdeal.Spec.disDst (m ((c.tc : Thread nD τ).loc main_arg1)) (m ((c.tc : Thread nD τ).loc main_arg2)) := by
    rw [V6_of m outs c main_v32 (by decide), k5_disDst]
  have hcol : (V7 m outs c main_v43 : (⟨S1700000x1, .f32⟩ : BufTy).Contents (Elt F))
      = shapeCast S1700000x1 (Cert.ReferenceIdeal.Spec.disDst (m ((c.tc : Thread nD τ).loc main_arg1)) (m ((c.tc : Thread nD τ).loc main_arg2)) : (⟨S1700000, .f32⟩ : BufTy).Contents (Elt F)) shapeCasts_S1700000_S1700000x1 := by
    show StableHlo.after hostOps1 (V6 m outs c) (Proc.devRef .tc main_v43) = _
    generalize V6 m outs c = W at hlist ⊢
    after_results
    rw [hlist]
    rfl
  rw [hcol]
  exact column_apply _ _ e

/-! ## Before the third region: the first layer's aggregation, bias and rectifier -/

theorem k10_hidden : V10 m outs c main_v51
    = Cert.ReferenceIdeal.Spec.relu128 (Cert.ReferenceIdeal.Spec.agg128 (outs 8 main_v44 c) (m ((c.tc : Thread nD τ).loc main_arg1)) (m ((c.tc : Thread nD τ).loc main_arg4))) := by
  have hmsg : V8 m outs c main_v44 = outs 8 main_v44 c := by
    simp only [V8, Function.update_self]
  have hdst : V8 m outs c main_v6 = Cert.ReferenceIdeal.Spec.dstV (m ((c.tc : Thread nD τ).loc main_arg1)) := by
    rw [V8_of m outs c main_v6 (by decide), V7_of m outs c main_v6 (by decide), V6_of m outs c main_v6 (by decide), k5_dst]
  have hbias : V8 m outs c main_arg4 = m ((c.tc : Thread nD τ).loc main_arg4) := by
    rw [V8_of m outs c main_arg4 (by decide), V7_of m outs c main_arg4 (by decide), V6_of m outs c main_arg4 (by decide),
      V5_of m c main_arg4 (by decide), V4_of m c main_arg4 (by decide), V3_of m c main_arg4 (by decide),
      V2_of m c main_arg4 (by decide), V1_of m c main_arg4 (by decide)]
  have hsum : V9 m outs c main_v50
      = Cert.ReferenceIdeal.Spec.agg128 (outs 8 main_v44 c) (m ((c.tc : Thread nD τ).loc main_arg1)) (m ((c.tc : Thread nD τ).loc main_arg4)) := by
    show StableHlo.after hostOps2 (V8 m outs c) (Proc.devRef .tc main_v50) = _
    generalize V8 m outs c = W at hmsg hdst hbias ⊢
    after_results
    rw [hmsg, hdst, hbias]
    rfl
  show StableHlo.after hostOps2_1 (V9 m outs c) (Proc.devRef .tc main_v51) = _
  generalize V9 m outs c = W at hsum ⊢
  after_results
  rw [hsum]
  rfl
theorem k10_arg5 : V10 m outs c main_arg5 = m ((c.tc : Thread nD τ).loc main_arg5) := by
  rw [V10_of m outs c main_arg5 (by decide), V9_of m outs c main_arg5 (by decide), V8_of m outs c main_arg5 (by decide),
    V7_of m outs c main_arg5 (by decide), V6_of m outs c main_arg5 (by decide), V5_of m c main_arg5 (by decide),
    V4_of m c main_arg5 (by decide), V3_of m c main_arg5 (by decide), V2_of m c main_arg5 (by decide), V1_of m c main_arg5 (by decide)]

/-! ## Before the fourth region -/

theorem k12_feat : V12 m outs c main_v59
    = Host.gather Cert.ReferenceIdeal.gather_S100000x64_S1700000x1_S1700000x64_1_0_n_n_0_1_164 (outs 11 main_v52 c)
        (Cert.ReferenceIdeal.Spec.idxV (Cert.ReferenceIdeal.Spec.srcV (m ((c.tc : Thread nD τ).loc main_arg1)))) := by
  have hprod : V11 m outs c main_v52 = outs 11 main_v52 c := by
    simp only [V11, Function.update_self]
  have hsrc : V11 m outs c main_v3 = Cert.ReferenceIdeal.Spec.srcV (m ((c.tc : Thread nD τ).loc main_arg1)) := by
    rw [V11_of m outs c main_v3 (by decide), V10_of m outs c main_v3 (by decide), V9_of m outs c main_v3 (by decide), V8_of m outs c main_v3 (by decide), V7_of m outs c main_v3 (by decide), V6_of m outs c main_v3 (by decide), k5_src]
  show StableHlo.after hostOps3 (V11 m outs c) (Proc.devRef .tc main_v59) = _
  generalize V11 m outs c = W at hprod hsrc ⊢
  after_results
  rw [hprod, hsrc]
  rfl
theorem k12_colA (e : Fin 1700000) : (V12 m outs c main_v60 : (⟨S1700000x1, .f32⟩ : BufTy).Contents (Elt F)) (ix2 e 0)
    = (Cert.ReferenceIdeal.Spec.disSrc (m ((c.tc : Thread nD τ).loc main_arg1)) (m ((c.tc : Thread nD τ).loc main_arg2)) : (⟨S1700000, .f32⟩ : BufTy).Contents (Elt F)) (ix1 e) := by
  have hlist : V11 m outs c main_v25 = Cert.ReferenceIdeal.Spec.disSrc (m ((c.tc : Thread nD τ).loc main_arg1)) (m ((c.tc : Thread nD τ).loc main_arg2)) := by
    rw [V11_of m outs c main_v25 (by decide), V10_of m outs c main_v25 (by decide), V9_of m outs c main_v25 (by decide), V8_of m outs c main_v25 (by decide), V7_of m outs c main_v25 (by decide), V6_of m outs c main_v25 (by decide), k5_disSrc]
  have hcol : (V12 m outs c main_v60 : (⟨S1700000x1, .f32⟩ : BufTy).Contents (Elt F))
      = shapeCast S1700000x1 (Cert.ReferenceIdeal.Spec.disSrc (m ((c.tc : Thread nD τ).loc main_arg1)) (m ((c.tc : Thread nD τ).loc main_arg2)) : (⟨S1700000, .f32⟩ : BufTy).Contents (Elt F)) shapeCasts_S1700000_S1700000x1 := by
    show StableHlo.after hostOps3 (V11 m outs c) (Proc.devRef .tc main_v60) = _
    generalize V11 m outs c = W at hlist ⊢
    after_results
    rw [hlist]
    rfl
  rw [hcol]
  exact column_apply _ _ e
theorem k12_colB (e : Fin 1700000) : (V12 m outs c main_v61 : (⟨S1700000x1, .f32⟩ : BufTy).Contents (Elt F)) (ix2 e 0)
    = (Cert.ReferenceIdeal.Spec.ewV (m ((c.tc : Thread nD τ).loc main_arg2)) : (⟨S1700000, .f32⟩ : BufTy).Contents (Elt F)) (ix1 e) := by
  have hlist : V11 m outs c main_v8 = Cert.ReferenceIdeal.Spec.ewV (m ((c.tc : Thread nD τ).loc main_arg2)) := by
    rw [V11_of m outs c main_v8 (by decide), V10_of m outs c main_v8 (by decide), V9_of m outs c main_v8 (by decide), V8_of m outs c main_v8 (by decide), V7_of m outs c main_v8 (by decide), V6_of m outs c main_v8 (by decide), k5_ew]
  have hcol : (V12 m outs c main_v61 : (⟨S1700000x1, .f32⟩ : BufTy).Contents (Elt F))
      = shapeCast S1700000x1 (Cert.ReferenceIdeal.Spec.ewV (m ((c.tc : Thread nD τ).loc main_arg2)) : (⟨S1700000, .f32⟩ : BufTy).Contents (Elt F)) shapeCasts_S1700000_S1700000x1 := by
    show StableHlo.after hostOps3 (V11 m outs c) (Proc.devRef .tc main_v61) = _
    generalize V11 m outs c = W at hlist ⊢
    after_results
    rw [hlist]
    rfl
  rw [hcol]
  exact column_apply _ _ e
theorem k12_colD (e : Fin 1700000) : (V12 m outs c main_v62 : (⟨S1700000x1, .f32⟩ : BufTy).Contents (Elt F)) (ix2 e 0)
    = (Cert.ReferenceIdeal.Spec.disDst (m ((c.tc : Thread nD τ).loc main_arg1)) (m ((c.tc : Thread nD τ).loc main_arg2)) : (⟨S1700000, .f32⟩ : BufTy).Contents (Elt F)) (ix1 e) := by
  have hlist : V11 m outs c main_v32 = Cert.ReferenceIdeal.Spec.disDst (m ((c.tc : Thread nD τ).loc main_arg1)) (m ((c.tc : Thread nD τ).loc main_arg2)) := by
    rw [V11_of m outs c main_v32 (by decide), V10_of m outs c main_v32 (by decide), V9_of m outs c main_v32 (by decide), V8_of m outs c main_v32 (by decide), V7_of m outs c main_v32 (by decide), V6_of m outs c main_v32 (by decide), k5_disDst]
  have hcol : (V12 m outs c main_v62 : (⟨S1700000x1, .f32⟩ : BufTy).Contents (Elt F))
      = shapeCast S1700000x1 (Cert.ReferenceIdeal.Spec.disDst (m ((c.tc : Thread nD τ).loc main_arg1)) (m ((c.tc : Thread nD τ).loc main_arg2)) : (⟨S1700000, .f32⟩ : BufTy).Contents (Elt F)) shapeCasts_S1700000_S1700000x1 := by
    show StableHlo.after hostOps3 (V11 m outs c) (Proc.devRef .tc main_v62) = _
    generalize V11 m outs c = W at hlist ⊢
    after_results
    rw [hlist]
    rfl
  rw [hcol]
  exact column_apply _ _ e

/-! ## After the fourth region: the second layer's aggregation and bias -/

theorem k14_result : V14 m outs c main_v69
    = Cert.ReferenceIdeal.Spec.agg64 (outs 13 main_v63 c) (m ((c.tc : Thread nD τ).loc main_arg1)) (m ((c.tc : Thread nD τ).loc main_arg6)) := by
  have hmsg : V13 m outs c main_v63 = outs 13 main_v63 c := by
    simp only [V13, Function.update_self]
  have hdst : V13 m outs c main_v6 = Cert.ReferenceIdeal.Spec.dstV (m ((c.tc : Thread nD τ).loc main_arg1)) := by
    rw [V13_of m outs c main_v6 (by decide), V12_of m outs c main_v6 (by decide), V11_of m outs c main_v6 (by decide),
      V10_of m outs c main_v6 (by decide), V9_of m outs c main_v6 (by decide), V8_of m outs c main_v6 (by decide),
      V7_of m outs c main_v6 (by decide), V6_of m outs c main_v6 (by decide), k5_dst]
  have hbias : V13 m outs c main_arg6 = m ((c.tc : Thread nD τ).loc main_arg6) := by
    rw [V13_of m outs c main_arg6 (by decide), V12_of m outs c main_arg6 (by decide), V11_of m outs c main_arg6 (by decide),
      V10_of m outs c main_arg6 (by decide), V9_of m outs c main_arg6 (by decide), V8_of m outs c main_arg6 (by decide),
      V7_of m outs c main_arg6 (by decide), V6_of m outs c main_arg6 (by decide), V5_of m c main_arg6 (by decide),
      V4_of m c main_arg6 (by decide), V3_of m c main_arg6 (by decide), V2_of m c main_arg6 (by decide), V1_of m c main_arg6 (by decide)]
  show StableHlo.after hostOps4 (V13 m outs c) (Proc.devRef .tc main_v69) = _
  generalize V13 m outs c = W at hmsg hdst hbias ⊢
  after_results
  rw [hmsg, hdst, hbias]
  rfl

end Cert.KernelIdeal.Hand

end
-- ==== Proof.Val0.lean ====
import proofs.«136756_j77644418777510_1_alg».proof.Proof.Dats
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

open Idealize.ShloMosaic.ValueIdx

variable (V : (c : Dev nD) → (b : Ref sig .tc) → Buf (Elt Ideal) ((c : Thread nD τ).loc b))

/-- A rectangle that starts at row 0 and column 0 has the zero offset on both axes. -/
theorem origin0 : (![0, 0] : Fin 2 → Nat) = fun _ => 0 := funext fun a => by fin_cases a <;> rfl

/-! ## The product's index maps

The contraction runs over the left block's columns and the right operand's rows; the result's row picks the left
block's row and the result's column the right operand's column. -/

/-- The left operand is read in the result's row … -/
theorem prod0_left_row (j : S5000x128.Idx) (κ : dot_S5000x128_S128x128_S5000x128_1_0_0_1_n_n.contr.Idx) :
    (dot_S5000x128_S128x128_S5000x128_1_0_0_1_n_n.lhsIdx j κ 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … at the contraction's column; -/
theorem prod0_left_col (j : S5000x128.Idx) (κ : dot_S5000x128_S128x128_S5000x128_1_0_0_1_n_n.contr.Idx) :
    (dot_S5000x128_S128x128_S5000x128_1_0_0_1_n_n.lhsIdx j κ 1).val = (κ ⟨0, by decide⟩).val :=
  dot_S5000x128_S128x128_S5000x128_1_0_0_1_n_n.lhsIdx_val_of_single rfl j κ
/-- the right operand at the contraction's row … -/
theorem prod0_right_row (j : S5000x128.Idx) (κ : dot_S5000x128_S128x128_S5000x128_1_0_0_1_n_n.contr.Idx) :
    (dot_S5000x128_S128x128_S5000x128_1_0_0_1_n_n.rhsIdx j κ 0).val = (κ ⟨0, by decide⟩).val :=
  dot_S5000x128_S128x128_S5000x128_1_0_0_1_n_n.rhsIdx_val_of_single rfl j κ
/-- … in the result's column. -/
theorem prod0_right_col (j : S5000x128.Idx) (κ : dot_S5000x128_S128x128_S5000x128_1_0_0_1_n_n.contr.Idx) :
    (dot_S5000x128_S128x128_S5000x128_1_0_0_1_n_n.rhsIdx j κ 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The stored block at row `r`, column `q`: the two casts to the narrow format are the identity on extended reals and
    the accumulator is zero, so the entry is the plain sum over the 128 contraction positions of the left block's
    row `r` against the right operand's column `q`. -/
theorem pay0_apply (x : FVec Ideal S5000x128 .f32) (w : FVec Ideal S128x128 .f32) (r : Fin 5000) (q : Fin 128) :
    k0_pay1 (F := Ideal) x w (ix2 r q) = ∑ k : Fin 128, x (ix2 r k) * w (ix2 k q) := by
  unfold k0_pay1
  show FloatOps.matmul dot_S5000x128_S128x128_S5000x128_1_0_0_1_n_n none (truncf .bf16 x bitsLt_bf16_f32) (truncf .bf16 w bitsLt_bf16_f32) (constant S5000x128 .f32 0x00000000#32) (ix2 r q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact prod0_left_row _ _
    | ⟨1, _⟩ => exact (prod0_left_col _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (prod0_right_row _ _).trans hk
    | ⟨1, _⟩ => exact prod0_right_col _ _)
  rw [truncf_apply, truncf_apply, el, er]

/-! ## From the blocks to the array -/

/-- The product of the whole operands: the entry in a row and a column is that row of the left operand against that
    column of the right. -/
def prodArr0 (A : FVec Ideal S100000x128 .f32) (B : FVec Ideal S128x128 .f32) : FVec Ideal S100000x128 .f32 :=
  fun i => ∑ k : Fin 128, A (ix2 (i 0) k) * B (ix2 k (i 1))

/-- Where the three windows' blocks sit at grid point `t`: the left operand's and the result's at block row `t`,
    the right operand's always at the origin; no window moves along the columns. -/
theorem blockAt0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One stored block read at one entry, for operands that are known only through the whole arrays: if the left
    block's row `y 0` is row `n * 5000 + y 0` of `A` and the right block is `B`, the block's entry `y` is the
    product's entry at that row and at column `y 1`. -/
theorem point0 (A : FVec Ideal S100000x128 .f32) (B : FVec Ideal S128x128 .f32)
    (x : FVec Ideal S5000x128 .f32) (w : FVec Ideal S128x128 .f32) (n : ℕ)
    (hx : ∀ (z : S5000x128.Idx) (i : S100000x128.Idx), (i 0).val = n * 5000 + (z 0).val → (i 1).val = (z 1).val → x z = A i)
    (hw : ∀ z : S128x128.Idx, w z = B z)
    (y : S5000x128.Idx) (i : S100000x128.Idx) (h0 : (i 0).val = n * 5000 + (y 0).val) (h1 : (i 1).val = (y 1).val) :
    k0_pay1 (F := Ideal) x w y = prodArr0 A B i := by
  obtain ⟨r, q, rfl⟩ : ∃ (r : Fin 5000) (q : Fin 128), y = ix2 r q := ⟨y 0, y 1, eq_ix2 y⟩
  rw [pay0_apply]
  show _ = ∑ k : Fin 128, A (ix2 (i 0) k) * B (ix2 k (i 1))
  refine Finset.sum_congr rfl fun k _ => ?_
  have hq : (i 1) = q := Fin.ext h1
  rw [hx (ix2 r k) (ix2 (i 0) k) h0 rfl, hw, hq]

/-- The block written back at point `t` is block `t` of the whole product: the left block is rows `5000 t …` of the left
    operand, the right block all of the right operand, and the result's block sits at the same rows. -/
theorem flushed0_eq (c : Dev nD) (t : Fin cfg0.N) :
    (dat0 (F := Ideal) V c).flushed 2 t = ((cfg0.win 2).blk t).view.read (Elt Ideal) (prodArr0 (V c main_arg0) (V c main_arg3)) := by
  show (cfg0.win 2).cut (grid0.coords t) ((dat0 (F := Ideal) V c).after 2 t) = _
  dsimp only [dat0]
  unfold out0_2
  rw [View.canon_unit_zero origin0]
  simp only [View.ld_unit_zero (S := S5000x128) origin0, View.ld_unit_zero (S := S128x128) origin0]
  obtain ⟨a0, a1, b0, b1, o0, o1⟩ := blockAt0 t
  funext y
  show k0_pay1 (F := Ideal) (iblk0 V c 0 t) (iblk0 V c 1 t) ((win0 2).xinj (grid0.coords t) y) = prodArr0 (V c main_arg0) (V c main_arg3) (((cfg0.win 2).blk t).view.emb y)
  refine point0 (V c main_arg0) (V c main_arg3) _ _ t.val ?_ ?_ _ _ ?_ ?_
  · intro z i h0 h1
    show V c main_arg0 (((cfg0.win 0).blk t).view.emb z) = V c main_arg0 i
    refine congrArg _ (funext fun a => Fin.ext ?_)
    match a with
    | ⟨0, _⟩ => show win0_0.index t (0 : Fin 2) * 5000 + 1 * (z 0).val = (i 0).val; omega
    | ⟨1, _⟩ => show win0_0.index t (1 : Fin 2) * 128 + 1 * (z 1).val = (i 1).val; omega
  · intro z
    show V c main_arg3 (((cfg0.win 1).blk t).view.emb z) = V c main_arg3 z
    refine congrArg _ (funext fun a => Fin.ext ?_)
    match a with
    | ⟨0, _⟩ => show win0_1.index t (0 : Fin 2) * 128 + 1 * (z 0).val = (z 0).val; omega
    | ⟨1, _⟩ => show win0_1.index t (1 : Fin 2) * 128 + 1 * (z 1).val = (z 1).val; omega
  · show win0_2.index t (0 : Fin 2) * 5000 + 1 * (y 0).val = t.val * 5000 + (y 0).val; omega
  · show win0_2.index t (1 : Fin 2) * 128 + 1 * (y 1).val = (y 1).val; omega

/-- An entry of the result array lies in point `t`'s block iff, on each axis, its coordinate is among the block's. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- The twenty blocks of 5000 rows tile the 100000 rows: row `r` lies in the block of point `r / 5000`, which is
    written back like every point. -/
theorem cover0 (i : S100000x128.Idx) :
    ∃ t : Fin cfg0.N, (cfg0.win 2).flush t = true ∧ i ∈ ((cfg0.win 2).blk t).view.set := by
  have hr : (i 0).val < 100000 := (i 0).isLt
  have hc : (i 1).val < 128 := (i 1).isLt
  have hN : cfg0.N = 20 := N_0
  have hlt : (i 0).val / 5000 < cfg0.N := by rw [hN]; omega
  refine ⟨⟨(i 0).val / 5000, hlt⟩, flush0_2 _, ?_⟩
  rw [mem_blk0]
  obtain ⟨-, -, -, -, o0, o1⟩ := blockAt0 ⟨(i 0).val / 5000, hlt⟩
  have o0' : win0_2.index ⟨(i 0).val / 5000, hlt⟩ (0 : Fin 2) = (i 0).val / 5000 := o0
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    omega
  | ⟨1, _⟩ =>
    show win0_2.index ⟨(i 0).val / 5000, hlt⟩ (1 : Fin 2) * 128 ≤ (i 1).val ∧ (i 1).val < win0_2.index ⟨(i 0).val / 5000, hlt⟩ (1 : Fin 2) * 128 + 128
    omega

/-- After the region the result array holds the whole product of the two operands as the region finds them. -/
theorem arr0_eq (c : Dev nD) :
    (dat0 (F := Ideal) V c).arrAt 2 cfg0.N = prodArr0 (V c main_arg0) (V c main_arg3) :=
  (dat0 (F := Ideal) V c).arrAt_eq_of_cover 2 (prodArr0 (V c main_arg0) (V c main_arg3)) (fun t _ => flushed0_eq V c t) cover0

/-- Region 0's result array after its twenty write-backs, entry by entry: row `p` of the left operand `A` against column `q` of the right operand `B`. -/
theorem arr0_apply (c : Dev nD) (A : FVec Ideal S100000x128 .f32) (B : FVec Ideal S128x128 .f32)
    (hA : V c main_arg0 = A) (hB : V c main_arg3 = B) (p : Fin 100000) (q : Fin 128) :
    ((dat0 (F := Ideal) V c).arrAt 2 cfg0.N : FVec Ideal S100000x128 .f32) (ix2 p q) = ∑ k : Fin 128, A (ix2 p k) * B (ix2 k q) := by
  rw [arr0_eq, hA, hB]
  rfl

end Cert.KernelIdeal.Hand

end
-- ==== Proof.Val1.lean ====
/-
  The value of region 1's result array after the run, at the exact instance.

  Region 1 runs over 208 grid points. At point `t` every window's block is rows `8192 t …` of its array, and the
  last block is cut at the array's end (1700000 = 207 · 8192 + 4256). After the body the result buffer holds, at row
  `p` and lane `q`, the feature entry times the product of the three coefficients of row `p` (`pay1_at`); on a row
  inside the array each zero-filled input block holds its array's entry (`fblk1_0_at` … `fblk1_3_at`), so the rows
  written back are the closed form `msg1` read through the point's block (`flushed1_eq`). Row `r` lies in the block
  of point `r / 8192`, in its part inside the array (`cover1`); hence the array ends holding `msg1` (`arr1_eq`).
-/
import proofs.«136756_j77644418777510_1_alg».proof.Proof.Dats
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

open Idealize.ShloMosaic.ValueIdx

variable (V : (c : Dev nD) → (b : Ref sig .tc) → Buf (Elt Ideal) ((c : Thread nD τ).loc b))

/-- The two offsets of a whole-buffer access are zero. -/
theorem off00 : (![0, 0] : Fin 2 → Nat) = fun _ => 0 := funext fun a => by fin_cases a <;> rfl

/-- The message payload at row `p`, lane `q`: the feature entry times the product of the row's three coefficients. -/
theorem pay1_at (a b d : FVec Ideal S8192x1 .f32) (h : FVec Ideal S8192x128 .f32) (p : Fin 8192) (q : Fin 128) :
    k1_pay1 (F := Ideal) a b d h (ix2 p q) = h (ix2 p q) * ((a (ix2 p 0) * b (ix2 p 0)) * d (ix2 p 0)) := by
  unfold k1_pay1
  simp only [shapeCast_self]
  rw [mulf_apply]
  rw [broadcastTo_apply _ _ (ix2 p q) (ix2 p 0) (fun x => by
    match x with
    | ⟨0, _⟩ => rfl
    | ⟨1, _⟩ => rfl)]
  rw [mulf_apply, mulf_apply]

/-- The message buffer after the body, entry by entry. -/
theorem out1_4_at (h : FVec Ideal S8192x128 .f32) (a b d : FVec Ideal S8192x1 .f32) (p : Fin 8192) (q : Fin 128) :
    out1_4 (F := Ideal) h a b d (ix2 p q) = h (ix2 p q) * ((a (ix2 p 0) * b (ix2 p 0)) * d (ix2 p 0)) := by
  unfold out1_4
  rw [View.canon_unit_zero off00]
  simp only [View.ld_unit_zero (S := S8192x1) off00, View.ld_unit_zero (S := S8192x128) off00]
  exact pay1_at a b d h p q

/-- Over the 208 grid points: every window's block at point `t` starts at row `8192 t`, lane 0; the five windows are
    cut alike along the rows — the part inside the array is all 8192 rows, or what is left of the 1700000 —, and along
    the lanes nothing is cut. -/
theorem grid1_facts : ∀ t : Fin cfg1.N,
    (win1_0.index t (0 : Fin 2) = t.val ∧ win1_0.index t (1 : Fin 2) = 0
      ∧ win1_1.index t (0 : Fin 2) = t.val ∧ win1_1.index t (1 : Fin 2) = 0
      ∧ win1_2.index t (0 : Fin 2) = t.val ∧ win1_2.index t (1 : Fin 2) = 0
      ∧ win1_3.index t (0 : Fin 2) = t.val ∧ win1_3.index t (1 : Fin 2) = 0
      ∧ win1_4.index t (0 : Fin 2) = t.val ∧ win1_4.index t (1 : Fin 2) = 0)
    ∧ (win1_0.xsize (grid1.coords t) (0 : Fin 2) = win1_4.xsize (grid1.coords t) (0 : Fin 2)
      ∧ win1_1.xsize (grid1.coords t) (0 : Fin 2) = win1_4.xsize (grid1.coords t) (0 : Fin 2)
      ∧ win1_2.xsize (grid1.coords t) (0 : Fin 2) = win1_4.xsize (grid1.coords t) (0 : Fin 2)
      ∧ win1_3.xsize (grid1.coords t) (0 : Fin 2) = win1_4.xsize (grid1.coords t) (0 : Fin 2))
    ∧ (win1_0.xsize (grid1.coords t) (1 : Fin 2) = 128
      ∧ win1_1.xsize (grid1.coords t) (1 : Fin 2) = 1
      ∧ win1_2.xsize (grid1.coords t) (1 : Fin 2) = 1
      ∧ win1_3.xsize (grid1.coords t) (1 : Fin 2) = 1
      ∧ win1_4.xsize (grid1.coords t) (1 : Fin 2) = 128)
    ∧ (8192 * t.val + win1_4.xsize (grid1.coords t) (0 : Fin 2) ≤ 1700000
      ∧ (win1_4.xsize (grid1.coords t) (0 : Fin 2) = 8192 ∨ 8192 * t.val + win1_4.xsize (grid1.coords t) (0 : Fin 2) = 1700000)) :=
  (by decide +kernel : ∀ t : Fin grid1.N, _)

/-- A zero-filled block read at an index whose every coordinate lies in the part the transfer moves holds what was
    fetched there. -/
theorem fill_at_moved {G : Pipeline.Grid} (w : Window sig G) {α : Type} (i : G.Coords) (z : w.block.Idx → α)
    (g : (w.xblock i).Idx → α) (x : w.block.Idx) (hx : ∀ a, (x a).val < w.xsize i a) :
    w.fill i z g x = g (fun a => ⟨(x a).val, hx a⟩) := by
  unfold Window.fill
  rw [dif_pos ((w.moved_iff i x).mpr hx)]

/-- The feature block at point `t`, at row `x 0` inside the array: the feature array's entry at row `8192 t + x 0`. -/
theorem fblk1_0_at (c : Dev nD) (t : Fin cfg1.N) (x : S8192x128.Idx) (k : S1700000x128.Idx)
    (hin : 8192 * t.val + (x 0).val < 1700000)
    (hk0 : (k 0).val = 8192 * t.val + (x 0).val) (hk1 : (k 1).val = (x 1).val) :
    fblk1_0 V c t x = (V c main_v40 : FVec Ideal S1700000x128 .f32) k := by
  obtain ⟨⟨i00, i01, -⟩, ⟨s0, -⟩, ⟨l0, -⟩, hle, hor⟩ := grid1_facts t
  have hx0 : (x 0).val < 8192 := idx2_lt0 x
  have hx1 : (x 1).val < 128 := idx2_lt1 x
  unfold fblk1_0
  rw [fill_at_moved win1_0 (grid1.coords t) _ _ x (fun a => by
    match a with
    | ⟨0, _⟩ => show (x 0).val < win1_0.xsize (grid1.coords t) (0 : Fin 2); omega
    | ⟨1, _⟩ => show (x 1).val < win1_0.xsize (grid1.coords t) (1 : Fin 2); omega)]
  unfold iblk1
  rw [View.read_apply]
  show V c main_v40 (((cfg1.win 0).blk t).view.emb _) = V c main_v40 k
  congr 1
  funext a
  apply Fin.ext
  match a with
  | ⟨0, _⟩ => show win1_0.index t (0 : Fin 2) * 8192 + 1 * (x 0).val = (k 0).val; omega
  | ⟨1, _⟩ => show win1_0.index t (1 : Fin 2) * 128 + 1 * (x 1).val = (k 1).val; omega

/-- A coefficient block at point `t`, at row `x 0` inside the array: the column's entry at row `8192 t + x 0`. -/
theorem fblk1_1_at (c : Dev nD) (t : Fin cfg1.N) (x : S8192x1.Idx) (k : S1700000x1.Idx)
    (hin : 8192 * t.val + (x 0).val < 1700000) (hk0 : (k 0).val = 8192 * t.val + (x 0).val) :
    fblk1_1 V c t x = (V c main_v41 : FVec Ideal S1700000x1 .f32) k := by
  obtain ⟨⟨-, -, i10, i11, -⟩, ⟨-, s1, -⟩, ⟨-, l1, -⟩, hle, hor⟩ := grid1_facts t
  have hx0 : (x 0).val < 8192 := idx2_lt0 x
  have hx1 : (x 1).val < 1 := idx2_lt1 x
  have hk1 : (k 1).val < 1 := idx2_lt1 k
  unfold fblk1_1
  rw [fill_at_moved win1_1 (grid1.coords t) _ _ x (fun a => by
    match a with
    | ⟨0, _⟩ => show (x 0).val < win1_1.xsize (grid1.coords t) (0 : Fin 2); omega
    | ⟨1, _⟩ => show (x 1).val < win1_1.xsize (grid1.coords t) (1 : Fin 2); omega)]
  unfold iblk1
  rw [View.read_apply]
  show V c main_v41 (((cfg1.win 1).blk t).view.emb _) = V c main_v41 k
  congr 1
  funext a
  apply Fin.ext
  match a with
  | ⟨0, _⟩ => show win1_1.index t (0 : Fin 2) * 8192 + 1 * (x 0).val = (k 0).val; omega
  | ⟨1, _⟩ => show win1_1.index t (1 : Fin 2) * 1 + 1 * (x 1).val = (k 1).val; omega

/-- The second coefficient block likewise. -/
theorem fblk1_2_at (c : Dev nD) (t : Fin cfg1.N) (x : S8192x1.Idx) (k : S1700000x1.Idx)
    (hin : 8192 * t.val + (x 0).val < 1700000) (hk0 : (k 0).val = 8192 * t.val + (x 0).val) :
    fblk1_2 V c t x = (V c main_v42 : FVec Ideal S1700000x1 .f32) k := by
  obtain ⟨⟨-, -, -, -, i20, i21, -⟩, ⟨-, -, s2, -⟩, ⟨-, -, l2, -⟩, hle, hor⟩ := grid1_facts t
  have hx0 : (x 0).val < 8192 := idx2_lt0 x
  have hx1 : (x 1).val < 1 := idx2_lt1 x
  have hk1 : (k 1).val < 1 := idx2_lt1 k
  unfold fblk1_2
  rw [fill_at_moved win1_2 (grid1.coords t) _ _ x (fun a => by
    match a with
    | ⟨0, _⟩ => show (x 0).val < win1_2.xsize (grid1.coords t) (0 : Fin 2); omega
    | ⟨1, _⟩ => show (x 1).val < win1_2.xsize (grid1.coords t) (1 : Fin 2); omega)]
  unfold iblk1
  rw [View.read_apply]
  show V c main_v42 (((cfg1.win 2).blk t).view.emb _) = V c main_v42 k
  congr 1
  funext a
  apply Fin.ext
  match a with
  | ⟨0, _⟩ => show win1_2.index t (0 : Fin 2) * 8192 + 1 * (x 0).val = (k 0).val; omega
  | ⟨1, _⟩ => show win1_2.index t (1 : Fin 2) * 1 + 1 * (x 1).val = (k 1).val; omega

/-- The third coefficient block likewise. -/
theorem fblk1_3_at (c : Dev nD) (t : Fin cfg1.N) (x : S8192x1.Idx) (k : S1700000x1.Idx)
    (hin : 8192 * t.val + (x 0).val < 1700000) (hk0 : (k 0).val = 8192 * t.val + (x 0).val) :
    fblk1_3 V c t x = (V c main_v43 : FVec Ideal S1700000x1 .f32) k := by
  obtain ⟨⟨-, -, -, -, -, -, i30, i31, -⟩, ⟨-, -, -, s3⟩, ⟨-, -, -, l3, -⟩, hle, hor⟩ := grid1_facts t
  have hx0 : (x 0).val < 8192 := idx2_lt0 x
  have hx1 : (x 1).val < 1 := idx2_lt1 x
  have hk1 : (k 1).val < 1 := idx2_lt1 k
  unfold fblk1_3
  rw [fill_at_moved win1_3 (grid1.coords t) _ _ x (fun a => by
    match a with
    | ⟨0, _⟩ => show (x 0).val < win1_3.xsize (grid1.coords t) (0 : Fin 2); omega
    | ⟨1, _⟩ => show (x 1).val < win1_3.xsize (grid1.coords t) (1 : Fin 2); omega)]
  unfold iblk1
  rw [View.read_apply]
  show V c main_v43 (((cfg1.win 3).blk t).view.emb _) = V c main_v43 k
  congr 1
  funext a
  apply Fin.ext
  match a with
  | ⟨0, _⟩ => show win1_3.index t (0 : Fin 2) * 8192 + 1 * (x 0).val = (k 0).val; omega
  | ⟨1, _⟩ => show win1_3.index t (1 : Fin 2) * 1 + 1 * (x 1).val = (k 1).val; omega

/-- Region 1's result array in closed form: at row `e`, lane `l`, the gathered feature times the product of the
    three coefficients of row `e`. -/
def msg1 (H : FVec Ideal S1700000x128 .f32) (A B D : FVec Ideal S1700000x1 .f32) : FVec Ideal S1700000x128 .f32 :=
  fun j => H j * ((A (ix2 (n0 := 1700000) (n1 := 1) (j 0) 0) * B (ix2 (n0 := 1700000) (n1 := 1) (j 0) 0))
    * D (ix2 (n0 := 1700000) (n1 := 1) (j 0) 0))

/-- What the message buffer holds after the body at point `t`, at a block index `x` whose row `8192 t + x 0` is row
    `k 0` of the array: the closed form's entry at `k`. Each zero-filled input block holds its array's entry on such a
    row, the columns at lane 0. -/
theorem point1 (c : Dev nD) (t : Fin cfg1.N) (x : S8192x128.Idx) (k : S1700000x128.Idx)
    (hk0 : (k 0).val = 8192 * t.val + (x 0).val) (hk1 : (k 1).val = (x 1).val) :
    out1_4 (fblk1_0 V c t) (fblk1_1 V c t) (fblk1_2 V c t) (fblk1_3 V c t) x
      = msg1 (V c main_v40) (V c main_v41) (V c main_v42) (V c main_v43) k := by
  have hk : (k 0).val < 1700000 := idx2_lt0 k
  obtain ⟨p, q, rfl⟩ : ∃ (p : Fin 8192) (q : Fin 128), x = ix2 p q := ⟨x 0, x 1, eq_ix2 x⟩
  have hp : (k 0).val = 8192 * t.val + p.val := hk0
  have hq : (k 1).val = q.val := hk1
  rw [out1_4_at,
    fblk1_0_at V c t (ix2 p q) k (by show 8192 * t.val + p.val < 1700000; omega) hk0 hk1,
    fblk1_1_at V c t (ix2 p 0) (ix2 (n0 := 1700000) (n1 := 1) (k 0) 0) (by show 8192 * t.val + p.val < 1700000; omega) hp,
    fblk1_2_at V c t (ix2 p 0) (ix2 (n0 := 1700000) (n1 := 1) (k 0) 0) (by show 8192 * t.val + p.val < 1700000; omega) hp,
    fblk1_3_at V c t (ix2 p 0) (ix2 (n0 := 1700000) (n1 := 1) (k 0) 0) (by show 8192 * t.val + p.val < 1700000; omega) hp]
  rfl

/-- What point `t` writes back — the rows of the message buffer inside the array — is the closed form read through the
    point's block: the block's index `j` sits at row `8192 t + j 0`, lane `j 1` of the array. -/
theorem flushed1_eq (c : Dev nD) (t : Fin cfg1.N) :
    (dat1 (F := Ideal) V c).flushed 4 t
      = ((cfg1.win 4).blk t).view.read (Elt Ideal) (msg1 (V c main_v40) (V c main_v41) (V c main_v42) (V c main_v43)) := by
  obtain ⟨⟨-, -, -, -, -, -, -, -, i40, i41⟩, -, -, -⟩ := grid1_facts t
  show (cfg1.win 4).cut (grid1.coords t) ((dat1 V c).after 4 t) = _
  dsimp only [dat1]
  funext j
  rw [View.read_apply]
  show out1_4 (fblk1_0 V c t) (fblk1_1 V c t) (fblk1_2 V c t) (fblk1_3 V c t) (win1_4.xinj (grid1.coords t) j)
    = msg1 (V c main_v40) (V c main_v41) (V c main_v42) (V c main_v43) (((cfg1.win 4).blk t).view.emb j)
  refine point1 V c t (win1_4.xinj (grid1.coords t) j) _ ?_ ?_
  · show win1_4.index t (0 : Fin 2) * 8192 + 1 * (j 0).val = 8192 * t.val + (j 0).val
    omega
  · show win1_4.index t (1 : Fin 2) * 128 + 1 * (j 1).val = (j 1).val
    omega

/-- An index of the result array lies in point `t`'s block iff on each axis its coordinate is among the block's
    coordinates inside the array. -/
theorem mem_blk1 (t : Fin cfg1.N) (i : S1700000x128.Idx) :
    i ∈ ((cfg1.win 4).blk t).view.set ↔ ∀ a : Fin 2, win1_4.index t a * S8192x128.size a ≤ (i a).val
      ∧ (i a).val < win1_4.index t a * S8192x128.size a + win1_4.xsize (grid1.coords t) a := by
  show i ∈ ((View.whole main_v44).slice (win1_4.rect t)).set ↔ _
  rw [View.set_slice_whole, Rect.mem_set_unit]
  exact Iff.rfl

/-- Every row `r` below 1700000 lies in the block of point `r / 8192`, in its part inside the array. -/
theorem cover1 (i : S1700000x128.Idx) :
    ∃ t : Fin cfg1.N, (cfg1.win 4).flush t = true ∧ i ∈ ((cfg1.win 4).blk t).view.set := by
  have hi0 : (i 0).val < 1700000 := idx2_lt0 i
  have hi1 : (i 1).val < 128 := idx2_lt1 i
  have hN : cfg1.N = 208 := N_1
  obtain ⟨t, ht⟩ : ∃ t : Fin cfg1.N, t.val = (i 0).val / 8192 := ⟨⟨(i 0).val / 8192, by omega⟩, rfl⟩
  obtain ⟨⟨-, -, -, -, -, -, -, -, i40, i41⟩, -, ⟨-, -, -, -, l4⟩, hle, hor⟩ := grid1_facts t
  refine ⟨t, flush1_4 t, ?_⟩
  rw [mem_blk1]
  intro a
  match a with
  | ⟨0, _⟩ =>
    show win1_4.index t (0 : Fin 2) * 8192 ≤ (i 0).val
      ∧ (i 0).val < win1_4.index t (0 : Fin 2) * 8192 + win1_4.xsize (grid1.coords t) (0 : Fin 2)
    omega
  | ⟨1, _⟩ =>
    show win1_4.index t (1 : Fin 2) * 128 ≤ (i 1).val
      ∧ (i 1).val < win1_4.index t (1 : Fin 2) * 128 + win1_4.xsize (grid1.coords t) (1 : Fin 2)
    omega

/-- After the 208 write-backs region 1's result array is the closed form. -/
theorem arr1_eq (c : Dev nD) :
    ((dat1 (F := Ideal) V c).arrAt 4 cfg1.N : FVec Ideal S1700000x128 .f32)
      = msg1 (V c main_v40) (V c main_v41) (V c main_v42) (V c main_v43) :=
  (dat1 (F := Ideal) V c).arrAt_eq_of_cover 4 _ (fun t _ => flushed1_eq V c t) cover1

/-- Region 1's result array after its 208 write-backs, entry by entry: the gathered feature `H` scaled by the product of the edge's three coefficients. -/
theorem arr1_apply (c : Dev nD) (H : FVec Ideal S1700000x128 .f32) (A B D : FVec Ideal S1700000x1 .f32)
    (hH : V c main_v40 = H) (hA : V c main_v41 = A) (hB : V c main_v42 = B) (hD : V c main_v43 = D) (e : Fin 1700000) (l : Fin 128) :
    ((dat1 (F := Ideal) V c).arrAt 4 cfg1.N : FVec Ideal S1700000x128 .f32) (ix2 e l)
      = H (ix2 e l) * ((A (ix2 e 0) * B (ix2 e 0)) * D (ix2 e 0)) := by
  subst hH hA hB hD
  rw [arr1_eq]
  rfl

end Cert.KernelIdeal.Hand

end
-- ==== Proof.Val2.lean ====
import proofs.«136756_j77644418777510_1_alg».proof.Proof.Dats
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

open Idealize.ShloMosaic.ValueIdx

variable (V : (c : Dev nD) → (b : Ref sig .tc) → Buf (Elt Ideal) ((c : Thread nD τ).loc b))

/-- A rectangle that begins in the first row and the first column is offset by nothing on either axis. -/
theorem origin2 : (![0, 0] : Fin 2 → Nat) = fun _ => 0 := funext fun a => by fin_cases a <;> rfl

/-! ## The second product's index maps

A [5000,128] block times the [128,64] weights gives a [5000,64] block. The contraction runs over the left block's 128
columns, which are the weights' 128 rows. -/

/-- The left block is read in the result's row … -/
theorem prod2_left_row (j : S5000x64.Idx) (κ : dot_S5000x128_S128x64_S5000x64_1_0_0_1_n_n.contr.Idx) :
    (dot_S5000x128_S128x64_S5000x64_1_0_0_1_n_n.lhsIdx j κ 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … at the contraction's column; -/
theorem prod2_left_col (j : S5000x64.Idx) (κ : dot_S5000x128_S128x64_S5000x64_1_0_0_1_n_n.contr.Idx) :
    (dot_S5000x128_S128x64_S5000x64_1_0_0_1_n_n.lhsIdx j κ 1).val = (κ ⟨0, by decide⟩).val :=
  dot_S5000x128_S128x64_S5000x64_1_0_0_1_n_n.lhsIdx_val_of_single rfl j κ
/-- the weights at the contraction's row … -/
theorem prod2_right_row (j : S5000x64.Idx) (κ : dot_S5000x128_S128x64_S5000x64_1_0_0_1_n_n.contr.Idx) :
    (dot_S5000x128_S128x64_S5000x64_1_0_0_1_n_n.rhsIdx j κ 0).val = (κ ⟨0, by decide⟩).val :=
  dot_S5000x128_S128x64_S5000x64_1_0_0_1_n_n.rhsIdx_val_of_single rfl j κ
/-- … in the result's column. -/
theorem prod2_right_col (j : S5000x64.Idx) (κ : dot_S5000x128_S128x64_S5000x64_1_0_0_1_n_n.contr.Idx) :
    (dot_S5000x128_S128x64_S5000x64_1_0_0_1_n_n.rhsIdx j κ 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The stored block at row `r`, column `q`. The left block is first recast to its own shape, which changes nothing;
    the two casts to the narrow format are the identity on extended reals; the accumulator is zero. What is left is the
    sum over the 128 contraction positions of the left block's row `r` against the weights' column `q`. -/
theorem pay2_apply (x : FVec Ideal S5000x128 .f32) (w : FVec Ideal S128x64 .f32) (r : Fin 5000) (q : Fin 64) :
    k2_pay1 (F := Ideal) x w (ix2 r q) = ∑ k : Fin 128, x (ix2 r k) * w (ix2 k q) := by
  unfold k2_pay1
  show FloatOps.matmul dot_S5000x128_S128x64_S5000x64_1_0_0_1_n_n none (truncf .bf16 (shapeCast S5000x128 x shapeCasts_S5000x128_S5000x128) bitsLt_bf16_f32) (truncf .bf16 w bitsLt_bf16_f32) (constant S5000x64 .f32 0x00000000#32) (ix2 r q) = _
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 r q) ((contrEquiv1 dot_S5000x128_S128x64_S5000x64_1_0_0_1_n_n 128 rfl rfl).symm k) = ix2 r k := funext fun a => Fin.ext (by
    match a with
    | ⟨0, _⟩ => exact prod2_left_row _ _
    | ⟨1, _⟩ => exact (prod2_left_col _ _).trans hk)
  have er : dot_S5000x128_S128x64_S5000x64_1_0_0_1_n_n.rhsIdx (ix2 r q) ((contrEquiv1 dot_S5000x128_S128x64_S5000x64_1_0_0_1_n_n 128 rfl rfl).symm k) = ix2 k q := funext fun a => Fin.ext (by
    match a with
    | ⟨0, _⟩ => exact (prod2_right_row _ _).trans hk
    | ⟨1, _⟩ => exact prod2_right_col _ _)
  rw [truncf_apply, truncf_apply, shapeCast_self, el, er]

/-! ## From the blocks to the array -/

/-- The product of the whole operands, [100000,128] times [128,64]: the entry in a row and a column is that row of the
    left operand against that column of the weights. -/
def prodArr2 (A : FVec Ideal S100000x128 .f32) (B : FVec Ideal S128x64 .f32) : FVec Ideal S100000x64 .f32 :=
  fun i => ∑ k : Fin 128, A (ix2 (i 0) k) * B (ix2 k (i 1))

/-- Where the three windows' blocks sit at grid point `t`: the left operand's and the result's at block row `t`,
    the weights' always at the origin; no window moves along the columns. -/
theorem blockAt2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One stored block read at one entry, for operands that are known only through the whole arrays: if the left
    block's row `z 0` is row `n * 5000 + z 0` of `A` and the weights' block is `B`, the block's entry `y` is the
    product's entry at row `n * 5000 + y 0` and column `y 1`. -/
theorem point2 (A : FVec Ideal S100000x128 .f32) (B : FVec Ideal S128x64 .f32)
    (x : FVec Ideal S5000x128 .f32) (w : FVec Ideal S128x64 .f32) (n : ℕ)
    (hx : ∀ (z : S5000x128.Idx) (i : S100000x128.Idx), (i 0).val = n * 5000 + (z 0).val → (i 1).val = (z 1).val → x z = A i)
    (hw : ∀ z : S128x64.Idx, w z = B z)
    (y : S5000x64.Idx) (i : S100000x64.Idx) (h0 : (i 0).val = n * 5000 + (y 0).val) (h1 : (i 1).val = (y 1).val) :
    k2_pay1 (F := Ideal) x w y = prodArr2 A B i := by
  obtain ⟨r, q, rfl⟩ : ∃ (r : Fin 5000) (q : Fin 64), y = ix2 r q := ⟨y 0, y 1, eq_ix2 y⟩
  rw [pay2_apply]
  show _ = ∑ k : Fin 128, A (ix2 (i 0) k) * B (ix2 k (i 1))
  refine Finset.sum_congr rfl fun k _ => ?_
  have hq : (i 1) = q := Fin.ext h1
  rw [hx (ix2 r k) (ix2 (i 0) k) h0 rfl, hw, hq]

/-- The block written back at point `t` is block `t` of the whole product: the left block is rows `5000 t …` of the
    left operand, the weights' block all of the weights, and the result's block sits at the same rows. -/
theorem flushed2_eq (c : Dev nD) (t : Fin cfg2.N) :
    (dat2 (F := Ideal) V c).flushed 2 t = ((cfg2.win 2).blk t).view.read (Elt Ideal) (prodArr2 (V c main_v51) (V c main_arg5)) := by
  show (cfg2.win 2).cut (grid2.coords t) ((dat2 (F := Ideal) V c).after 2 t) = _
  dsimp only [dat2]
  unfold out2_2
  rw [View.canon_unit_zero origin2]
  simp only [View.ld_unit_zero (S := S5000x128) origin2, View.ld_unit_zero (S := S128x64) origin2]
  obtain ⟨a0, a1, b0, b1, o0, o1⟩ := blockAt2 t
  funext y
  show k2_pay1 (F := Ideal) (iblk2 V c 0 t) (iblk2 V c 1 t) ((win2 2).xinj (grid2.coords t) y) = prodArr2 (V c main_v51) (V c main_arg5) (((cfg2.win 2).blk t).view.emb y)
  refine point2 (V c main_v51) (V c main_arg5) _ _ t.val ?_ ?_ _ _ ?_ ?_
  · intro z i h0 h1
    show V c main_v51 (((cfg2.win 0).blk t).view.emb z) = V c main_v51 i
    refine congrArg _ (funext fun a => Fin.ext ?_)
    match a with
    | ⟨0, _⟩ => show win2_0.index t (0 : Fin 2) * 5000 + 1 * (z 0).val = (i 0).val; omega
    | ⟨1, _⟩ => show win2_0.index t (1 : Fin 2) * 128 + 1 * (z 1).val = (i 1).val; omega
  · intro z
    show V c main_arg5 (((cfg2.win 1).blk t).view.emb z) = V c main_arg5 z
    refine congrArg _ (funext fun a => Fin.ext ?_)
    match a with
    | ⟨0, _⟩ => show win2_1.index t (0 : Fin 2) * 128 + 1 * (z 0).val = (z 0).val; omega
    | ⟨1, _⟩ => show win2_1.index t (1 : Fin 2) * 64 + 1 * (z 1).val = (z 1).val; omega
  · show win2_2.index t (0 : Fin 2) * 5000 + 1 * (y 0).val = t.val * 5000 + (y 0).val; omega
  · show win2_2.index t (1 : Fin 2) * 64 + 1 * (y 1).val = (y 1).val; omega

/-- An entry of the result array lies in point `t`'s block iff, on each axis, its coordinate is among the block's. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v52).slice (win2_2.rect t)).set ↔ _
  rw [View.set_slice_whole, Rect.mem_set_unit]
  exact Iff.rfl

/-- The twenty blocks of 5000 rows tile the 100000 rows: row `r` lies in the block of point `r / 5000`, which is
    written back like every point. -/
theorem cover2 (i : S100000x64.Idx) :
    ∃ t : Fin cfg2.N, (cfg2.win 2).flush t = true ∧ i ∈ ((cfg2.win 2).blk t).view.set := by
  have hr : (i 0).val < 100000 := (i 0).isLt
  have hc : (i 1).val < 64 := (i 1).isLt
  have hN : cfg2.N = 20 := N_2
  have hlt : (i 0).val / 5000 < cfg2.N := by rw [hN]; omega
  refine ⟨⟨(i 0).val / 5000, hlt⟩, flush2_2 _, ?_⟩
  rw [mem_blk2]
  obtain ⟨-, -, -, -, o0, o1⟩ := blockAt2 ⟨(i 0).val / 5000, hlt⟩
  have o0' : win2_2.index ⟨(i 0).val / 5000, hlt⟩ (0 : Fin 2) = (i 0).val / 5000 := o0
  intro a
  match a with
  | ⟨0, _⟩ =>
    show win2_2.index ⟨(i 0).val / 5000, hlt⟩ (0 : Fin 2) * 5000 ≤ (i 0).val ∧ (i 0).val < win2_2.index ⟨(i 0).val / 5000, hlt⟩ (0 : Fin 2) * 5000 + 5000
    omega
  | ⟨1, _⟩ =>
    show win2_2.index ⟨(i 0).val / 5000, hlt⟩ (1 : Fin 2) * 64 ≤ (i 1).val ∧ (i 1).val < win2_2.index ⟨(i 0).val / 5000, hlt⟩ (1 : Fin 2) * 64 + 64
    omega

/-- After the region the result array holds the whole product of the two operands as the region finds them. -/
theorem arr2_eq (c : Dev nD) :
    (dat2 (F := Ideal) V c).arrAt 2 cfg2.N = prodArr2 (V c main_v51) (V c main_arg5) :=
  (dat2 (F := Ideal) V c).arrAt_eq_of_cover 2 (prodArr2 (V c main_v51) (V c main_arg5)) (fun t _ => flushed2_eq V c t) cover2

/-- Region 2's result array after its twenty write-backs, entry by entry. -/
theorem arr2_apply (c : Dev nD) (A : FVec Ideal S100000x128 .f32) (B : FVec Ideal S128x64 .f32)
    (hA : V c main_v51 = A) (hB : V c main_arg5 = B) (p : Fin 100000) (q : Fin 64) :
    ((dat2 (F := Ideal) V c).arrAt 2 cfg2.N : FVec Ideal S100000x64 .f32) (ix2 p q) = ∑ k : Fin 128, A (ix2 p k) * B (ix2 k q) := by
  rw [arr2_eq, hA, hB]
  rfl

end Cert.KernelIdeal.Hand

end
-- ==== Proof.Val3.lean ====
/-
  The value of region 3's result array after the run, at the exact instance.

  Region 3 runs over 208 grid points. At point `t` every window's block is rows `8192 t …` of its array, and the
  last block is cut at the array's end (1700000 = 207 · 8192 + 4256). After the body the result buffer holds, at row
  `p` and lane `q`, the feature entry times the product of the three coefficients of row `p` (`pay3_at`); on a row
  inside the array each zero-filled input block holds its array's entry (`fblk3_0_at` … `fblk3_3_at`), so the rows
  written back are the closed form `msg3` read through the point's block (`flushed3_eq`). Row `r` lies in the block
  of point `r / 8192`, in its part inside the array (`cover3`); hence the array ends holding `msg3` (`arr3_eq`).
-/
import proofs.«136756_j77644418777510_1_alg».proof.Proof.Dats
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

open Idealize.ShloMosaic.ValueIdx

variable (V : (c : Dev nD) → (b : Ref sig .tc) → Buf (Elt Ideal) ((c : Thread nD τ).loc b))

/-- The two offsets of a whole-buffer access are zero. -/
theorem off00_3 : (![0, 0] : Fin 2 → Nat) = fun _ => 0 := funext fun a => by fin_cases a <;> rfl

/-- The message payload at row `p`, lane `q`: the feature entry times the product of the row's three coefficients. -/
theorem pay3_at (a b d : FVec Ideal S8192x1 .f32) (h : FVec Ideal S8192x64 .f32) (p : Fin 8192) (q : Fin 64) :
    k3_pay1 (F := Ideal) a b d h (ix2 p q) = h (ix2 p q) * ((a (ix2 p 0) * b (ix2 p 0)) * d (ix2 p 0)) := by
  unfold k3_pay1
  simp only [shapeCast_self]
  rw [mulf_apply]
  rw [broadcastTo_apply _ _ (ix2 p q) (ix2 p 0) (fun x => by
    match x with
    | ⟨0, _⟩ => rfl
    | ⟨1, _⟩ => rfl)]
  rw [mulf_apply, mulf_apply]

/-- The message buffer after the body, entry by entry. -/
theorem out3_4_at (h : FVec Ideal S8192x64 .f32) (a b d : FVec Ideal S8192x1 .f32) (p : Fin 8192) (q : Fin 64) :
    out3_4 (F := Ideal) h a b d (ix2 p q) = h (ix2 p q) * ((a (ix2 p 0) * b (ix2 p 0)) * d (ix2 p 0)) := by
  unfold out3_4
  rw [View.canon_unit_zero off00_3]
  simp only [View.ld_unit_zero (S := S8192x1) off00_3, View.ld_unit_zero (S := S8192x64) off00_3]
  exact pay3_at a b d h p q

/-- Over the 208 grid points: every window's block at point `t` starts at row `8192 t`, lane 0; the five windows are
    cut alike along the rows — the part inside the array is all 8192 rows, or what is left of the 1700000 —, and along
    the lanes nothing is cut. -/
theorem grid3_facts : ∀ t : Fin cfg3.N,
    (win3_0.index t (0 : Fin 2) = t.val ∧ win3_0.index t (1 : Fin 2) = 0
      ∧ win3_1.index t (0 : Fin 2) = t.val ∧ win3_1.index t (1 : Fin 2) = 0
      ∧ win3_2.index t (0 : Fin 2) = t.val ∧ win3_2.index t (1 : Fin 2) = 0
      ∧ win3_3.index t (0 : Fin 2) = t.val ∧ win3_3.index t (1 : Fin 2) = 0
      ∧ win3_4.index t (0 : Fin 2) = t.val ∧ win3_4.index t (1 : Fin 2) = 0)
    ∧ (win3_0.xsize (grid3.coords t) (0 : Fin 2) = win3_4.xsize (grid3.coords t) (0 : Fin 2)
      ∧ win3_1.xsize (grid3.coords t) (0 : Fin 2) = win3_4.xsize (grid3.coords t) (0 : Fin 2)
      ∧ win3_2.xsize (grid3.coords t) (0 : Fin 2) = win3_4.xsize (grid3.coords t) (0 : Fin 2)
      ∧ win3_3.xsize (grid3.coords t) (0 : Fin 2) = win3_4.xsize (grid3.coords t) (0 : Fin 2))
    ∧ (win3_0.xsize (grid3.coords t) (1 : Fin 2) = 64
      ∧ win3_1.xsize (grid3.coords t) (1 : Fin 2) = 1
      ∧ win3_2.xsize (grid3.coords t) (1 : Fin 2) = 1
      ∧ win3_3.xsize (grid3.coords t) (1 : Fin 2) = 1
      ∧ win3_4.xsize (grid3.coords t) (1 : Fin 2) = 64)
    ∧ (8192 * t.val + win3_4.xsize (grid3.coords t) (0 : Fin 2) ≤ 1700000
      ∧ (win3_4.xsize (grid3.coords t) (0 : Fin 2) = 8192 ∨ 8192 * t.val + win3_4.xsize (grid3.coords t) (0 : Fin 2) = 1700000)) :=
  (by decide +kernel : ∀ t : Fin grid3.N, _)

/-- A zero-filled block read at an index whose every coordinate lies in the part the transfer moves holds what was
    fetched there. -/
theorem fill_at_moved3 {G : Pipeline.Grid} (w : Window sig G) {α : Type} (i : G.Coords) (z : w.block.Idx → α)
    (g : (w.xblock i).Idx → α) (x : w.block.Idx) (hx : ∀ a, (x a).val < w.xsize i a) :
    w.fill i z g x = g (fun a => ⟨(x a).val, hx a⟩) := by
  unfold Window.fill
  rw [dif_pos ((w.moved_iff i x).mpr hx)]

/-- The feature block at point `t`, at row `x 0` inside the array: the feature array's entry at row `8192 t + x 0`. -/
theorem fblk3_0_at (c : Dev nD) (t : Fin cfg3.N) (x : S8192x64.Idx) (k : S1700000x64.Idx)
    (hin : 8192 * t.val + (x 0).val < 1700000)
    (hk0 : (k 0).val = 8192 * t.val + (x 0).val) (hk1 : (k 1).val = (x 1).val) :
    fblk3_0 V c t x = (V c main_v59 : FVec Ideal S1700000x64 .f32) k := by
  obtain ⟨⟨i00, i01, -⟩, ⟨s0, -⟩, ⟨l0, -⟩, hle, hor⟩ := grid3_facts t
  have hx0 : (x 0).val < 8192 := idx2_lt0 x
  have hx1 : (x 1).val < 64 := idx2_lt1 x
  unfold fblk3_0
  rw [fill_at_moved3 win3_0 (grid3.coords t) _ _ x (fun a => by
    match a with
    | ⟨0, _⟩ => show (x 0).val < win3_0.xsize (grid3.coords t) (0 : Fin 2); omega
    | ⟨1, _⟩ => show (x 1).val < win3_0.xsize (grid3.coords t) (1 : Fin 2); omega)]
  unfold iblk3
  rw [View.read_apply]
  show V c main_v59 (((cfg3.win 0).blk t).view.emb _) = V c main_v59 k
  congr 1
  funext a
  apply Fin.ext
  match a with
  | ⟨0, _⟩ => show win3_0.index t (0 : Fin 2) * 8192 + 1 * (x 0).val = (k 0).val; omega
  | ⟨1, _⟩ => show win3_0.index t (1 : Fin 2) * 64 + 1 * (x 1).val = (k 1).val; omega

/-- A coefficient block at point `t`, at row `x 0` inside the array: the column's entry at row `8192 t + x 0`. -/
theorem fblk3_1_at (c : Dev nD) (t : Fin cfg3.N) (x : S8192x1.Idx) (k : S1700000x1.Idx)
    (hin : 8192 * t.val + (x 0).val < 1700000) (hk0 : (k 0).val = 8192 * t.val + (x 0).val) :
    fblk3_1 V c t x = (V c main_v60 : FVec Ideal S1700000x1 .f32) k := by
  obtain ⟨⟨-, -, i10, i11, -⟩, ⟨-, s1, -⟩, ⟨-, l1, -⟩, hle, hor⟩ := grid3_facts t
  have hx0 : (x 0).val < 8192 := idx2_lt0 x
  have hx1 : (x 1).val < 1 := idx2_lt1 x
  have hk1 : (k 1).val < 1 := idx2_lt1 k
  unfold fblk3_1
  rw [fill_at_moved3 win3_1 (grid3.coords t) _ _ x (fun a => by
    match a with
    | ⟨0, _⟩ => show (x 0).val < win3_1.xsize (grid3.coords t) (0 : Fin 2); omega
    | ⟨1, _⟩ => show (x 1).val < win3_1.xsize (grid3.coords t) (1 : Fin 2); omega)]
  unfold iblk3
  rw [View.read_apply]
  show V c main_v60 (((cfg3.win 1).blk t).view.emb _) = V c main_v60 k
  congr 1
  funext a
  apply Fin.ext
  match a with
  | ⟨0, _⟩ => show win3_1.index t (0 : Fin 2) * 8192 + 1 * (x 0).val = (k 0).val; omega
  | ⟨1, _⟩ => show win3_1.index t (1 : Fin 2) * 1 + 1 * (x 1).val = (k 1).val; omega

/-- The second coefficient block likewise. -/
theorem fblk3_2_at (c : Dev nD) (t : Fin cfg3.N) (x : S8192x1.Idx) (k : S1700000x1.Idx)
    (hin : 8192 * t.val + (x 0).val < 1700000) (hk0 : (k 0).val = 8192 * t.val + (x 0).val) :
    fblk3_2 V c t x = (V c main_v61 : FVec Ideal S1700000x1 .f32) k := by
  obtain ⟨⟨-, -, -, -, i20, i21, -⟩, ⟨-, -, s2, -⟩, ⟨-, -, l2, -⟩, hle, hor⟩ := grid3_facts t
  have hx0 : (x 0).val < 8192 := idx2_lt0 x
  have hx1 : (x 1).val < 1 := idx2_lt1 x
  have hk1 : (k 1).val < 1 := idx2_lt1 k
  unfold fblk3_2
  rw [fill_at_moved3 win3_2 (grid3.coords t) _ _ x (fun a => by
    match a with
    | ⟨0, _⟩ => show (x 0).val < win3_2.xsize (grid3.coords t) (0 : Fin 2); omega
    | ⟨1, _⟩ => show (x 1).val < win3_2.xsize (grid3.coords t) (1 : Fin 2); omega)]
  unfold iblk3
  rw [View.read_apply]
  show V c main_v61 (((cfg3.win 2).blk t).view.emb _) = V c main_v61 k
  congr 1
  funext a
  apply Fin.ext
  match a with
  | ⟨0, _⟩ => show win3_2.index t (0 : Fin 2) * 8192 + 1 * (x 0).val = (k 0).val; omega
  | ⟨1, _⟩ => show win3_2.index t (1 : Fin 2) * 1 + 1 * (x 1).val = (k 1).val; omega

/-- The third coefficient block likewise. -/
theorem fblk3_3_at (c : Dev nD) (t : Fin cfg3.N) (x : S8192x1.Idx) (k : S1700000x1.Idx)
    (hin : 8192 * t.val + (x 0).val < 1700000) (hk0 : (k 0).val = 8192 * t.val + (x 0).val) :
    fblk3_3 V c t x = (V c main_v62 : FVec Ideal S1700000x1 .f32) k := by
  obtain ⟨⟨-, -, -, -, -, -, i30, i31, -⟩, ⟨-, -, -, s3⟩, ⟨-, -, -, l3, -⟩, hle, hor⟩ := grid3_facts t
  have hx0 : (x 0).val < 8192 := idx2_lt0 x
  have hx1 : (x 1).val < 1 := idx2_lt1 x
  have hk1 : (k 1).val < 1 := idx2_lt1 k
  unfold fblk3_3
  rw [fill_at_moved3 win3_3 (grid3.coords t) _ _ x (fun a => by
    match a with
    | ⟨0, _⟩ => show (x 0).val < win3_3.xsize (grid3.coords t) (0 : Fin 2); omega
    | ⟨1, _⟩ => show (x 1).val < win3_3.xsize (grid3.coords t) (1 : Fin 2); omega)]
  unfold iblk3
  rw [View.read_apply]
  show V c main_v62 (((cfg3.win 3).blk t).view.emb _) = V c main_v62 k
  congr 1
  funext a
  apply Fin.ext
  match a with
  | ⟨0, _⟩ => show win3_3.index t (0 : Fin 2) * 8192 + 1 * (x 0).val = (k 0).val; omega
  | ⟨1, _⟩ => show win3_3.index t (1 : Fin 2) * 1 + 1 * (x 1).val = (k 1).val; omega

/-- Region 3's result array in closed form: at row `e`, lane `l`, the gathered feature times the product of the
    three coefficients of row `e`. -/
def msg3 (H : FVec Ideal S1700000x64 .f32) (A B D : FVec Ideal S1700000x1 .f32) : FVec Ideal S1700000x64 .f32 :=
  fun j => H j * ((A (ix2 (n0 := 1700000) (n1 := 1) (j 0) 0) * B (ix2 (n0 := 1700000) (n1 := 1) (j 0) 0))
    * D (ix2 (n0 := 1700000) (n1 := 1) (j 0) 0))

/-- What the message buffer holds after the body at point `t`, at a block index `x` whose row `8192 t + x 0` is row
    `k 0` of the array: the closed form's entry at `k`. Each zero-filled input block holds its array's entry on such a
    row, the columns at lane 0. -/
theorem point3 (c : Dev nD) (t : Fin cfg3.N) (x : S8192x64.Idx) (k : S1700000x64.Idx)
    (hk0 : (k 0).val = 8192 * t.val + (x 0).val) (hk1 : (k 1).val = (x 1).val) :
    out3_4 (fblk3_0 V c t) (fblk3_1 V c t) (fblk3_2 V c t) (fblk3_3 V c t) x
      = msg3 (V c main_v59) (V c main_v60) (V c main_v61) (V c main_v62) k := by
  have hk : (k 0).val < 1700000 := idx2_lt0 k
  obtain ⟨p, q, rfl⟩ : ∃ (p : Fin 8192) (q : Fin 64), x = ix2 p q := ⟨x 0, x 1, eq_ix2 x⟩
  have hp : (k 0).val = 8192 * t.val + p.val := hk0
  have hq : (k 1).val = q.val := hk1
  rw [out3_4_at,
    fblk3_0_at V c t (ix2 p q) k (by show 8192 * t.val + p.val < 1700000; omega) hk0 hk1,
    fblk3_1_at V c t (ix2 p 0) (ix2 (n0 := 1700000) (n1 := 1) (k 0) 0) (by show 8192 * t.val + p.val < 1700000; omega) hp,
    fblk3_2_at V c t (ix2 p 0) (ix2 (n0 := 1700000) (n1 := 1) (k 0) 0) (by show 8192 * t.val + p.val < 1700000; omega) hp,
    fblk3_3_at V c t (ix2 p 0) (ix2 (n0 := 1700000) (n1 := 1) (k 0) 0) (by show 8192 * t.val + p.val < 1700000; omega) hp]
  rfl

/-- What point `t` writes back — the rows of the message buffer inside the array — is the closed form read through the
    point's block: the block's index `j` sits at row `8192 t + j 0`, lane `j 1` of the array. -/
theorem flushed3_eq (c : Dev nD) (t : Fin cfg3.N) :
    (dat3 (F := Ideal) V c).flushed 4 t
      = ((cfg3.win 4).blk t).view.read (Elt Ideal) (msg3 (V c main_v59) (V c main_v60) (V c main_v61) (V c main_v62)) := by
  obtain ⟨⟨-, -, -, -, -, -, -, -, i40, i41⟩, -, -, -⟩ := grid3_facts t
  show (cfg3.win 4).cut (grid3.coords t) ((dat3 V c).after 4 t) = _
  dsimp only [dat3]
  funext j
  rw [View.read_apply]
  show out3_4 (fblk3_0 V c t) (fblk3_1 V c t) (fblk3_2 V c t) (fblk3_3 V c t) (win3_4.xinj (grid3.coords t) j)
    = msg3 (V c main_v59) (V c main_v60) (V c main_v61) (V c main_v62) (((cfg3.win 4).blk t).view.emb j)
  refine point3 V c t (win3_4.xinj (grid3.coords t) j) _ ?_ ?_
  · show win3_4.index t (0 : Fin 2) * 8192 + 1 * (j 0).val = 8192 * t.val + (j 0).val
    omega
  · show win3_4.index t (1 : Fin 2) * 64 + 1 * (j 1).val = (j 1).val
    omega

/-- An index of the result array lies in point `t`'s block iff on each axis its coordinate is among the block's
    coordinates inside the array. -/
theorem mem_blk3 (t : Fin cfg3.N) (i : S1700000x64.Idx) :
    i ∈ ((cfg3.win 4).blk t).view.set ↔ ∀ a : Fin 2, win3_4.index t a * S8192x64.size a ≤ (i a).val
      ∧ (i a).val < win3_4.index t a * S8192x64.size a + win3_4.xsize (grid3.coords t) a := by
  show i ∈ ((View.whole main_v63).slice (win3_4.rect t)).set ↔ _
  rw [View.set_slice_whole, Rect.mem_set_unit]
  exact Iff.rfl

/-- Every row `r` below 1700000 lies in the block of point `r / 8192`, in its part inside the array. -/
theorem cover3 (i : S1700000x64.Idx) :
    ∃ t : Fin cfg3.N, (cfg3.win 4).flush t = true ∧ i ∈ ((cfg3.win 4).blk t).view.set := by
  have hi0 : (i 0).val < 1700000 := idx2_lt0 i
  have hi1 : (i 1).val < 64 := idx2_lt1 i
  have hN : cfg3.N = 208 := N_3
  obtain ⟨t, ht⟩ : ∃ t : Fin cfg3.N, t.val = (i 0).val / 8192 := ⟨⟨(i 0).val / 8192, by omega⟩, rfl⟩
  obtain ⟨⟨-, -, -, -, -, -, -, -, i40, i41⟩, -, ⟨-, -, -, -, l4⟩, hle, hor⟩ := grid3_facts t
  refine ⟨t, flush3_4 t, ?_⟩
  rw [mem_blk3]
  intro a
  match a with
  | ⟨0, _⟩ =>
    show win3_4.index t (0 : Fin 2) * 8192 ≤ (i 0).val
      ∧ (i 0).val < win3_4.index t (0 : Fin 2) * 8192 + win3_4.xsize (grid3.coords t) (0 : Fin 2)
    omega
  | ⟨1, _⟩ =>
    show win3_4.index t (1 : Fin 2) * 64 ≤ (i 1).val
      ∧ (i 1).val < win3_4.index t (1 : Fin 2) * 64 + win3_4.xsize (grid3.coords t) (1 : Fin 2)
    omega

/-- After the 208 write-backs region 3's result array is the closed form. -/
theorem arr3_eq (c : Dev nD) :
    ((dat3 (F := Ideal) V c).arrAt 4 cfg3.N : FVec Ideal S1700000x64 .f32)
      = msg3 (V c main_v59) (V c main_v60) (V c main_v61) (V c main_v62) :=
  (dat3 (F := Ideal) V c).arrAt_eq_of_cover 4 _ (fun t _ => flushed3_eq V c t) cover3

/-- Region 3's result array after its 208 write-backs, entry by entry: the gathered feature `H` scaled by the product of the edge's three coefficients. -/
theorem arr3_apply (c : Dev nD) (H : FVec Ideal S1700000x64 .f32) (A B D : FVec Ideal S1700000x1 .f32)
    (hH : V c main_v59 = H) (hA : V c main_v60 = A) (hB : V c main_v61 = B) (hD : V c main_v62 = D) (e : Fin 1700000) (l : Fin 64) :
    ((dat3 (F := Ideal) V c).arrAt 4 cfg3.N : FVec Ideal S1700000x64 .f32) (ix2 e l)
      = H (ix2 e l) * ((A (ix2 e 0) * B (ix2 e 0)) * D (ix2 e 0)) := by
  subst hH hA hB hD
  rw [arr3_eq]
  rfl

end Cert.KernelIdeal.Hand

end
-- ==== Proof.Bridge.lean ====
/-
  The kernel program computes the specified network.

  Region 0's result is the dense product of the node features with the first weight matrix; region 1's is the
  first layer's messages, the product's row at each edge's source scaled by the edge's coefficient; region 2's
  is the dense product of the rectified first layer with the second weight matrix; region 3's the second layer's
  messages. Each is read entry by entry off the region's write-backs and matched with the host operation the
  reference uses for it; the host operations between the regions are the specification's own. Composed, the
  program's result buffer ends at `Spec.net` of the seven arguments.
-/
import proofs.«136756_j77644418777510_1_alg».proof.Proof.KSteps
import proofs.«136756_j77644418777510_1_alg».proof.Proof.Val0
import proofs.«136756_j77644418777510_1_alg».proof.Proof.Val1
import proofs.«136756_j77644418777510_1_alg».proof.Proof.Val2
import proofs.«136756_j77644418777510_1_alg».proof.Proof.Val3
import proofs.«136756_j77644418777510_1_alg».proof.Proof.Gen.ReferenceIdeal.Read
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

/-! ## The reference's two dense products, entry by entry -/

/-- Entry `(p, q)` of the first product is row `p` of the left operand against column `q` of the right. -/
theorem prod128_apply (x : (⟨Cert.ReferenceIdeal.S100000x128, .f32⟩ : BufTy).Contents (Elt Ideal)) (W : (⟨Cert.ReferenceIdeal.S128x128, .f32⟩ : BufTy).Contents (Elt Ideal))
    (p : Fin 100000) (q : Fin 128) :
    Cert.ReferenceIdeal.Spec.prod128 x W (ix2 p q) = ∑ k : Fin 128, x (ix2 p k) * W (ix2 k q) := by
  show Cert.ReferenceIdeal.Read.val_main_v9 (F := Ideal) x W (ix2 p q) = _
  rw [Cert.ReferenceIdeal.Read.val_main_v9_apply]
  refine Finset.sum_congr rfl fun k _ => ?_
  have e1 : Cert.ReferenceIdeal.Read.lidx_main_v9 (ix2 p q) k = ix2 p k := funext fun a => by
    match a with
    | ⟨0, _⟩ => rfl
    | ⟨1, _⟩ => rfl
  have e2 : Cert.ReferenceIdeal.Read.ridx_main_v9 (ix2 p q) k = ix2 k q := funext fun a => by
    match a with
    | ⟨0, _⟩ => rfl
    | ⟨1, _⟩ => rfl
  rw [e1, e2]

/-- The same for the second product, of width 64. -/
theorem prod64_apply (x : (⟨Cert.ReferenceIdeal.S100000x128, .f32⟩ : BufTy).Contents (Elt Ideal)) (W : (⟨Cert.ReferenceIdeal.S128x64, .f32⟩ : BufTy).Contents (Elt Ideal))
    (p : Fin 100000) (q : Fin 64) :
    Cert.ReferenceIdeal.Spec.prod64 x W (ix2 p q) = ∑ k : Fin 128, x (ix2 p k) * W (ix2 k q) := by
  unfold Cert.ReferenceIdeal.Spec.prod64
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 p q) ((ValueIdx.contrEquiv1 Cert.ReferenceIdeal.dot_S100000x128_S128x64_S100000x64_1_0_0_1_n_n 128 rfl rfl).symm k) = ix2 p k :=
    funext fun a => Fin.ext (by
      match a with
      | ⟨0, _⟩ => exact Cert.ReferenceIdeal.Read.lhs_main_v53_0 _ _
      | ⟨1, _⟩ => exact (Cert.ReferenceIdeal.Read.lhs_main_v53_1 _ _).trans hk)
  have er : Cert.ReferenceIdeal.dot_S100000x128_S128x64_S100000x64_1_0_0_1_n_n.rhsIdx (ix2 p q) ((ValueIdx.contrEquiv1 Cert.ReferenceIdeal.dot_S100000x128_S128x64_S100000x64_1_0_0_1_n_n 128 rfl rfl).symm k) = ix2 k q :=
    funext fun a => Fin.ext (by
      match a with
      | ⟨0, _⟩ => exact (Cert.ReferenceIdeal.Read.rhs_main_v53_0 _ _).trans hk
      | ⟨1, _⟩ => exact Cert.ReferenceIdeal.Read.rhs_main_v53_1 _ _)
  rw [el, er]

/-! ## The reference's messages, entry by entry -/

/-- Entry `(e, l)` of a layer's messages is the gathered feature there times the edge's coefficient. -/
theorem msg128_apply (h : (⟨Cert.ReferenceIdeal.S100000x128, .f32⟩ : BufTy).Contents (Elt Ideal)) (ei : (⟨Cert.ReferenceIdeal.S2x1600000, .i32⟩ : BufTy).Contents (Elt Ideal))
    (w : (⟨Cert.ReferenceIdeal.S1600000, .f32⟩ : BufTy).Contents (Elt Ideal)) (e : Fin 1700000) (l : Fin 128) :
    Cert.ReferenceIdeal.Spec.msg128 h ei w (ix2 e l)
      = Host.gather Cert.ReferenceIdeal.gather_S100000x128_S1700000x1_S1700000x128_1_0_n_n_0_1_1128 h (Cert.ReferenceIdeal.Spec.idxV (Cert.ReferenceIdeal.Spec.srcV ei)) (ix2 e l)
        * ((Cert.ReferenceIdeal.Spec.disSrc ei w (ix1 e) * Cert.ReferenceIdeal.Spec.ewV w (ix1 e)) * Cert.ReferenceIdeal.Spec.disDst ei w (ix1 e)) := by
  unfold Cert.ReferenceIdeal.Spec.msg128 Cert.ReferenceIdeal.Spec.normV
  rw [mulf_apply,
    broadcastInDim_apply _ Cert.ReferenceIdeal.Facts₀.bcast_S1700000x1_S1700000x128_0_1 _ (ix2 e l) (ix2 e 0) (fun a => by
      match a with
      | ⟨0, _⟩ => rfl
      | ⟨1, _⟩ => rfl),
    broadcastInDim_apply _ Cert.ReferenceIdeal.Facts₀.bcast_S1700000_S1700000x1_0 _ (ix2 e 0) (ix1 e) (fun a => by
      match a with
      | ⟨0, _⟩ => rfl),
    mulf_apply, mulf_apply]

theorem msg64_apply (h : (⟨Cert.ReferenceIdeal.S100000x64, .f32⟩ : BufTy).Contents (Elt Ideal)) (ei : (⟨Cert.ReferenceIdeal.S2x1600000, .i32⟩ : BufTy).Contents (Elt Ideal))
    (w : (⟨Cert.ReferenceIdeal.S1600000, .f32⟩ : BufTy).Contents (Elt Ideal)) (e : Fin 1700000) (l : Fin 64) :
    Cert.ReferenceIdeal.Spec.msg64 h ei w (ix2 e l)
      = Host.gather Cert.ReferenceIdeal.gather_S100000x64_S1700000x1_S1700000x64_1_0_n_n_0_1_164 h (Cert.ReferenceIdeal.Spec.idxV (Cert.ReferenceIdeal.Spec.srcV ei)) (ix2 e l)
        * ((Cert.ReferenceIdeal.Spec.disSrc ei w (ix1 e) * Cert.ReferenceIdeal.Spec.ewV w (ix1 e)) * Cert.ReferenceIdeal.Spec.disDst ei w (ix1 e)) := by
  unfold Cert.ReferenceIdeal.Spec.msg64 Cert.ReferenceIdeal.Spec.normV
  rw [mulf_apply,
    broadcastInDim_apply _ Cert.ReferenceIdeal.Facts₀.bcast_S1700000x1_S1700000x64_0_1 _ (ix2 e l) (ix2 e 0) (fun a => by
      match a with
      | ⟨0, _⟩ => rfl
      | ⟨1, _⟩ => rfl),
    broadcastInDim_apply _ Cert.ReferenceIdeal.Facts₀.bcast_S1700000_S1700000x1_0 _ (ix2 e 0) (ix1 e) (fun a => by
      match a with
      | ⟨0, _⟩ => rfl),
    mulf_apply, mulf_apply]

/-! ## The four regions' results -/

variable (m : (ℓ : Loc nD τ sig) → Buf (Elt Ideal) ℓ) (c : Dev nD) (outs : Outs (F := Ideal)) (hO : OutsOk m outs)

include hO in
/-- Region 0 leaves the product of the features with the first weight matrix. -/
theorem region0_result : outs 6 main_v33 c = Cert.ReferenceIdeal.Spec.prod128 (m ((c.tc : Thread nD τ).loc main_arg0)) (m ((c.tc : Thread nD τ).loc main_arg3)) := by
  rw [hO.o6 c]
  funext j
  obtain ⟨p, q, rfl⟩ : ∃ (p : Fin 100000) (q : Fin 128), j = ix2 p q := ⟨j 0, j 1, eq_ix2 j⟩
  exact (arr0_apply (atTc (V5 m)) c _ _ (k5_arg0 m c) (k5_arg3 m c) p q).trans (prod128_apply _ _ p q).symm

include hO in
/-- Region 1 leaves the first layer's messages. -/
theorem region1_result : outs 8 main_v44 c
    = Cert.ReferenceIdeal.Spec.msg128 (Cert.ReferenceIdeal.Spec.prod128 (m ((c.tc : Thread nD τ).loc main_arg0)) (m ((c.tc : Thread nD τ).loc main_arg3))) (m ((c.tc : Thread nD τ).loc main_arg1)) (m ((c.tc : Thread nD τ).loc main_arg2)) := by
  rw [hO.o8 c]
  funext j
  obtain ⟨e, l, rfl⟩ : ∃ (e : Fin 1700000) (l : Fin 128), j = ix2 e l := ⟨j 0, j 1, eq_ix2 j⟩
  refine (arr1_apply (atTc (V7 m outs)) c _ _ _ _ rfl rfl rfl rfl e l).trans ?_
  rw [msg128_apply]
  try dsimp only [atTc]
  rw [k7_feat m c outs, k7_colA m c outs e, k7_colB m c outs e, k7_colD m c outs e, region0_result m c outs hO]

include hO in
/-- Region 2 leaves the product of the rectified first layer with the second weight matrix. -/
theorem region2_result : outs 11 main_v52 c
    = Cert.ReferenceIdeal.Spec.prod64 (Cert.ReferenceIdeal.Spec.relu128 (Cert.ReferenceIdeal.Spec.agg128
        (Cert.ReferenceIdeal.Spec.msg128 (Cert.ReferenceIdeal.Spec.prod128 (m ((c.tc : Thread nD τ).loc main_arg0)) (m ((c.tc : Thread nD τ).loc main_arg3))) (m ((c.tc : Thread nD τ).loc main_arg1)) (m ((c.tc : Thread nD τ).loc main_arg2))) (m ((c.tc : Thread nD τ).loc main_arg1)) (m ((c.tc : Thread nD τ).loc main_arg4)))) (m ((c.tc : Thread nD τ).loc main_arg5)) := by
  rw [hO.o11 c]
  funext j
  obtain ⟨p, q, rfl⟩ : ∃ (p : Fin 100000) (q : Fin 64), j = ix2 p q := ⟨j 0, j 1, eq_ix2 j⟩
  refine (arr2_apply (atTc (V10 m outs)) c _ _ ((k10_hidden m c outs).trans (by rw [region1_result m c outs hO])) (k10_arg5 m c outs) p q).trans ?_
  exact (prod64_apply _ _ p q).symm

include hO in
/-- Region 3 leaves the second layer's messages. -/
theorem region3_result : outs 13 main_v63 c
    = Cert.ReferenceIdeal.Spec.msg64 (Cert.ReferenceIdeal.Spec.prod64 (Cert.ReferenceIdeal.Spec.relu128 (Cert.ReferenceIdeal.Spec.agg128
        (Cert.ReferenceIdeal.Spec.msg128 (Cert.ReferenceIdeal.Spec.prod128 (m ((c.tc : Thread nD τ).loc main_arg0)) (m ((c.tc : Thread nD τ).loc main_arg3))) (m ((c.tc : Thread nD τ).loc main_arg1)) (m ((c.tc : Thread nD τ).loc main_arg2))) (m ((c.tc : Thread nD τ).loc main_arg1)) (m ((c.tc : Thread nD τ).loc main_arg4)))) (m ((c.tc : Thread nD τ).loc main_arg5))) (m ((c.tc : Thread nD τ).loc main_arg1)) (m ((c.tc : Thread nD τ).loc main_arg2)) := by
  rw [hO.o13 c]
  funext j
  obtain ⟨e, l, rfl⟩ : ∃ (e : Fin 1700000) (l : Fin 64), j = ix2 e l := ⟨j 0, j 1, eq_ix2 j⟩
  refine (arr3_apply (atTc (V12 m outs)) c _ _ _ _ rfl rfl rfl rfl e l).trans ?_
  rw [msg64_apply]
  try dsimp only [atTc]
  rw [k12_feat m c outs, k12_colA m c outs e, k12_colB m c outs e, k12_colD m c outs e, region2_result m c outs hO]

include hO in
/-- The result buffer ends at the specified network of the seven arguments. -/
theorem kernel_result : V14 m outs c main_v69
    = Cert.ReferenceIdeal.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [k14_result m c outs, region3_result m c outs hO]
  rfl

end Cert.KernelIdeal.Hand

end
-- ==== Proof.RefSpec.lean ====
/-
  The reference program computes the specified network: its run's result term is `Spec.net` of the arguments,
  piece for piece.
-/
import proofs.«136756_j77644418777510_1_alg».proof.Proof.Spec
import proofs.«136756_j77644418777510_1_alg».proof.Proof.Gen.ReferenceIdeal.Run

set_option maxRecDepth 16384

noncomputable section

namespace Cert.ReferenceIdeal.RefSpec

open Cert.ReferenceIdeal Cert.ReferenceIdeal.Facts₀ Idealize.ShloMosaic Idealize.ShloMosaic.TcCoe Idealize.SL.Sem

variable {F : FTy → Type} [FloatOps F]

/-- The composed term the reference's run ends at is the network of the specification, read at the seven arguments. -/
theorem res_eq (m : (ℓ : Loc nD τ sig) → Buf (Elt F) ℓ) (c : Dev nD) :
    Cert.ReferenceIdeal.Value.res_main_v95 (F := F) m c
      = Spec.net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  unfold Cert.ReferenceIdeal.Value.res_main_v95 Spec.net Spec.agg64 Spec.msg64 Spec.prod64 Spec.relu128 Spec.agg128 Spec.msg128 Spec.prod128
    Spec.normV Spec.disSrc Spec.disDst Spec.disV Spec.degV Spec.idxV Spec.ewV Spec.srcV Spec.dstV
  rfl

end Cert.ReferenceIdeal.RefSpec

end
-- ==== Proof.lean ====
/-
  The certificate: a two-layer graph convolution whose dense products and edge messages run as four kernel
  regions, against the reference in plain array operations.

  Both programs build the same edge lists (the given edges followed by one self-loop per node), the same
  weights, degrees and symmetric normalisation coefficients, with the same host operations. The kernel program
  computes each layer's dense product (features times weights, block of 5000 rows by block) and each layer's
  messages (the product's row at the edge's source times the edge's coefficient, block of 8192 edges by block)
  in kernel regions, and gathers and scatters on the host; the reference does everything on the host. Over the
  extended reals a block-by-block product is the whole product and a block-by-block pointwise scaling the whole
  scaling, so both programs end at the same network of the seven arguments (`Spec.net`): the kernel program by
  reading each region's write-backs entry by entry (`Hand.kernel_result`), the reference by naming the pieces of its
  result term (`RefSpec.res_eq`). No law of arithmetic beyond this regrouping is used, so finiteness of the inputs
  plays no part.

  The frames: each kernel region runs to its end from any contents of its buffers, the last edge block reaching
  past the arrays' end being filled and written back only on the rows inside (`Hand.frame`, for the program as
  printed at the word level and for its idealization); the reference is host operations only. The idealization
  rewrote nothing, so it preserves the printed program trivially.
-/
import proofs.«136756_j77644418777510_1_alg».proof.Defs
import proofs.«136756_j77644418777510_1_alg».proof.Proof.Gen.Kernel
import proofs.«136756_j77644418777510_1_alg».proof.Proof.Gen.KernelIdeal
import proofs.«136756_j77644418777510_1_alg».proof.Proof.Gen.ReferenceIdeal
import proofs.«136756_j77644418777510_1_alg».proof.Proof.Gen.Pre_finite_inputs
import proofs.«136756_j77644418777510_1_alg».proof.Proof.Gen.ReferenceIdeal.Run
import proofs.«136756_j77644418777510_1_alg».proof.Proof.Segs
import proofs.«136756_j77644418777510_1_alg».proof.Proof.Bits.Segs
import proofs.«136756_j77644418777510_1_alg».proof.Proof.Bridge
import proofs.«136756_j77644418777510_1_alg».proof.Proof.RefSpec
import Idealize.ShloMosaic.Adequacy
import Idealize.ShloMosaic.Init

noncomputable section

namespace Cert.Proof

open Idealize.ShloMosaic Idealize.ShloMosaic.TcCoe Idealize.SL.Sem

/-- The printed kernel program runs to its end and leaves its arguments as launched. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference is host operations only: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the network of those arguments in their
    result buffers. -/
theorem algebraic : Cert.algebraic_KernelIdeal_ReferenceIdeal := by
  intro m ρ m' ρ' _ hagree
  obtain ⟨outs, hO⟩ := Cert.KernelIdeal.Hand.exists_outs m
  refine ⟨fun c => Cert.KernelIdeal.Gen.V14 m outs c Cert.KernelIdeal.main_v69, Cert.KernelIdeal.Hand.run_vals m ρ outs hO, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefSpec.res_eq, (hagree c).1, (hagree c).2.1, (hagree c).2.2.1, (hagree c).2.2.2.1, (hagree c).2.2.2.2.1,
    (hagree c).2.2.2.2.2.1, (hagree c).2.2.2.2.2.2]
  exact (Cert.KernelIdeal.Hand.kernel_result m c outs hO).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
